-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v49_0)) (v3 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v49_0) = v2 c
          ∧ r.2.mem ((c.tc : Thread Cert.KernelIdeal.nD Cert.KernelIdeal.τ).loc Cert.KernelIdeal.main_v49_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S3200000 : Shape := ⟨1, ![3200000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3200000 : S_.BroadcastsInDim S3200000 (![] : Fin 0 → Fin S3200000.rank)
  reducesTo_S3200000_S_d0 : S3200000.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : IVec S4096 32) (main_arg8 : IVec S4096 32) (main_v33 : IVec S_ 1) : IVec S_ 1 :=
  let main_c_12 : IVec S_ 32 := constantI S_ 32 0#32
  let main_v34 : IVec S4096 32 := broadcastInDim S4096 ![] bcast_S_S4096 main_c_12
  let main_v35 : IVec S4096 1 := cmpi .sge main_arg7 main_v34
  let main_c_13 : IVec S_ 32 := constantI S_ 32 100000#32
  let main_v36 : IVec S4096 32 := broadcastInDim S4096 ![] bcast_S_S4096 main_c_13
  let main_v37 : IVec S4096 1 := cmpi .slt main_arg7 main_v36
  let main_v38 : IVec S4096 1 := andi main_v35 main_v37
  let main_c_14 : IVec S_ 1 := constantI S_ 1 1#1
  let main_v39 : IVec S_ 1 := (fun x v => Host.reduce IntOp.andi x v reducesTo_S4096_S_d0 h_S_) main_v38 main_c_14
  let main_v40 : IVec S_ 1 := andi main_v33 main_v39
  let main_c_15 : IVec S_ 32 := constantI S_ 32 0#32
  let main_v41 : IVec S4096 32 := broadcastInDim S4096 ![] bcast_S_S4096 main_c_15
  let main_v42 : IVec S4096 1 := cmpi .sge main_arg8 main_v41
  let main_c_16 : IVec S_ 32 := constantI S_ 32 50000#32
  let main_v43 : IVec S4096 32 := broadcastInDim S4096 ![] bcast_S_S4096 main_c_16
  let main_v44 : IVec S4096 1 := cmpi .slt main_arg8 main_v43
  let main_v45 : IVec S4096 1 := andi main_v42 main_v44
  let main_c_17 : IVec S_ 1 := constantI S_ 1 1#1
  let main_v46 : IVec S_ 1 := (fun x v => Host.reduce IntOp.andi x v reducesTo_S4096_S_d0 h_S_) main_v45 main_c_17
  let main_v47 : IVec S_ 1 := andi main_v40 main_v46
  main_v47

def fn_part1 {F : FTy → Type} [FloatOps F] (main_arg6 : FVec F S3200000 .f32) (main_arg7 : IVec S4096 32) (main_arg8 : IVec S4096 32) (main_arg9 : FVec F S100000x64 .f32) (main_arg10 : FVec F S50000x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3200000 .f32 := Host.absf main_arg6
  let main_cst_6 : FVec F S_ .f32 := constant S_ .f32 0x7F800000#32
  let main_v20 : FVec F S3200000 .f32 := broadcastInDim S3200000 ![] bcast_S_S3200000 main_cst_6
  let main_v21 : IVec S3200000 1 := cmpf .olt main_v19 main_v20
  let main_c_7 : IVec S_ 1 := constantI S_ 1 1#1
  let main_v22 : IVec S_ 1 := (fun x v => Host.reduce IntOp.andi x v reducesTo_S3200000_S_d0 h_S_) main_v21 main_c_7
  let main_v23 : IVec S_ 1 := andi main_v18 main_v22
  let main_v24 : FVec F S100000x64 .f32 := Host.absf main_arg9
  let main_cst_8 : FVec F S_ .f32 := constant S_ .f32 0x7F800000#32
  let main_v25 : FVec F S100000x64 .f32 := broadcastInDim S100000x64 ![] bcast_S_S100000x64 main_cst_8
  let main_v26 : IVec S100000x64 1 := cmpf .olt main_v24 main_v25
  let main_c_9 : IVec S_ 1 := constantI S_ 1 1#1
  let main_v27 : IVec S_ 1 := (fun x v => Host.reduce IntOp.andi x v reducesTo_S100000x64_S_d0_1 h_S_) main_v26 main_c_9
  let main_v28 : IVec S_ 1 := andi main_v23 main_v27
  let main_v29 : FVec F S50000x64 .f32 := Host.absf main_arg10
  let main_cst_10 : FVec F S_ .f32 := constant S_ .f32 0x7F800000#32
  let main_v30 : FVec F S50000x64 .f32 := broadcastInDim S50000x64 ![] bcast_S_S50000x64 main_cst_10
  let main_v31 : IVec S50000x64 1 := cmpf .olt main_v29 main_v30
  let main_c_11 : IVec S_ 1 := constantI S_ 1 1#1
  let main_v32 : IVec S_ 1 := (fun x v => Host.reduce IntOp.andi x v reducesTo_S50000x64_S_d0_1 h_S_) main_v31 main_c_11
  let main_v33 : IVec S_ 1 := andi main_v28 main_v32
  fn_part2 (F := F) main_arg7 main_arg8 main_v33

def fn {F : FTy → Type} [FloatOps F] (main_arg0 : FVec F S100000x64 .f32) (main_arg1 : FVec F S50000x64 .f32) (main_arg2 : FVec F S64x64 .f32) (main_arg3 : FVec F S64 .f32) (main_arg4 : IVec S3200000 32) (main_arg5 : IVec S3200000 32) (main_arg6 : FVec F S3200000 .f32) (main_arg7 : IVec S4096 32) (main_arg8 : IVec S4096 32) (main_arg9 : FVec F S100000x64 .f32) (main_arg10 : FVec F S50000x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S3200000 : Shape := ⟨1, ![3200000]⟩
abbrev S4096 : Shape := ⟨1, ![4096]⟩
abbrev S150000x64 : Shape := ⟨2, ![150000, 64]⟩
abbrev S3200000x1 : Shape := ⟨2, ![3200000, 1]⟩
abbrev S_ : Shape := ⟨0, ![]⟩
abbrev S3200000x64 : Shape := ⟨2, ![3200000, 64]⟩
abbrev S4096x64 : Shape := ⟨2, ![4096, 64]⟩
abbrev S2048 : Shape := ⟨1, ![2048]⟩
abbrev S1000x64 : Shape := ⟨2, ![1000, 64]⟩
abbrev S2048x64 : Shape := ⟨2, ![2048, 64]⟩
abbrev S1x1000 : Shape := ⟨2, ![1, 1000]⟩
abbrev S2048x1 : Shape := ⟨2, ![2048, 1]⟩
abbrev S2048x1000 : Shape := ⟨2, ![2048, 1000]⟩
abbrev S1x64 : Shape := ⟨2, ![1, 64]⟩

abbrev nBuf : Space → Nat
  | .hbm => 73
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64, .f32⟩
  | .hbm, ⟨4, _⟩ => ⟨S3200000, .i32⟩
  | .hbm, ⟨5, _⟩ => ⟨S3200000, .i32⟩
  | .hbm, ⟨6, _⟩ => ⟨S3200000, .f32⟩
  | .hbm, ⟨7, _⟩ => ⟨S4096, .i32⟩
  | .hbm, ⟨8, _⟩ => ⟨S4096, .i32⟩
  | .hbm, ⟨9, _⟩ => ⟨S100000x64, .f32⟩
  | .hbm, ⟨10, _⟩ => ⟨S50000x64, .f32⟩
  | .hbm, ⟨11, _⟩ => ⟨S150000x64, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S3200000x64, .f32⟩
  | .hbm, ⟨23, _⟩ => ⟨S3200000x64, .f32⟩
  | .hbm, ⟨24, _⟩ => ⟨S_, .f32⟩
  | .hbm, ⟨25, _⟩ => ⟨S150000x64, .f32⟩
  | .hbm, ⟨26, _⟩ => ⟨S3200000x1, .i32⟩
  | .hbm, ⟨27, _⟩ => ⟨S150000x64, .f32⟩
  | .hbm, ⟨28, _⟩ => ⟨S150000x64, .f32⟩
  | .hbm, ⟨29, _⟩ => ⟨S3200000x1, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x64, .f32⟩
  | .hbm, ⟨39, _⟩ => ⟨S3200000x64, .f32⟩
  | .hbm, ⟨40, _⟩ => ⟨S3200000x64, .f32⟩
  | .hbm, ⟨41, _⟩ => ⟨S_, .f32⟩
  | .hbm, ⟨42, _⟩ => ⟨S150000x64, .f32⟩
  | .hbm, ⟨43, _⟩ => ⟨S3200000x1, .i32⟩
  | .hbm, ⟨44, _⟩ => ⟨S150000x64, .f32⟩
  | .hbm, ⟨45, _⟩ => ⟨S150000x64, .f32⟩
  | .hbm, ⟨46, _⟩ => ⟨S3200000x1, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .f32⟩
  | .hbm, ⟨56, _⟩ => ⟨S3200000x64, .f32⟩
  | .hbm, ⟨57, _⟩ => ⟨S3200000x64, .f32⟩
  | .hbm, ⟨58, _⟩ => ⟨S_, .f32⟩
  | .hbm, ⟨59, _⟩ => ⟨S150000x64, .f32⟩
  | .hbm, ⟨60, _⟩ => ⟨S3200000x1, .i32⟩
  | .hbm, ⟨61, _⟩ => ⟨S150000x64, .f32⟩
  | .hbm, ⟨62, _⟩ => ⟨S150000x64, .f32⟩
  | .hbm, ⟨63, _⟩ => ⟨S_, .f32⟩
  | .hbm, ⟨64, _⟩ => ⟨S150000x64, .f32⟩
  | .hbm, ⟨65, _⟩ => ⟨S150000x64, .f32⟩
  | .hbm, ⟨66, _⟩ => ⟨S100000x64, .f32⟩
  | .hbm, ⟨67, _⟩ => ⟨S50000x64, .f32⟩
  | .hbm, ⟨68, _⟩ => ⟨S64x64, .f32⟩
  | .hbm, ⟨69, _⟩ => ⟨S4096x64, .f32⟩
  | .hbm, ⟨70, _⟩ => ⟨S4096x64, .f32⟩
  | .hbm, ⟨71, _⟩ => ⟨S4096x64, .f32⟩
  | .hbm, ⟨72, _⟩ => ⟨S4096x64, .f32⟩
  | .local _ .vmem, ⟨0, _⟩ => ⟨S2048, .i32⟩
  | .local _ .vmem, ⟨1, _⟩ => ⟨S2048, .i32⟩
  | .local _ .vmem, ⟨2, _⟩ => ⟨S1000x64, .f32⟩
  | .local _ .vmem, ⟨3, _⟩ => ⟨S1000x64, .f32⟩
  | .local _ .vmem, ⟨4, _⟩ => ⟨S1000x64, .f32⟩
  | .local _ .vmem, ⟨5, _⟩ => ⟨S1000x64, .f32⟩
  | .local _ .vmem, ⟨6, _⟩ => ⟨S64x64, .f32⟩
  | .local _ .vmem, ⟨7, _⟩ => ⟨S64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048, .i32⟩
  | .local _ .vmem, ⟨15, _⟩ => ⟨S2048, .i32⟩
  | .local _ .vmem, ⟨16, _⟩ => ⟨S1000x64, .f32⟩
  | .local _ .vmem, ⟨17, _⟩ => ⟨S1000x64, .f32⟩
  | .local _ .vmem, ⟨18, _⟩ => ⟨S1000x64, .f32⟩
  | .local _ .vmem, ⟨19, _⟩ => ⟨S1000x64, .f32⟩
  | .local _ .vmem, ⟨20, _⟩ => ⟨S64x64, .f32⟩
  | .local _ .vmem, ⟨21, _⟩ => ⟨S64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48_0 : Ref sig .tc := ⟨.hbm, 69, rfl⟩
abbrev main_v48_1 : Ref sig .tc := ⟨.hbm, 70, rfl⟩
abbrev main_v49_0 : Ref sig .tc := ⟨.hbm, 71, rfl⟩
abbrev main_v49_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v32 : BitVec 1 := Scalar.cmpi .eq arg1 c99_i32
  let v33 : BitVec 32 := Scalar.extui v32
  let c0_i32_14 : BitVec 32 := 0#32
  let v34 : BitVec 1 := Scalar.cmpi .ne v33 c0_i32_14
  v34

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 50], ![false, false]⟩

def k1_cond2 (i : grid1.Coords) : BitVec 1 :=
  let arg1 : BitVec 32 := BitVec.ofNat 32 (i 1).val
  let c49_i32 : BitVec 32 := 49#32
  let v32 : BitVec 1 := Scalar.cmpi .eq arg1 c49_i32
  let v33 : BitVec 32 := Scalar.extui v32
  let c0_i32_14 : BitVec 32 := 0#32
  let v34 : BitVec 1 := Scalar.cmpi .ne v33 c0_i32_14
  v34

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2048x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  concatenates_S100000x64_S50000x64_S150000x64_d0 : Shape.Concatenates [S100000x64, S50000x64] S150000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  transposes_S64x64_S64x64_1_0 : S64x64.Transposes [1, 0] S64x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048_S2048_0 : ∀ a, (![0] : Fin 1 → Nat) a + S2048.size a ≤ S2048.size a
  h_S2048 : 0 < S2048.numel
  iota_S1x1000_d1_w32 : S1x1000.Iotas .tc 32 [1]
  shapeCasts_S2048_S2048x1 : S2048.ShapeCasts S2048x1
  broadcasts_S2048x1_S2048x1000 : S2048x1.Broadcasts S2048x1000
  broadcasts_S1x1000_S2048x1000 : S1x1000.Broadcasts S2048x1000
  natLt_1_32 : 1 < 32
  bitsLt_bf16_f32 : FTy.bits .bf16 < FTy.bits .f32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1
  dot_S2048x1000_S1000x64_S2048x64_1_0_0_1_n_n_wf : DotDims.WF S2048x1000 S1000x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S4096.size a
  hwx0_0 : ∀ i : grid0.Coords, EltTy.bits .i32 = 32 ∨ (Rect.block (s := S4096) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S100000x64.size a
  hwx0_1 : ∀ i : grid0.Coords, EltTy.bits .f32 = 32 ∨ (Rect.block (s := S100000x64) S1000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S100000x64.size a
  hwx0_2 : ∀ i : grid0.Coords, EltTy.bits .f32 = 32 ∨ (Rect.block (s := S100000x64) S1000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S4096x64.size a
  hwx0_5 : ∀ i : grid0.Coords, EltTy.bits .f32 = 32 ∨ (Rect.block (s := S4096x64) S2048x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S4096x64.size a
  hwx0_6 : ∀ i : grid0.Coords, EltTy.bits .f32 = 32 ∨ (Rect.block (s := S4096x64) S2048x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S4096.size a
  hwx1_0 : ∀ i : grid1.Coords, EltTy.bits .i32 = 32 ∨ (Rect.block (s := S4096) S2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S50000x64.size a
  hwx1_1 : ∀ i : grid1.Coords, EltTy.bits .f32 = 32 ∨ (Rect.block (s := S50000x64) S1000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S50000x64.size a
  hwx1_2 : ∀ i : grid1.Coords, EltTy.bits .f32 = 32 ∨ (Rect.block (s := S50000x64) S1000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S4096x64.size a
  hwx1_5 : ∀ i : grid1.Coords, EltTy.bits .f32 = 32 ∨ (Rect.block (s := S4096x64) S2048x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S4096x64.size a
  hwx1_6 : ∀ i : grid1.Coords, EltTy.bits .f32 = 32 ∨ (Rect.block (s := S4096x64) S2048x64.size (cc1_transform_6 i) (hinb1_6 i)).WholeWords (EltTy.packing .f32)

variable [Facts₀]

def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf
def dot_S2048x1000_S1000x64_S2048x64_1_0_0_1_n_n : DotDims S2048x1000 S1000x64 S2048x64 where
  lhsContracting := [1]
  rhsContracting := [0]
  lhsNonContracting := [0]
  rhsNonContracting := [1]
  lhsBatch := []
  rhsBatch := []
  wf := dot_S2048x1000_S1000x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg7) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S1000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48_0) S2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v48_1) S2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg8) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S1000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49_0) S2048x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v49_1) S2048x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S3200000 : Shape := ⟨1, ![3200000]⟩
abbrev S4096 : Shape := ⟨1, ![4096]⟩
abbrev S150000x64 : Shape := ⟨2, ![150000, 64]⟩
abbrev S3200000x1 : Shape := ⟨2, ![3200000, 1]⟩
abbrev S_ : Shape := ⟨0, ![]⟩
abbrev S3200000x64 : Shape := ⟨2, ![3200000, 64]⟩
abbrev S4096x1 : Shape := ⟨2, ![4096, 1]⟩
abbrev S4096x64 : Shape := ⟨2, ![4096, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64, .f32⟩
  | .hbm, ⟨4, _⟩ => ⟨S3200000, .i32⟩
  | .hbm, ⟨5, _⟩ => ⟨S3200000, .i32⟩
  | .hbm, ⟨6, _⟩ => ⟨S3200000, .f32⟩
  | .hbm, ⟨7, _⟩ => ⟨S4096, .i32⟩
  | .hbm, ⟨8, _⟩ => ⟨S4096, .i32⟩
  | .hbm, ⟨9, _⟩ => ⟨S100000x64, .f32⟩
  | .hbm, ⟨10, _⟩ => ⟨S50000x64, .f32⟩
  | .hbm, ⟨11, _⟩ => ⟨S150000x64, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S3200000x64, .f32⟩
  | .hbm, ⟨23, _⟩ => ⟨S3200000x64, .f32⟩
  | .hbm, ⟨24, _⟩ => ⟨S_, .f32⟩
  | .hbm, ⟨25, _⟩ => ⟨S150000x64, .f32⟩
  | .hbm, ⟨26, _⟩ => ⟨S3200000x1, .i32⟩
  | .hbm, ⟨27, _⟩ => ⟨S150000x64, .f32⟩
  | .hbm, ⟨28, _⟩ => ⟨S150000x64, .f32⟩
  | .hbm, ⟨29, _⟩ => ⟨S3200000x1, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x64, .f32⟩
  | .hbm, ⟨39, _⟩ => ⟨S3200000x64, .f32⟩
  | .hbm, ⟨40, _⟩ => ⟨S3200000x64, .f32⟩
  | .hbm, ⟨41, _⟩ => ⟨S_, .f32⟩
  | .hbm, ⟨42, _⟩ => ⟨S150000x64, .f32⟩
  | .hbm, ⟨43, _⟩ => ⟨S3200000x1, .i32⟩
  | .hbm, ⟨44, _⟩ => ⟨S150000x64, .f32⟩
  | .hbm, ⟨45, _⟩ => ⟨S150000x64, .f32⟩
  | .hbm, ⟨46, _⟩ => ⟨S3200000x1, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .f32⟩
  | .hbm, ⟨56, _⟩ => ⟨S3200000x64, .f32⟩
  | .hbm, ⟨57, _⟩ => ⟨S3200000x64, .f32⟩
  | .hbm, ⟨58, _⟩ => ⟨S_, .f32⟩
  | .hbm, ⟨59, _⟩ => ⟨S150000x64, .f32⟩
  | .hbm, ⟨60, _⟩ => ⟨S3200000x1, .i32⟩
  | .hbm, ⟨61, _⟩ => ⟨S150000x64, .f32⟩
  | .hbm, ⟨62, _⟩ => ⟨S150000x64, .f32⟩
  | .hbm, ⟨63, _⟩ => ⟨S_, .f32⟩
  | .hbm, ⟨64, _⟩ => ⟨S150000x64, .f32⟩
  | .hbm, ⟨65, _⟩ => ⟨S150000x64, .f32⟩
  | .hbm, ⟨66, _⟩ => ⟨S100000x64, .f32⟩
  | .hbm, ⟨67, _⟩ => ⟨S50000x64, .f32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S4096x1, .i32⟩
  | .hbm, ⟨76, _⟩ => ⟨S4096x64, .f32⟩
  | .hbm, ⟨77, _⟩ => ⟨S_, .i32⟩
  | .hbm, ⟨78, _⟩ => ⟨S4096, .i32⟩
  | .hbm, ⟨79, _⟩ => ⟨S4096, .i1⟩
  | .hbm, ⟨80, _⟩ => ⟨S_, .i32⟩
  | .hbm, ⟨81, _⟩ => ⟨S4096, .i32⟩
  | .hbm, ⟨82, _⟩ => ⟨S4096, .i32⟩
  | .hbm, ⟨83, _⟩ => ⟨S4096, .i32⟩
  | .hbm, ⟨84, _⟩ => ⟨S4096x1, .i32⟩
  | .hbm, ⟨85, _⟩ => ⟨S4096x64, .f32⟩
  | .hbm, ⟨86, _⟩ => ⟨S_, .i32⟩
  | .hbm, ⟨87, _⟩ => ⟨S4096, .i32⟩
  | .hbm, ⟨88, _⟩ => ⟨S4096, .i1⟩
  | .hbm, ⟨89, _⟩ => ⟨S_, .i32⟩
  | .hbm, ⟨90, _⟩ => ⟨S4096, .i32⟩
  | .hbm, ⟨91, _⟩ => ⟨S4096, .i32⟩
  | .hbm, ⟨92, _⟩ => ⟨S4096, .i32⟩
  | .hbm, ⟨93, _⟩ => ⟨S4096x1, .i32⟩
  | .hbm, ⟨94, _⟩ => ⟨S4096x64, .f32⟩
  | .hbm, ⟨95, _⟩ => ⟨S_, .f32⟩
  | .hbm, ⟨96, _⟩ => ⟨S4096x64, .f32⟩
  | .hbm, ⟨97, _⟩ => ⟨S4096x64, .f32⟩
  | .hbm, ⟨98, _⟩ => ⟨S_, .f32⟩
  | .hbm, ⟨99, _⟩ => ⟨S4096x64, .f32⟩
  | .hbm, ⟨100, _⟩ => ⟨S4096x64, .f32⟩
  | .hbm, ⟨101, _⟩ => ⟨S4096x64, .f32⟩
  | .hbm, ⟨102, _⟩ => ⟨S_, .i32⟩
  | .hbm, ⟨103, _⟩ => ⟨S4096, .i32⟩
  | .hbm, ⟨104, _⟩ => ⟨S4096, .i1⟩
  | .hbm, ⟨105, _⟩ => ⟨S_, .i32⟩
  | .hbm, ⟨106, _⟩ => ⟨S4096, .i32⟩
  | .hbm, ⟨107, _⟩ => ⟨S4096, .i32⟩
  | .hbm, ⟨108, _⟩ => ⟨S4096, .i32⟩
  | .hbm, ⟨109, _⟩ => ⟨S4096x1, .i32⟩
  | .hbm, ⟨110, _⟩ => ⟨S4096x64, .f32⟩
  | .hbm, ⟨111, _⟩ => ⟨S_, .f32⟩
  | .hbm, ⟨112, _⟩ => ⟨S4096x64, .f32⟩
  | .hbm, ⟨113, _⟩ => ⟨S4096x64, .f32⟩
  | .hbm, ⟨114, _⟩ => ⟨S_, .f32⟩
  | .hbm, ⟨115, _⟩ => ⟨S4096x64, .f32⟩
  | .hbm, ⟨116, _⟩ => ⟨S4096x64, .f32⟩
  | .hbm, ⟨117, _⟩ => ⟨S4096x64, .f32⟩
  | .hbm, ⟨118, _⟩ => ⟨S64x64, .f32⟩
  | .hbm, ⟨119, _⟩ => ⟨S4096x64, .f32⟩
  | .hbm, ⟨120, _⟩ => ⟨S1x64, .f32⟩
  | .hbm, ⟨121, _⟩ => ⟨S4096x64, .f32⟩
  | .hbm, ⟨122, _⟩ => ⟨S4096x64, .f32⟩
  | .hbm, ⟨123, _⟩ => ⟨S64x64, .f32⟩
  | .hbm, ⟨124, _⟩ => ⟨S4096x64, .f32⟩
  | .hbm, ⟨125, _⟩ => ⟨S1x64, .f32⟩
  | .hbm, ⟨126, _⟩ => ⟨S4096x64, .f32⟩
  | .hbm, ⟨127, _⟩ => ⟨S4096x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_18 : Ref sig .tc := ⟨.hbm, 111, rfl⟩
abbrev main_v80 : Ref sig .tc := ⟨.hbm, 112, rfl⟩
abbrev main_v81 : Ref sig .tc := ⟨.hbm, 113, rfl⟩
abbrev main_cst_19 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  bcast_S_S4096x64 : S_.BroadcastsInDim S4096x64 (![] : Fin 0 → Fin S4096x64.rank)
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  dot_S4096x64_S64x64_S4096x64_1_0_0_1_n_n_wf : DotDims.WF S4096x64 S64x64 S4096x64 [1] [0] [0] [1] [] []

variable [Facts₀]

def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

class Facts : Prop extends Facts₀ where

variable [Facts]
-- ==== Proof.KBodyU.lean ====
/-
  The body of the user-side gather kernel at one grid point (batch tile i, table block k), in its three control cases.
  Row r of the one-hot block is 1 exactly at the column j with idx r = 1000 k + j; the body adds
  onehot · table-block to each of two running sums (the layer-averaged table's rows and the history table's rows),
  resets both sums to zero first when k = 0, and when k is the last block writes the momentum blend of the two sums
  and the projection of the first sum through the transposed weight plus the bias.
  Stated over ANY whole staging memrefs and at any float instance: what each buffer holds afterwards is a pure
  function of what the inputs held (the generated payloads), so one text serves the word-level and the ideal reading.
-/
import proofs.«404517_j50560355008860_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.RegionU

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first table block of its batch tile (k = 0), as the kernel tests it. -/
abbrev isFirst (i : grid0.Coords) : Prop :=
  (Scalar.cmpi .ne (Scalar.extui (Scalar.cmpi .eq (BitVec.ofNat 32 (i 1).val) 0#32)) 0#32) = 1#1
/-- The point is the last table block of its batch tile (k = 99), as the kernel tests it. -/
abbrev isLast (i : grid0.Coords) : Prop := k0_cond2 i = 1#1

/-- The running sum of selected table rows after one more block: acc + onehot(i, idx) · blk. -/
def sumTbl (i : grid0.Coords) (idx : Vec F S2048 .i32) (blk : Vec F S1000x64 .f32) (acc : Vec F S2048x64 .f32) : Vec F S2048x64 .f32 :=
  k0_pay6 i idx blk acc
/-- The running sum of selected history rows after one more block. -/
def sumHis (i : grid0.Coords) (idx : Vec F S2048 .i32) (blk : Vec F S1000x64 .f32) (acc : Vec F S2048x64 .f32) : Vec F S2048x64 .f32 :=
  k0_pay7 i idx blk acc
/-- The two sums as reset at the first block. -/
def zeroTbl : Vec F S2048x64 .f32 := k0_pay3
def zeroHis : Vec F S2048x64 .f32 := k0_pay4
/-- The momentum blend his · 0.05 + tbl · 0.95 (the two f32 words as printed). -/
def blend (tblSum hisSum : Vec F S2048x64 .f32) : Vec F S2048x64 .f32 := k0_pay1 tblSum hisSum
/-- The projection tblSum · wt + bias. -/
def project (tblSum : Vec F S2048x64 .f32) (wt : Vec F S64x64 .f32) (bias : Vec F S64 .f32) : Vec F S2048x64 .f32 := k0_pay2 tblSum wt bias

/-- The zero offsets of a rank-2 rectangle, as the constant function. -/
private theorem hz2 : (![0, 0] : Fin 2 → Nat) = fun _ => 0 := funext fun a => by fin_cases a <;> rfl
/-- The zero offset of a rank-1 rectangle, as the constant function. -/
private theorem hz1 : (![0] : Fin 1 → Nat) = fun _ => 0 := funext fun a => by fin_cases a; rfl

section Whole
variable {S : Shape} {e : EltTy} (M : Memref sig .tc .vmem S e)

/-- A load of the whole shape at zero offsets, from a whole buffer whose contents read `X`, reads `X`. -/
private theorem load_whole (hM : M.IsWhole) {off : Fin S.rank → Nat} (hz : off = fun _ => 0) (inb : ∀ a, off a + S.size a ≤ S.size a)
    (X : S.Idx → Elt F e) :
    View.readAt (Elt F) M.view (Rect.unit off S.size inb).toLoadRect (hM.unread X) = X := by
  rw [View.readAt_eq_ld, hM.read_unread, View.ld_unit_zero hz]

/-- After a store of the whole shape at zero offsets, made LAST, the buffer reads the stored value, whatever it
    held before and whatever the earlier stores were (the list holds the last store first). -/
private theorem read_store_last (f : M.view.ty.Contents (Elt F)) {off : Fin S.rank → Nat} (hz : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

set_option maxHeartbeats 1000000 in
/-- FIRST block of a tile (not the last): both sums are reset, then take the block's contribution; the two output
    buffers are not touched. -/
theorem run_first (c : Dev nD) (i : grid0.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : isFirst i) (h1 : ¬isLast i)
    (idx : Vec F S2048 .i32) (tbl his : Vec F S1000x64 .f32) (wt : Vec F S64x64 .f32) (bias : Vec F S64 .f32)
    (xp xt : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ owns (c : Thread nD τ) arg7 fullShare xp ∗ owns (c : Thread nD τ) arg8 fullShare xt
        ∗ (∃ d, owns (c : Thread nD τ) arg9 fullShare d) ∗ (∃ d, owns (c : Thread nD τ) arg10 fullShare d)
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare xp ∗ owns (c : Thread nD τ) arg8 fullShare xt
            ∗ owns (c : Thread nD τ) arg9 fullShare (sumTbl i idx tbl zeroTbl) ∗ owns (c : Thread nD τ) arg10 fullShare (sumHis i idx his zeroHis)) -∗ K ⟨⟩))
      ⊢ wp frame (wpE (defs₀ (F := F)) Variants.none c none) E (cc0__gather_blend_proj_kernel i arg2 harg2 arg3 harg3 arg4 harg4 arg5 harg5 arg6 harg6 arg7 harg7 arg8 harg8 arg9 harg9 arg10 harg10) K := by
  simp only [cc0__gather_blend_proj_kernel_eq_skeleton]; unfold cc0__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    rotate_left
    · iexact H9
    · ipureintro
      rw [read_store_last arg9 _ hz2]
      sl_unfold_run_names
      rw [View.readCov_cons_toLoadRect, load_whole arg2 harg2 hz1, load_whole arg3 harg3 hz2]
      rfl
  iexists _; isplitr
  rotate_left
  · iexact H10
  · ipureintro
    rw [read_store_last arg10 _ hz2]
    sl_unfold_run_names
    rw [View.readCov_cons_toLoadRect, load_whole arg2 harg2 hz1, load_whole arg4 harg4 hz2]
    rfl

set_option maxHeartbeats 1000000 in
/-- MIDDLE block: both sums take the block's contribution over what the point before left; outputs not touched. -/
theorem run_mid (c : Dev nD) (i : grid0.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : ¬isFirst i) (h1 : ¬isLast i)
    (idx : Vec F S2048 .i32) (tbl his : Vec F S1000x64 .f32) (wt : Vec F S64x64 .f32) (bias : Vec F S64 .f32)
    (xp xt st sh : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ owns (c : Thread nD τ) arg7 fullShare xp ∗ owns (c : Thread nD τ) arg8 fullShare xt
        ∗ owns (c : Thread nD τ) arg9 fullShare st ∗ owns (c : Thread nD τ) arg10 fullShare sh
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare xp ∗ owns (c : Thread nD τ) arg8 fullShare xt
            ∗ owns (c : Thread nD τ) arg9 fullShare (sumTbl i idx tbl st) ∗ owns (c : Thread nD τ) arg10 fullShare (sumHis i idx his sh)) -∗ K ⟨⟩))
      ⊢ wp frame (wpE (defs₀ (F := F)) Variants.none c none) E (cc0__gather_blend_proj_kernel i arg2 harg2 arg3 harg3 arg4 harg4 arg5 harg5 arg6 harg6 arg7 harg7 arg8 harg8 arg9 harg9 arg10 harg10) K := by
  simp only [cc0__gather_blend_proj_kernel_eq_skeleton]; unfold cc0__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    rotate_left
    · iexact H9
    · ipureintro
      rw [read_store_last arg9 _ hz2, load_whole arg2 harg2 hz1, load_whole arg3 harg3 hz2, load_whole arg9 harg9 hz2]
      rfl
  iexists _; isplitr
  rotate_left
  · iexact H10
  · ipureintro
    rw [read_store_last arg10 _ hz2, load_whole arg2 harg2 hz1, load_whole arg4 harg4 hz2, load_whole arg10 harg10 hz2]
    rfl

set_option maxHeartbeats 1000000 in
/-- LAST block (not the first): both sums take the block's contribution, and the outputs are written whole:
    the projection of the table sum into the first, the blend of the two sums into the second. -/
theorem run_last (c : Dev nD) (i : grid0.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : ¬isFirst i) (h1 : isLast i)
    (idx : Vec F S2048 .i32) (tbl his : Vec F S1000x64 .f32) (wt : Vec F S64x64 .f32) (bias : Vec F S64 .f32)
    (st sh : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ (∃ d, owns (c : Thread nD τ) arg7 fullShare d) ∗ (∃ d, owns (c : Thread nD τ) arg8 fullShare d)
        ∗ owns (c : Thread nD τ) arg9 fullShare st ∗ owns (c : Thread nD τ) arg10 fullShare sh
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare (project (sumTbl i idx tbl st) wt bias)
            ∗ owns (c : Thread nD τ) arg8 fullShare (blend (sumTbl i idx tbl st) (sumHis i idx his sh))
            ∗ owns (c : Thread nD τ) arg9 fullShare (sumTbl i idx tbl st) ∗ owns (c : Thread nD τ) arg10 fullShare (sumHis i idx his sh)) -∗ K ⟨⟩))
      ⊢ wp frame (wpE (defs₀ (F := F)) Variants.none c none) E (cc0__gather_blend_proj_kernel i arg2 harg2 arg3 harg3 arg4 harg4 arg5 harg5 arg6 harg6 arg7 harg7 arg8 harg8 arg9 harg9 arg10 harg10) K := by
  simp only [cc0__gather_blend_proj_kernel_eq_skeleton]; unfold cc0__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := harg9.eq_unread hf9; obtain rfl := harg10.eq_unread hf10
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    rotate_left
    · iexact H7
    · ipureintro
      rw [read_store_last arg7 _ hz2]
      sl_unfold_run_names
      rw [View.readCov_cons_toLoadRect, load_whole arg2 harg2 hz1, load_whole arg3 harg3 hz2, load_whole arg9 harg9 hz2,
        load_whole arg5 harg5 hz2, load_whole arg6 harg6 hz1]
      rfl
  isplitl [H8]
  · iexists _; isplitr
    rotate_left
    · iexact H8
    · ipureintro
      rw [read_store_last arg8 _ hz2]
      sl_unfold_run_names
      rw [View.readCov_cons_toLoadRect, View.readCov_cons_toLoadRect, load_whole arg2 harg2 hz1, load_whole arg3 harg3 hz2,
        load_whole arg9 harg9 hz2, load_whole arg4 harg4 hz2, load_whole arg10 harg10 hz2]
      rfl
  isplitl [H9]
  · iexists _; isplitr
    rotate_left
    · iexact H9
    · ipureintro
      sl_unfold_run_names
      rw [read_store_last arg9 _ hz2, load_whole arg2 harg2 hz1, load_whole arg3 harg3 hz2, load_whole arg9 harg9 hz2]
      rfl
  iexists _; isplitr
  rotate_left
  · iexact H10
  · ipureintro
    sl_unfold_run_names
    rw [read_store_last arg10 _ hz2, load_whole arg2 harg2 hz1, load_whole arg4 harg4 hz2, load_whole arg10 harg10 hz2]
    rfl

end Cert.Kernel.RegionU

end
-- ==== Proof.KDatU.lean ====
/-
  The user-side gather region's proof data, at any entry contents V of the unscoped buffers and any float instance.
  Point t = 100 i + k of the grid (batch tile i, table block k). After the body at t the two scratch buffers hold
  the sums over blocks 0..k of onehot · block (of the averaged table and of the history table), restarted from zero
  at k = 0; at k = 99 the two output buffers hold the projection and the blend of those sums and are written back;
  at every other point the output buffers are left as found. Between points the region's invariant is: the two
  scratch buffers at those sums, every other scoped buffer of the program at something.
-/
import proofs.«404517_j50560355008860_1_alg».proof.Proof.KBodyU
import proofs.«404517_j50560355008860_1_alg».proof.Proof.KernelLaunch
import proofs.«404517_j50560355008860_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.RegionU

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered, per core
variable (V : (c : Dev nD) → (b : Ref sig .tc) → Buf (Elt F) ((c : Thread nD τ).loc b))

/-- Window w's block of its array at point t, as the fetch stages it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The index block, the two table blocks, the weight and the bias at point t, at their literal types. -/
def idxAt (c : Dev nD) (t : Fin cfg0.N) : Vec F S2048 .i32 := iblk V c 0 t
def tblAt (c : Dev nD) (t : Fin cfg0.N) : Vec F S1000x64 .f32 := iblk V c 1 t
def hisAt (c : Dev nD) (t : Fin cfg0.N) : Vec F S1000x64 .f32 := iblk V c 2 t
def wtAt (c : Dev nD) (t : Fin cfg0.N) : Vec F S64x64 .f32 := iblk V c 3 t
def biasAt (c : Dev nD) (t : Fin cfg0.N) : Vec F S64 .f32 := iblk V c 4 t

/-- THE ACCUMULATION: the pair (table sum, history sum) the scratch buffers hold after the body at position n. -/
def sumsAt (c : Dev nD) : (n : ℕ) → n < cfg0.N → Vec F S2048x64 .f32 × Vec F S2048x64 .f32
  | 0, hn => (sumTbl (grid0.coords ⟨0, hn⟩) (idxAt V c ⟨0, hn⟩) (tblAt V c ⟨0, hn⟩) zeroTbl,
              sumHis (grid0.coords ⟨0, hn⟩) (idxAt V c ⟨0, hn⟩) (hisAt V c ⟨0, hn⟩) zeroHis)
  | n + 1, hn =>
    if (n + 1) % 100 = 0 then
      (sumTbl (grid0.coords ⟨n + 1, hn⟩) (idxAt V c ⟨n + 1, hn⟩) (tblAt V c ⟨n + 1, hn⟩) zeroTbl,
       sumHis (grid0.coords ⟨n + 1, hn⟩) (idxAt V c ⟨n + 1, hn⟩) (hisAt V c ⟨n + 1, hn⟩) zeroHis)
    else
      (sumTbl (grid0.coords ⟨n + 1, hn⟩) (idxAt V c ⟨n + 1, hn⟩) (tblAt V c ⟨n + 1, hn⟩) (sumsAt c n (Nat.lt_of_succ_lt hn)).1,
       sumHis (grid0.coords ⟨n + 1, hn⟩) (idxAt V c ⟨n + 1, hn⟩) (hisAt V c ⟨n + 1, hn⟩) (sumsAt c n (Nat.lt_of_succ_lt hn)).2)

/-- At the first block of a tile the sums restart from zero. -/
theorem sumsAt_first (c : Dev nD) (t : Fin cfg0.N) (h : t.val % 100 = 0) :
    sumsAt V c t.val t.isLt = (sumTbl (grid0.coords t) (idxAt V c t) (tblAt V c t) zeroTbl, sumHis (grid0.coords t) (idxAt V c t) (hisAt V c t) zeroHis) := by
  obtain ⟨n, hn⟩ := t
  cases n with
  | zero => rfl
  | succ n => exact if_pos h
/-- At any other block they continue from the point before. -/
theorem sumsAt_next (c : Dev nD) (t : Fin cfg0.N) (h : ¬t.val % 100 = 0) :
    sumsAt V c t.val t.isLt = (sumTbl (grid0.coords t) (idxAt V c t) (tblAt V c t) (sumsAt V c (t.val - 1) (Nat.lt_of_le_of_lt (Nat.sub_le _ _) t.isLt)).1,
      sumHis (grid0.coords t) (idxAt V c t) (hisAt V c t) (sumsAt V c (t.val - 1) (Nat.lt_of_le_of_lt (Nat.sub_le _ _) t.isLt)).2) := by
  obtain ⟨n, hn⟩ := t
  cases n with
  | zero => exact absurd (Nat.zero_mod 100) h
  | succ n => exact if_neg h

/-- What the first output's buffer (the projection) and the second's (the blend) hold after the body at a last block. -/
def projAt (c : Dev nD) (t : Fin cfg0.N) : Vec F S2048x64 .f32 := project (sumsAt V c t.val t.isLt).1 (wtAt V c t) (biasAt V c t)
def blendAt (c : Dev nD) (t : Fin cfg0.N) : Vec F S2048x64 .f32 := blend (sumsAt V c t.val t.isLt).1 (sumsAt V c t.val t.isLt).2

/-- The two scratch operands as memrefs. -/
abbrev scTbl : Memref sig .tc .vmem S2048x64 .f32 := Memref.whole cc0_scratch0
abbrev scHis : Memref sig .tc .vmem S2048x64 .f32 := Memref.whole cc0_scratch1

/-- Every scoped buffer that is neither a staging buffer of this region nor one of its two scratch buffers (the
    other region's fourteen), each whole at something. -/
def otherScoped (c : Dev nD) : sProp 𝕄 :=
  Pipeline.scopedRestBut (Ix := Unit) (Name := ℕ) (U := UR sig nD τ) (Lvl := ℕ) (Val := Elt F) spec0 c [cc0_scratch0, cc0_scratch1]

/-- The scoped rest of this region is its two scratch buffers at something beside the others. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) scTbl fullShare d) ∗ (∃ d, owns (c : Thread nD τ) scHis fullShare d) ∗ otherScoped (F := F) c) := by
  rw [Pipeline.scopedRest_split_of_list spec0 c [cc0_scratch0, cc0_scratch1] (by decide) (by decide)]
  unfold otherScoped
  simp only [scTbl, scHis, owns_whole]
  exact equiv_iff.mp ⟨Idealize.SL.BI.sep_assoc, Idealize.SL.BI.sep_assoc'⟩

/-- The invariant before position n: at the region's entry the scoped rest; afterwards the two scratch buffers at the
    sums the point before left, beside the other scoped buffers. -/
def Phi (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scTbl fullShare (sumsAt V c n hn).1 ∗ owns (c : Thread nD τ) scHis fullShare (sumsAt V c n hn).2 ∗ otherScoped (F := F) c)

/-- Before the first point the invariant is the scoped rest. -/
theorem Phi_zero (c : Dev nD) (n : ℕ) (h : n ≤ cfg0.N) (hz : n = 0) :
    Phi V c n h = Pipeline.scopedRest (Ix := Unit) (Name := ℕ) (U := UR sig nD τ) (Lvl := ℕ) (Val := Elt F) spec0 c := by
  subst hz; rfl

/-- Before any later point it names the sums the point before left. -/
theorem Phi_pos (c : Dev nD) (n : ℕ) (h : n ≤ cfg0.N) (hz : n ≠ 0) :
    Phi V c n h = iprop(owns (c : Thread nD τ) scTbl fullShare (sumsAt V c (n - 1) (by omega)).1
      ∗ owns (c : Thread nD τ) scHis fullShare (sumsAt V c (n - 1) (by omega)).2 ∗ otherScoped (F := F) c) := by
  cases n with
  | zero => exact absurd rfl hz
  | succ n => rfl

/-- At every position the invariant holds both sums at something: at the entry by splitting the scoped rest,
    later by forgetting which sums they are. That is all a first block of a tile asks of them. -/
theorem Phi_forget (c : Dev nD) (n : ℕ) (h : n ≤ cfg0.N) :
    Phi V c n h ⊢ iprop((∃ d, owns (c : Thread nD τ) scTbl fullShare d) ∗ (∃ d, owns (c : Thread nD τ) scHis fullShare d) ∗ otherScoped (F := F) c) := by
  by_cases hz : n = 0
  · rw [Phi_zero V c n h hz, scopedRest_split]
  · rw [Phi_pos V c n h hz]
    iintro ⟨Ht, Hh, Hr⟩
    isplitl [Ht]
    · iexists _; iexact Ht
    isplitl [Hh]
    · iexists _; iexact Hh
    iexact Hr

/-- The region's proof data on core c. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => projAt V c t
    | ⟨6, _⟩ => blendAt V c t
  Φ t := Phi V c t.val (Nat.le_of_lt_succ t.isLt)
  q _ := fullShare
  owed _ := 0

theorem dat_A (c : Dev nD) (w : Fin cfg0.W) : (dat V c).A w = V c (Pipeline.arrRef spec0 w) := by dsimp only [dat]
theorem dat_after5 (c : Dev nD) (t : Fin cfg0.N) : (dat V c).after 5 t = projAt V c t := by dsimp only [dat]
theorem dat_after6 (c : Dev nD) (t : Fin cfg0.N) : (dat V c).after 6 t = blendAt V c t := by dsimp only [dat]
theorem dat_Phi_zero (c : Dev nD) : (dat V c).Φ 0 = Pipeline.scopedRest (Ix := Unit) (Name := ℕ) (U := UR sig nD τ) (Lvl := ℕ) (Val := Elt F) spec0 c := rfl
/-- At the region's exit the invariant gives the scoped rest back. -/
theorem dat_Phi_last (c : Dev nD) : (dat V c).Φ (Fin.last cfg0.N) ⊢ (Pipeline.scopedRest (Ix := Unit) (Name := ℕ) (U := UR sig nD τ) (Lvl := ℕ) (Val := Elt F) spec0 c : sProp 𝕄) := by
  rw [show (dat V c).Φ (Fin.last cfg0.N) = Phi V c (Fin.last cfg0.N).val (Nat.le_of_lt_succ (Fin.last cfg0.N).isLt) from rfl,
    Phi_pos V c _ _ (by rw [Fin.val_last]; have : cfg0.N = 200 := N_0; omega), scopedRest_split]
  iintro ⟨Ht, Hh, Hr⟩
  isplitl [Ht]
  · iexists _; iexact Ht
  isplitl [Hh]
  · iexists _; iexact Hh
  iexact Hr

/-! ## The body obligation -/

/-- Each sum by itself, at a first block and at a later one. -/
theorem tblSum_first (c : Dev nD) (t : Fin cfg0.N) (h : t.val % 100 = 0) :
    (sumsAt V c t.val t.isLt).1 = sumTbl (grid0.coords t) (idxAt V c t) (tblAt V c t) zeroTbl :=
  congrArg Prod.fst (sumsAt_first V c t h)
theorem hisSum_first (c : Dev nD) (t : Fin cfg0.N) (h : t.val % 100 = 0) :
    (sumsAt V c t.val t.isLt).2 = sumHis (grid0.coords t) (idxAt V c t) (hisAt V c t) zeroHis :=
  congrArg Prod.snd (sumsAt_first V c t h)
theorem tblSum_next (c : Dev nD) (t : Fin cfg0.N) (h : ¬t.val % 100 = 0) :
    (sumsAt V c t.val t.isLt).1 = sumTbl (grid0.coords t) (idxAt V c t) (tblAt V c t) (sumsAt V c (t.val - 1) (Nat.lt_of_le_of_lt (Nat.sub_le _ _) t.isLt)).1 :=
  congrArg Prod.fst (sumsAt_next V c t h)
theorem hisSum_next (c : Dev nD) (t : Fin cfg0.N) (h : ¬t.val % 100 = 0) :
    (sumsAt V c t.val t.isLt).2 = sumHis (grid0.coords t) (idxAt V c t) (hisAt V c t) (sumsAt V c (t.val - 1) (Nat.lt_of_le_of_lt (Nat.sub_le _ _) t.isLt)).2 :=
  congrArg Prod.snd (sumsAt_next V c t h)

/-- The kernel's two tests on the point, in closed form over the grid of 200 points: the first block of a tile is
    the positions ≡ 0 (mod 100), the last block the positions ≡ 99 (mod 100). -/
theorem isFirst_iff : ∀ t : Fin cfg0.N, isFirst (grid0.coords t) ↔ t.val % 100 = 0 :=
  (by decide +kernel : ∀ t : Fin grid0.N, isFirst (grid0.coords t) ↔ t.val % 100 = 0)
theorem isLast_iff : ∀ t : Fin cfg0.N, isLast (grid0.coords t) ↔ t.val % 100 = 99 :=
  (by decide +kernel : ∀ t : Fin grid0.N, isLast (grid0.coords t) ↔ t.val % 100 = 99)

/-- The two output windows are idle exactly away from the last block of a tile, and are not written back there. -/
theorem idle5 : ∀ t : Fin cfg0.N, ¬t.val % 100 = 99 → cfg0.idle 5 (grid0.coords t) = true := by decide +kernel
theorem idle6 : ∀ t : Fin cfg0.N, ¬t.val % 100 = 99 → cfg0.idle 6 (grid0.coords t) = true := by decide +kernel
theorem live5 : ∀ t : Fin cfg0.N, t.val % 100 = 99 → cfg0.idle 5 (grid0.coords t) = false := by decide +kernel
theorem live6 : ∀ t : Fin cfg0.N, t.val % 100 = 99 → cfg0.idle 6 (grid0.coords t) = false := by decide +kernel
theorem noflush5 (t : Fin cfg0.N) (h : ¬t.val % 100 = 99) : (cfg0.win 5).flush t = false :=
  Bool.eq_false_iff.mpr fun hf => h ((flush0_5 t).mp hf)
theorem noflush6 (t : Fin cfg0.N) (h : ¬t.val % 100 = 99) : (cfg0.win 6).flush t = false :=
  Bool.eq_false_iff.mpr fun hf => h ((flush0_6 t).mp hf)

/-- The windows' current staging memrefs at point t, at their literal types. -/
abbrev m0 (t : Fin cfg0.N) : Memref sig .tc .vmem S2048 .i32 := win0_0.stage (cfg0.slots t 0)
abbrev m1 (t : Fin cfg0.N) : Memref sig .tc .vmem S1000x64 .f32 := win0_1.stage (cfg0.slots t 1)
abbrev m2 (t : Fin cfg0.N) : Memref sig .tc .vmem S1000x64 .f32 := win0_2.stage (cfg0.slots t 2)
abbrev m3 (t : Fin cfg0.N) : Memref sig .tc .vmem S64x64 .f32 := win0_3.stage (cfg0.slots t 3)
abbrev m4 (t : Fin cfg0.N) : Memref sig .tc .vmem S64 .f32 := win0_4.stage (cfg0.slots t 4)
abbrev m5 (t : Fin cfg0.N) : Memref sig .tc .vmem S2048x64 .f32 := win0_5.stage (cfg0.slots t 5)
abbrev m6 (t : Fin cfg0.N) : Memref sig .tc .vmem S2048x64 .f32 := win0_6.stage (cfg0.slots t 6)

/-- Every input's current buffer holds the input's block at every point, fetched there or not: where it is not
    fetched the block index has not moved since the point before, and the body leaves inputs in place. -/
theorem before0 (c : Dev nD) (t : Fin cfg0.N) (d) : (dat V c).before 0 t d = idxAt V c t :=
  ((dat V c).before_in_eq_fetched 0 rfl (fun _ => rfl) (fun _ _ _ => rfl)
    (fun t => by rw [show (dat V c).after 0 t = iblk V c 0 t from by dsimp only [dat]]; unfold Dat.blockOf iblk; rw [dat_A]; try rfl) t d).trans
    (by unfold Dat.fetched Dat.blockOf idxAt iblk; rw [dat_A]; try rfl)
theorem before1 (c : Dev nD) (t : Fin cfg0.N) (d) : (dat V c).before 1 t d = tblAt V c t :=
  ((dat V c).before_in_eq_fetched 1 rfl (fun _ => rfl) (fun _ _ _ => rfl)
    (fun t => by rw [show (dat V c).after 1 t = iblk V c 1 t from by dsimp only [dat]]; unfold Dat.blockOf iblk; rw [dat_A]; try rfl) t d).trans
    (by unfold Dat.fetched Dat.blockOf tblAt iblk; rw [dat_A]; try rfl)
theorem before2 (c : Dev nD) (t : Fin cfg0.N) (d) : (dat V c).before 2 t d = hisAt V c t :=
  ((dat V c).before_in_eq_fetched 2 rfl (fun _ => rfl) (fun _ _ _ => rfl)
    (fun t => by rw [show (dat V c).after 2 t = iblk V c 2 t from by dsimp only [dat]]; unfold Dat.blockOf iblk; rw [dat_A]; try rfl) t d).trans
    (by unfold Dat.fetched Dat.blockOf hisAt iblk; rw [dat_A]; try rfl)
theorem before3 (c : Dev nD) (t : Fin cfg0.N) (d) : (dat V c).before 3 t d = wtAt V c t :=
  ((dat V c).before_in_eq_fetched 3 rfl (fun _ => rfl) (fun _ _ _ => rfl)
    (fun t => by rw [show (dat V c).after 3 t = iblk V c 3 t from by dsimp only [dat]]; unfold Dat.blockOf iblk; rw [dat_A]; try rfl) t d).trans
    (by unfold Dat.fetched Dat.blockOf wtAt iblk; rw [dat_A]; try rfl)
theorem before4 (c : Dev nD) (t : Fin cfg0.N) (d) : (dat V c).before 4 t d = biasAt V c t :=
  ((dat V c).before_in_eq_fetched 4 rfl (fun _ => rfl) (fun _ _ _ => rfl)
    (fun t => by rw [show (dat V c).after 4 t = iblk V c 4 t from by dsimp only [dat]]; unfold Dat.blockOf iblk; rw [dat_A]; try rfl) t d).trans
    (by unfold Dat.fetched Dat.blockOf biasAt iblk; rw [dat_A]; try rfl)

/-- What the obligation asks of each window's buffer after the body: an input's at its block (inputs are never
    idle), an output's as found away from the last block of a tile, at the projection / the blend at a last block. -/
theorem leaves0 (c : Dev nD) (t : Fin cfg0.N) : (dat V c).leavesExact 0 t = owns (c : Thread nD τ) (m0 t) fullShare (idxAt V c t) := by
  unfold Dat.leavesExact; rw [show cfg0.idle 0 (cfg0.grid.coords t) = false from rfl]; dsimp only [dat]; rfl
theorem leaves1 (c : Dev nD) (t : Fin cfg0.N) : (dat V c).leavesExact 1 t = owns (c : Thread nD τ) (m1 t) fullShare (tblAt V c t) := by
  unfold Dat.leavesExact; rw [show cfg0.idle 1 (cfg0.grid.coords t) = false from rfl]; dsimp only [dat]; rfl
theorem leaves2 (c : Dev nD) (t : Fin cfg0.N) : (dat V c).leavesExact 2 t = owns (c : Thread nD τ) (m2 t) fullShare (hisAt V c t) := by
  unfold Dat.leavesExact; rw [show cfg0.idle 2 (cfg0.grid.coords t) = false from rfl]; dsimp only [dat]; rfl
theorem leaves3 (c : Dev nD) (t : Fin cfg0.N) : (dat V c).leavesExact 3 t = owns (c : Thread nD τ) (m3 t) fullShare (wtAt V c t) := by
  unfold Dat.leavesExact; rw [show cfg0.idle 3 (cfg0.grid.coords t) = false from rfl]; dsimp only [dat]; rfl
theorem leaves4 (c : Dev nD) (t : Fin cfg0.N) : (dat V c).leavesExact 4 t = owns (c : Thread nD τ) (m4 t) fullShare (biasAt V c t) := by
  unfold Dat.leavesExact; rw [show cfg0.idle 4 (cfg0.grid.coords t) = false from rfl]; dsimp only [dat]; rfl
theorem leaves5_idle (c : Dev nD) (t : Fin cfg0.N) (h : ¬t.val % 100 = 99) :
    (dat V c).leavesExact 5 t = iprop(∃ d, owns (c : Thread nD τ) (m5 t) fullShare ((dat V c).before 5 t d)) :=
  Dat.leavesExact_idle (dat V c) 5 t (idle5 t h) (noflush5 t h)
theorem leaves6_idle (c : Dev nD) (t : Fin cfg0.N) (h : ¬t.val % 100 = 99) :
    (dat V c).leavesExact 6 t = iprop(∃ d, owns (c : Thread nD τ) (m6 t) fullShare ((dat V c).before 6 t d)) :=
  Dat.leavesExact_idle (dat V c) 6 t (idle6 t h) (noflush6 t h)
theorem leaves5_last (c : Dev nD) (t : Fin cfg0.N) (h : t.val % 100 = 99) :
    (dat V c).leavesExact 5 t = owns (c : Thread nD τ) (m5 t) fullShare (projAt V c t) := by
  unfold Dat.leavesExact; rw [live5 t h, dat_after5]
theorem leaves6_last (c : Dev nD) (t : Fin cfg0.N) (h : t.val % 100 = 99) :
    (dat V c).leavesExact 6 t = owns (c : Thread nD τ) (m6 t) fullShare (blendAt V c t) := by
  unfold Dat.leavesExact; rw [live6 t h, dat_after6]

/-- What the body is called with at point t (the obligation's precondition, the seven windows one by one), -/
def bodyPre (c : Dev nD) (t : Fin cfg0.N) : sProp 𝕄 :=
  iprop((dat V c).Φ t.castSucc ∗ (dat V c).owesAt () t.castSucc
    ∗ (∃ d, owns (c : Thread nD τ) (m0 t) fullShare ((dat V c).before 0 t d))
    ∗ (∃ d, owns (c : Thread nD τ) (m1 t) fullShare ((dat V c).before 1 t d))
    ∗ (∃ d, owns (c : Thread nD τ) (m2 t) fullShare ((dat V c).before 2 t d))
    ∗ (∃ d, owns (c : Thread nD τ) (m3 t) fullShare ((dat V c).before 3 t d))
    ∗ (∃ d, owns (c : Thread nD τ) (m4 t) fullShare ((dat V c).before 4 t d))
    ∗ (∃ d, owns (c : Thread nD τ) (m5 t) fullShare ((dat V c).before 5 t d))
    ∗ (∃ d, owns (c : Thread nD τ) (m6 t) fullShare ((dat V c).before 6 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
/-- The body at any point. The five inputs' buffers hold their blocks. At a first block of a tile (t ≡ 0 mod 100) the
    invariant gives the two sums at anything, which is all the reset asks, and takes them back at the restarted sums;
    the outputs go back as found. At a middle block the invariant gives the sums the point before left and takes back
    this point's; the outputs go back as found. At a last block (t ≡ 99 mod 100) likewise for the sums, and the two
    outputs, handed over at anything, come back at the projection and the blend of this point's sums. The core owes
    nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, leaves0, leaves1, leaves2, leaves3, leaves4]
  rw [show (dat V c).owesAt () t.succ = (dat V c).owesAt () t.castSucc from rfl]
  rw [show (dat V c).Φ t.castSucc = Phi V c t.val (Nat.le_of_lt t.isLt) from rfl]
  rw [show (dat V c).Φ t.succ = iprop(owns (c : Thread nD τ) scTbl fullShare (sumsAt V c t.val t.isLt).1
      ∗ owns (c : Thread nD τ) scHis fullShare (sumsAt V c t.val t.isLt).2 ∗ otherScoped (F := F) c) from rfl]
  by_cases h0 : t.val % 100 = 0
  · have h1 : ¬t.val % 100 = 99 := by omega
    rw [leaves5_idle V c t h1, leaves6_idle V c t h1, tblSum_first V c t h0, hisSum_first V c t h0]
    refine (sep_mono (Phi_forget V c _ _) .rfl).trans ?_
    iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ _ _ ((isFirst_iff t).mpr h0) (fun h => h1 ((isLast_iff t).mp h))
      (idxAt V c t) (tblAt V c t) (hisAt V c t) (wtAt V c t) (biasAt V c t) ((dat V c).before 5 t d5) ((dat V c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ht]; · iexact Ht
    isplitl [Hh]; · iexact Hh
    iintro ⟨H0, H1, H2, H3, H4, H5, H6, Ht, Hh⟩
    isplitl [Ht Hh Hr]
    · isplitl [Ht]; · iexact Ht
      isplitl [Hh]; · iexact Hh
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun e => h0 (by rw [e])
    rw [Phi_pos V c _ _ hz, tblSum_next V c t h0, hisSum_next V c t h0]
    by_cases h1 : t.val % 100 = 99
    · rw [leaves5_last V c t h1, leaves6_last V c t h1]
      unfold projAt blendAt
      rw [tblSum_next V c t h0, hisSum_next V c t h0]
      iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ _ _ (fun h => h0 ((isFirst_iff t).mp h)) ((isLast_iff t).mpr h1)
        (idxAt V c t) (tblAt V c t) (hisAt V c t) (wtAt V c t) (biasAt V c t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [Ht]; · iexact Ht
      isplitl [Hh]; · iexact Hh
      iintro ⟨H0, H1, H2, H3, H4, H5, H6, Ht, Hh⟩
      isplitl [Ht Hh Hr]
      · isplitl [Ht]; · iexact Ht
        isplitl [Hh]; · iexact Hh
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves5_idle V c t h1, leaves6_idle V c t h1]
      iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) _ _ _ _ _ _ _ _ _ _ _ _ _ _ _ _ _ _ (fun h => h0 ((isFirst_iff t).mp h)) (fun h => h1 ((isLast_iff t).mp h))
        (idxAt V c t) (tblAt V c t) (hisAt V c t) (wtAt V c t) (biasAt V c t) ((dat V c).before 5 t d5) ((dat V c).before 6 t d6) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Ht]; · iexact Ht
      isplitl [Hh]; · iexact Hh
      iintro ⟨H0, H1, H2, H3, H4, H5, H6, Ht, Hh⟩
      isplitl [Ht Hh Hr]
      · isplitl [Ht]; · iexact Ht
        isplitl [Hh]; · iexact Hh
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation at every point. -/
theorem body_obligation (c : Dev nD) : BodyObligation (dat (F := F) V c) (defs₀ (F := F)) Variants.none () Set.univ := fun t => by
  rw [bigSep_W0, bigSep_W0]
  exact sound_body V c t

end Cert.Kernel.RegionU

end
-- ==== Proof.KBodyI.lean ====
/-
  The body of the user-side gather kernel at one grid point (batch tile i, table block k), in its three control cases.
  Row r of the one-hot block is 1 exactly at the column j with idx r = 1000 k + j; the body adds
  onehot · table-block to each of two running sums (the layer-averaged table's rows and the history table's rows),
  resets both sums to zero first when k = 0, and when k is the last block writes the momentum blend of the two sums
  and the projection of the first sum through the transposed weight plus the bias.
  Stated over ANY whole staging memrefs and at any float instance: what each buffer holds afterwards is a pure
  function of what the inputs held (the generated payloads), so one text serves the word-level and the ideal reading.
-/
import proofs.«404517_j50560355008860_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.RegionI

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first table block of its batch tile (k = 0), as the kernel tests it. -/
abbrev isFirst (i : grid1.Coords) : Prop :=
  (Scalar.cmpi .ne (Scalar.extui (Scalar.cmpi .eq (BitVec.ofNat 32 (i 1).val) 0#32)) 0#32) = 1#1
/-- The point is the last table block of its batch tile (k = 49), as the kernel tests it. -/
abbrev isLast (i : grid1.Coords) : Prop := k1_cond2 i = 1#1

/-- The running sum of selected table rows after one more block: acc + onehot(i, idx) · blk. -/
def sumTbl (i : grid1.Coords) (idx : Vec F S2048 .i32) (blk : Vec F S1000x64 .f32) (acc : Vec F S2048x64 .f32) : Vec F S2048x64 .f32 :=
  k1_pay6 i idx blk acc
/-- The running sum of selected history rows after one more block. -/
def sumHis (i : grid1.Coords) (idx : Vec F S2048 .i32) (blk : Vec F S1000x64 .f32) (acc : Vec F S2048x64 .f32) : Vec F S2048x64 .f32 :=
  k1_pay7 i idx blk acc
/-- The two sums as reset at the first block. -/
def zeroTbl : Vec F S2048x64 .f32 := k1_pay3
def zeroHis : Vec F S2048x64 .f32 := k1_pay4
/-- The momentum blend his · 0.05 + tbl · 0.95 (the two f32 words as printed). -/
def blend (tblSum hisSum : Vec F S2048x64 .f32) : Vec F S2048x64 .f32 := k1_pay1 tblSum hisSum
/-- The projection tblSum · wt + bias. -/
def project (tblSum : Vec F S2048x64 .f32) (wt : Vec F S64x64 .f32) (bias : Vec F S64 .f32) : Vec F S2048x64 .f32 := k1_pay2 tblSum wt bias

/-- The zero offsets of a rank-2 rectangle, as the constant function. -/
private theorem hz2 : (![0, 0] : Fin 2 → Nat) = fun _ => 0 := funext fun a => by fin_cases a <;> rfl
/-- The zero offset of a rank-1 rectangle, as the constant function. -/
private theorem hz1 : (![0] : Fin 1 → Nat) = fun _ => 0 := funext fun a => by fin_cases a; rfl

section Whole
variable {S : Shape} {e : EltTy} (M : Memref sig .tc .vmem S e)

/-- A load of the whole shape at zero offsets, from a whole buffer whose contents read `X`, reads `X`. -/
private theorem load_whole (hM : M.IsWhole) {off : Fin S.rank → Nat} (hz : off = fun _ => 0) (inb : ∀ a, off a + S.size a ≤ S.size a)
    (X : S.Idx → Elt F e) :
    View.readAt (Elt F) M.view (Rect.unit off S.size inb).toLoadRect (hM.unread X) = X := by
  rw [View.readAt_eq_ld, hM.read_unread, View.ld_unit_zero hz]

/-- After a store of the whole shape at zero offsets, made LAST, the buffer reads the stored value, whatever it
    held before and whatever the earlier stores were (the list holds the last store first). -/
private theorem read_store_last (f : M.view.ty.Contents (Elt F)) {off : Fin S.rank → Nat} (hz : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

set_option maxHeartbeats 1000000 in
/-- FIRST block of a tile (not the last): both sums are reset, then take the block's contribution; the two output
    buffers are not touched. -/
theorem run_first (c : Dev nD) (i : grid1.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : isFirst i) (h1 : ¬isLast i)
    (idx : Vec F S2048 .i32) (tbl his : Vec F S1000x64 .f32) (wt : Vec F S64x64 .f32) (bias : Vec F S64 .f32)
    (xp xt : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ owns (c : Thread nD τ) arg7 fullShare xp ∗ owns (c : Thread nD τ) arg8 fullShare xt
        ∗ (∃ d, owns (c : Thread nD τ) arg9 fullShare d) ∗ (∃ d, owns (c : Thread nD τ) arg10 fullShare d)
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare xp ∗ owns (c : Thread nD τ) arg8 fullShare xt
            ∗ owns (c : Thread nD τ) arg9 fullShare (sumTbl i idx tbl zeroTbl) ∗ owns (c : Thread nD τ) arg10 fullShare (sumHis i idx his zeroHis)) -∗ K ⟨⟩))
      ⊢ wp frame (wpE (defs₀ (F := F)) Variants.none c none) E (cc1__gather_blend_proj_kernel i arg2 harg2 arg3 harg3 arg4 harg4 arg5 harg5 arg6 harg6 arg7 harg7 arg8 harg8 arg9 harg9 arg10 harg10) K := by
  simp only [cc1__gather_blend_proj_kernel_eq_skeleton]; unfold cc1__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    rotate_left
    · iexact H9
    · ipureintro
      rw [read_store_last arg9 _ hz2]
      sl_unfold_run_names
      rw [View.readCov_cons_toLoadRect, load_whole arg2 harg2 hz1, load_whole arg3 harg3 hz2]
      rfl
  iexists _; isplitr
  rotate_left
  · iexact H10
  · ipureintro
    rw [read_store_last arg10 _ hz2]
    sl_unfold_run_names
    rw [View.readCov_cons_toLoadRect, load_whole arg2 harg2 hz1, load_whole arg4 harg4 hz2]
    rfl

set_option maxHeartbeats 1000000 in
/-- MIDDLE block: both sums take the block's contribution over what the point before left; outputs not touched. -/
theorem run_mid (c : Dev nD) (i : grid1.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : ¬isFirst i) (h1 : ¬isLast i)
    (idx : Vec F S2048 .i32) (tbl his : Vec F S1000x64 .f32) (wt : Vec F S64x64 .f32) (bias : Vec F S64 .f32)
    (xp xt st sh : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ owns (c : Thread nD τ) arg7 fullShare xp ∗ owns (c : Thread nD τ) arg8 fullShare xt
        ∗ owns (c : Thread nD τ) arg9 fullShare st ∗ owns (c : Thread nD τ) arg10 fullShare sh
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare xp ∗ owns (c : Thread nD τ) arg8 fullShare xt
            ∗ owns (c : Thread nD τ) arg9 fullShare (sumTbl i idx tbl st) ∗ owns (c : Thread nD τ) arg10 fullShare (sumHis i idx his sh)) -∗ K ⟨⟩))
      ⊢ wp frame (wpE (defs₀ (F := F)) Variants.none c none) E (cc1__gather_blend_proj_kernel i arg2 harg2 arg3 harg3 arg4 harg4 arg5 harg5 arg6 harg6 arg7 harg7 arg8 harg8 arg9 harg9 arg10 harg10) K := by
  simp only [cc1__gather_blend_proj_kernel_eq_skeleton]; unfold cc1__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    rotate_left
    · iexact H9
    · ipureintro
      rw [read_store_last arg9 _ hz2, load_whole arg2 harg2 hz1, load_whole arg3 harg3 hz2, load_whole arg9 harg9 hz2]
      rfl
  iexists _; isplitr
  rotate_left
  · iexact H10
  · ipureintro
    rw [read_store_last arg10 _ hz2, load_whole arg2 harg2 hz1, load_whole arg4 harg4 hz2, load_whole arg10 harg10 hz2]
    rfl

set_option maxHeartbeats 1000000 in
/-- LAST block (not the first): both sums take the block's contribution, and the outputs are written whole:
    the projection of the table sum into the first, the blend of the two sums into the second. -/
theorem run_last (c : Dev nD) (i : grid1.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : ¬isFirst i) (h1 : isLast i)
    (idx : Vec F S2048 .i32) (tbl his : Vec F S1000x64 .f32) (wt : Vec F S64x64 .f32) (bias : Vec F S64 .f32)
    (st sh : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ (∃ d, owns (c : Thread nD τ) arg7 fullShare d) ∗ (∃ d, owns (c : Thread nD τ) arg8 fullShare d)
        ∗ owns (c : Thread nD τ) arg9 fullShare st ∗ owns (c : Thread nD τ) arg10 fullShare sh
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare (project (sumTbl i idx tbl st) wt bias)
            ∗ owns (c : Thread nD τ) arg8 fullShare (blend (sumTbl i idx tbl st) (sumHis i idx his sh))
            ∗ owns (c : Thread nD τ) arg9 fullShare (sumTbl i idx tbl st) ∗ owns (c : Thread nD τ) arg10 fullShare (sumHis i idx his sh)) -∗ K ⟨⟩))
      ⊢ wp frame (wpE (defs₀ (F := F)) Variants.none c none) E (cc1__gather_blend_proj_kernel i arg2 harg2 arg3 harg3 arg4 harg4 arg5 harg5 arg6 harg6 arg7 harg7 arg8 harg8 arg9 harg9 arg10 harg10) K := by
  simp only [cc1__gather_blend_proj_kernel_eq_skeleton]; unfold cc1__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := harg9.eq_unread hf9; obtain rfl := harg10.eq_unread hf10
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    rotate_left
    · iexact H7
    · ipureintro
      rw [read_store_last arg7 _ hz2]
      sl_unfold_run_names
      rw [View.readCov_cons_toLoadRect, load_whole arg2 harg2 hz1, load_whole arg3 harg3 hz2, load_whole arg9 harg9 hz2,
        load_whole arg5 harg5 hz2, load_whole arg6 harg6 hz1]
      rfl
  isplitl [H8]
  · iexists _; isplitr
    rotate_left
    · iexact H8
    · ipureintro
      rw [read_store_last arg8 _ hz2]
      sl_unfold_run_names
      rw [View.readCov_cons_toLoadRect, View.readCov_cons_toLoadRect, load_whole arg2 harg2 hz1, load_whole arg3 harg3 hz2,
        load_whole arg9 harg9 hz2, load_whole arg4 harg4 hz2, load_whole arg10 harg10 hz2]
      rfl
  isplitl [H9]
  · iexists _; isplitr
    rotate_left
    · iexact H9
    · ipureintro
      sl_unfold_run_names
      rw [read_store_last arg9 _ hz2, load_whole arg2 harg2 hz1, load_whole arg3 harg3 hz2, load_whole arg9 harg9 hz2]
      rfl
  iexists _; isplitr
  rotate_left
  · iexact H10
  · ipureintro
    sl_unfold_run_names
    rw [read_store_last arg10 _ hz2, load_whole arg2 harg2 hz1, load_whole arg4 harg4 hz2, load_whole arg10 harg10 hz2]
    rfl

end Cert.Kernel.RegionI

end
-- ==== Proof.KDatI.lean ====
/-
  The user-side gather region's proof data, at any entry contents V of the unscoped buffers and any float instance.
  Point t = 50 i + k of the grid (batch tile i, table block k). After the body at t the two scratch buffers hold
  the sums over blocks 0..k of onehot · block (of the averaged table and of the history table), restarted from zero
  at k = 0; at k = 49 the two output buffers hold the projection and the blend of those sums and are written back;
  at every other point the output buffers are left as found. Between points the region's invariant is: the two
  scratch buffers at those sums, every other scoped buffer of the program at something.
-/
import proofs.«404517_j50560355008860_1_alg».proof.Proof.KBodyI
import proofs.«404517_j50560355008860_1_alg».proof.Proof.KernelLaunch
import proofs.«404517_j50560355008860_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.RegionI

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered, per core
variable (V : (c : Dev nD) → (b : Ref sig .tc) → Buf (Elt F) ((c : Thread nD τ).loc b))

/-- Window w's block of its array at point t, as the fetch stages it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The index block, the two table blocks, the weight and the bias at point t, at their literal types. -/
def idxAt (c : Dev nD) (t : Fin cfg1.N) : Vec F S2048 .i32 := iblk V c 0 t
def tblAt (c : Dev nD) (t : Fin cfg1.N) : Vec F S1000x64 .f32 := iblk V c 1 t
def hisAt (c : Dev nD) (t : Fin cfg1.N) : Vec F S1000x64 .f32 := iblk V c 2 t
def wtAt (c : Dev nD) (t : Fin cfg1.N) : Vec F S64x64 .f32 := iblk V c 3 t
def biasAt (c : Dev nD) (t : Fin cfg1.N) : Vec F S64 .f32 := iblk V c 4 t

/-- THE ACCUMULATION: the pair (table sum, history sum) the scratch buffers hold after the body at position n. -/
def sumsAt (c : Dev nD) : (n : ℕ) → n < cfg1.N → Vec F S2048x64 .f32 × Vec F S2048x64 .f32
  | 0, hn => (sumTbl (grid1.coords ⟨0, hn⟩) (idxAt V c ⟨0, hn⟩) (tblAt V c ⟨0, hn⟩) zeroTbl,
              sumHis (grid1.coords ⟨0, hn⟩) (idxAt V c ⟨0, hn⟩) (hisAt V c ⟨0, hn⟩) zeroHis)
  | n + 1, hn =>
    if (n + 1) % 50 = 0 then
      (sumTbl (grid1.coords ⟨n + 1, hn⟩) (idxAt V c ⟨n + 1, hn⟩) (tblAt V c ⟨n + 1, hn⟩) zeroTbl,
       sumHis (grid1.coords ⟨n + 1, hn⟩) (idxAt V c ⟨n + 1, hn⟩) (hisAt V c ⟨n + 1, hn⟩) zeroHis)
    else
      (sumTbl (grid1.coords ⟨n + 1, hn⟩) (idxAt V c ⟨n + 1, hn⟩) (tblAt V c ⟨n + 1, hn⟩) (sumsAt c n (Nat.lt_of_succ_lt hn)).1,
       sumHis (grid1.coords ⟨n + 1, hn⟩) (idxAt V c ⟨n + 1, hn⟩) (hisAt V c ⟨n + 1, hn⟩) (sumsAt c n (Nat.lt_of_succ_lt hn)).2)

/-- At the first block of a tile the sums restart from zero. -/
theorem sumsAt_first (c : Dev nD) (t : Fin cfg1.N) (h : t.val % 50 = 0) :
    sumsAt V c t.val t.isLt = (sumTbl (grid1.coords t) (idxAt V c t) (tblAt V c t) zeroTbl, sumHis (grid1.coords t) (idxAt V c t) (hisAt V c t) zeroHis) := by
  obtain ⟨n, hn⟩ := t
  cases n with
  | zero => rfl
  | succ n => exact if_pos h
/-- At any other block they continue from the point before. -/
theorem sumsAt_next (c : Dev nD) (t : Fin cfg1.N) (h : ¬t.val % 50 = 0) :
    sumsAt V c t.val t.isLt = (sumTbl (grid1.coords t) (idxAt V c t) (tblAt V c t) (sumsAt V c (t.val - 1) (Nat.lt_of_le_of_lt (Nat.sub_le _ _) t.isLt)).1,
      sumHis (grid1.coords t) (idxAt V c t) (hisAt V c t) (sumsAt V c (t.val - 1) (Nat.lt_of_le_of_lt (Nat.sub_le _ _) t.isLt)).2) := by
  obtain ⟨n, hn⟩ := t
  cases n with
  | zero => exact absurd (Nat.zero_mod 50) h
  | succ n => exact if_neg h

/-- What the first output's buffer (the projection) and the second's (the blend) hold after the body at a last block. -/
def projAt (c : Dev nD) (t : Fin cfg1.N) : Vec F S2048x64 .f32 := project (sumsAt V c t.val t.isLt).1 (wtAt V c t) (biasAt V c t)
def blendAt (c : Dev nD) (t : Fin cfg1.N) : Vec F S2048x64 .f32 := blend (sumsAt V c t.val t.isLt).1 (sumsAt V c t.val t.isLt).2

/-- The two scratch operands as memrefs. -/
abbrev scTbl : Memref sig .tc .vmem S2048x64 .f32 := Memref.whole cc1_scratch0
abbrev scHis : Memref sig .tc .vmem S2048x64 .f32 := Memref.whole cc1_scratch1

/-- Every scoped buffer that is neither a staging buffer of this region nor one of its two scratch buffers (the
    other region's fourteen), each whole at something. -/
def otherScoped (c : Dev nD) : sProp 𝕄 :=
  Pipeline.scopedRestBut (Ix := Unit) (Name := ℕ) (U := UR sig nD τ) (Lvl := ℕ) (Val := Elt F) spec1 c [cc1_scratch0, cc1_scratch1]

/-- The scoped rest of this region is its two scratch buffers at something beside the others. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) scTbl fullShare d) ∗ (∃ d, owns (c : Thread nD τ) scHis fullShare d) ∗ otherScoped (F := F) c) := by
  rw [Pipeline.scopedRest_split_of_list spec1 c [cc1_scratch0, cc1_scratch1] (by decide) (by decide)]
  unfold otherScoped
  simp only [scTbl, scHis, owns_whole]
  exact equiv_iff.mp ⟨Idealize.SL.BI.sep_assoc, Idealize.SL.BI.sep_assoc'⟩

/-- The invariant before position n: at the region's entry the scoped rest; afterwards the two scratch buffers at the
    sums the point before left, beside the other scoped buffers. -/
def Phi (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scTbl fullShare (sumsAt V c n hn).1 ∗ owns (c : Thread nD τ) scHis fullShare (sumsAt V c n hn).2 ∗ otherScoped (F := F) c)

/-- Before the first point the invariant is the scoped rest. -/
theorem Phi_zero (c : Dev nD) (n : ℕ) (h : n ≤ cfg1.N) (hz : n = 0) :
    Phi V c n h = Pipeline.scopedRest (Ix := Unit) (Name := ℕ) (U := UR sig nD τ) (Lvl := ℕ) (Val := Elt F) spec1 c := by
  subst hz; rfl

/-- Before any later point it names the sums the point before left. -/
theorem Phi_pos (c : Dev nD) (n : ℕ) (h : n ≤ cfg1.N) (hz : n ≠ 0) :
    Phi V c n h = iprop(owns (c : Thread nD τ) scTbl fullShare (sumsAt V c (n - 1) (by omega)).1
      ∗ owns (c : Thread nD τ) scHis fullShare (sumsAt V c (n - 1) (by omega)).2 ∗ otherScoped (F := F) c) := by
  cases n with
  | zero => exact absurd rfl hz
  | succ n => rfl

/-- At every position the invariant holds both sums at something: at the entry by splitting the scoped rest,
    later by forgetting which sums they are. That is all a first block of a tile asks of them. -/
theorem Phi_forget (c : Dev nD) (n : ℕ) (h : n ≤ cfg1.N) :
    Phi V c n h ⊢ iprop((∃ d, owns (c : Thread nD τ) scTbl fullShare d) ∗ (∃ d, owns (c : Thread nD τ) scHis fullShare d) ∗ otherScoped (F := F) c) := by
  by_cases hz : n = 0
  · rw [Phi_zero V c n h hz, scopedRest_split]
  · rw [Phi_pos V c n h hz]
    iintro ⟨Ht, Hh, Hr⟩
    isplitl [Ht]
    · iexists _; iexact Ht
    isplitl [Hh]
    · iexists _; iexact Hh
    iexact Hr

/-- The region's proof data on core c. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => projAt V c t
    | ⟨6, _⟩ => blendAt V c t
  Φ t := Phi V c t.val (Nat.le_of_lt_succ t.isLt)
  q _ := fullShare
  owed _ := 0

theorem dat_A (c : Dev nD) (w : Fin cfg1.W) : (dat V c).A w = V c (Pipeline.arrRef spec1 w) := by dsimp only [dat]
theorem dat_after5 (c : Dev nD) (t : Fin cfg1.N) : (dat V c).after 5 t = projAt V c t := by dsimp only [dat]
theorem dat_after6 (c : Dev nD) (t : Fin cfg1.N) : (dat V c).after 6 t = blendAt V c t := by dsimp only [dat]
theorem dat_Phi_zero (c : Dev nD) : (dat V c).Φ 0 = Pipeline.scopedRest (Ix := Unit) (Name := ℕ) (U := UR sig nD τ) (Lvl := ℕ) (Val := Elt F) spec1 c := rfl
/-- At the region's exit the invariant gives the scoped rest back. -/
theorem dat_Phi_last (c : Dev nD) : (dat V c).Φ (Fin.last cfg1.N) ⊢ (Pipeline.scopedRest (Ix := Unit) (Name := ℕ) (U := UR sig nD τ) (Lvl := ℕ) (Val := Elt F) spec1 c : sProp 𝕄) := by
  rw [show (dat V c).Φ (Fin.last cfg1.N) = Phi V c (Fin.last cfg1.N).val (Nat.le_of_lt_succ (Fin.last cfg1.N).isLt) from rfl,
    Phi_pos V c _ _ (by rw [Fin.val_last]; have : cfg1.N = 100 := N_1; omega), scopedRest_split]
  iintro ⟨Ht, Hh, Hr⟩
  isplitl [Ht]
  · iexists _; iexact Ht
  isplitl [Hh]
  · iexists _; iexact Hh
  iexact Hr

/-! ## The body obligation -/

/-- Each sum by itself, at a first block and at a later one. -/
theorem tblSum_first (c : Dev nD) (t : Fin cfg1.N) (h : t.val % 50 = 0) :
    (sumsAt V c t.val t.isLt).1 = sumTbl (grid1.coords t) (idxAt V c t) (tblAt V c t) zeroTbl :=
  congrArg Prod.fst (sumsAt_first V c t h)
theorem hisSum_first (c : Dev nD) (t : Fin cfg1.N) (h : t.val % 50 = 0) :
    (sumsAt V c t.val t.isLt).2 = sumHis (grid1.coords t) (idxAt V c t) (hisAt V c t) zeroHis :=
  congrArg Prod.snd (sumsAt_first V c t h)
theorem tblSum_next (c : Dev nD) (t : Fin cfg1.N) (h : ¬t.val % 50 = 0) :
    (sumsAt V c t.val t.isLt).1 = sumTbl (grid1.coords t) (idxAt V c t) (tblAt V c t) (sumsAt V c (t.val - 1) (Nat.lt_of_le_of_lt (Nat.sub_le _ _) t.isLt)).1 :=
  congrArg Prod.fst (sumsAt_next V c t h)
theorem hisSum_next (c : Dev nD) (t : Fin cfg1.N) (h : ¬t.val % 50 = 0) :
    (sumsAt V c t.val t.isLt).2 = sumHis (grid1.coords t) (idxAt V c t) (hisAt V c t) (sumsAt V c (t.val - 1) (Nat.lt_of_le_of_lt (Nat.sub_le _ _) t.isLt)).2 :=
  congrArg Prod.snd (sumsAt_next V c t h)

/-- The kernel's two tests on the point, in closed form over the grid of 100 points: the first block of a tile is
    the positions ≡ 0 (mod 50), the last block the positions ≡ 49 (mod 50). -/
theorem isFirst_iff : ∀ t : Fin cfg1.N, isFirst (grid1.coords t) ↔ t.val % 50 = 0 :=
  (by decide +kernel : ∀ t : Fin grid1.N, isFirst (grid1.coords t) ↔ t.val % 50 = 0)
theorem isLast_iff : ∀ t : Fin cfg1.N, isLast (grid1.coords t) ↔ t.val % 50 = 49 :=
  (by decide +kernel : ∀ t : Fin grid1.N, isLast (grid1.coords t) ↔ t.val % 50 = 49)

/-- The two output windows are idle exactly away from the last block of a tile, and are not written back there. -/
theorem idle5 : ∀ t : Fin cfg1.N, ¬t.val % 50 = 49 → cfg1.idle 5 (grid1.coords t) = true := by decide +kernel
theorem idle6 : ∀ t : Fin cfg1.N, ¬t.val % 50 = 49 → cfg1.idle 6 (grid1.coords t) = true := by decide +kernel
theorem live5 : ∀ t : Fin cfg1.N, t.val % 50 = 49 → cfg1.idle 5 (grid1.coords t) = false := by decide +kernel
theorem live6 : ∀ t : Fin cfg1.N, t.val % 50 = 49 → cfg1.idle 6 (grid1.coords t) = false := by decide +kernel
theorem noflush5 (t : Fin cfg1.N) (h : ¬t.val % 50 = 49) : (cfg1.win 5).flush t = false :=
  Bool.eq_false_iff.mpr fun hf => h ((flush1_5 t).mp hf)
theorem noflush6 (t : Fin cfg1.N) (h : ¬t.val % 50 = 49) : (cfg1.win 6).flush t = false :=
  Bool.eq_false_iff.mpr fun hf => h ((flush1_6 t).mp hf)

/-- The windows' current staging memrefs at point t, at their literal types. -/
abbrev m0 (t : Fin cfg1.N) : Memref sig .tc .vmem S2048 .i32 := win1_0.stage (cfg1.slots t 0)
abbrev m1 (t : Fin cfg1.N) : Memref sig .tc .vmem S1000x64 .f32 := win1_1.stage (cfg1.slots t 1)
abbrev m2 (t : Fin cfg1.N) : Memref sig .tc .vmem S1000x64 .f32 := win1_2.stage (cfg1.slots t 2)
abbrev m3 (t : Fin cfg1.N) : Memref sig .tc .vmem S64x64 .f32 := win1_3.stage (cfg1.slots t 3)
abbrev m4 (t : Fin cfg1.N) : Memref sig .tc .vmem S64 .f32 := win1_4.stage (cfg1.slots t 4)
abbrev m5 (t : Fin cfg1.N) : Memref sig .tc .vmem S2048x64 .f32 := win1_5.stage (cfg1.slots t 5)
abbrev m6 (t : Fin cfg1.N) : Memref sig .tc .vmem S2048x64 .f32 := win1_6.stage (cfg1.slots t 6)

/-- Every input's current buffer holds the input's block at every point, fetched there or not: where it is not
    fetched the block index has not moved since the point before, and the body leaves inputs in place. -/
theorem before0 (c : Dev nD) (t : Fin cfg1.N) (d) : (dat V c).before 0 t d = idxAt V c t :=
  ((dat V c).before_in_eq_fetched 0 rfl (fun _ => rfl) (fun _ _ _ => rfl)
    (fun t => by rw [show (dat V c).after 0 t = iblk V c 0 t from by dsimp only [dat]]; unfold Dat.blockOf iblk; rw [dat_A]; try rfl) t d).trans
    (by unfold Dat.fetched Dat.blockOf idxAt iblk; rw [dat_A]; try rfl)
theorem before1 (c : Dev nD) (t : Fin cfg1.N) (d) : (dat V c).before 1 t d = tblAt V c t :=
  ((dat V c).before_in_eq_fetched 1 rfl (fun _ => rfl) (fun _ _ _ => rfl)
    (fun t => by rw [show (dat V c).after 1 t = iblk V c 1 t from by dsimp only [dat]]; unfold Dat.blockOf iblk; rw [dat_A]; try rfl) t d).trans
    (by unfold Dat.fetched Dat.blockOf tblAt iblk; rw [dat_A]; try rfl)
theorem before2 (c : Dev nD) (t : Fin cfg1.N) (d) : (dat V c).before 2 t d = hisAt V c t :=
  ((dat V c).before_in_eq_fetched 2 rfl (fun _ => rfl) (fun _ _ _ => rfl)
    (fun t => by rw [show (dat V c).after 2 t = iblk V c 2 t from by dsimp only [dat]]; unfold Dat.blockOf iblk; rw [dat_A]; try rfl) t d).trans
    (by unfold Dat.fetched Dat.blockOf hisAt iblk; rw [dat_A]; try rfl)
theorem before3 (c : Dev nD) (t : Fin cfg1.N) (d) : (dat V c).before 3 t d = wtAt V c t :=
  ((dat V c).before_in_eq_fetched 3 rfl (fun _ => rfl) (fun _ _ _ => rfl)
    (fun t => by rw [show (dat V c).after 3 t = iblk V c 3 t from by dsimp only [dat]]; unfold Dat.blockOf iblk; rw [dat_A]; try rfl) t d).trans
    (by unfold Dat.fetched Dat.blockOf wtAt iblk; rw [dat_A]; try rfl)
theorem before4 (c : Dev nD) (t : Fin cfg1.N) (d) : (dat V c).before 4 t d = biasAt V c t :=
  ((dat V c).before_in_eq_fetched 4 rfl (fun _ => rfl) (fun _ _ _ => rfl)
    (fun t => by rw [show (dat V c).after 4 t = iblk V c 4 t from by dsimp only [dat]]; unfold Dat.blockOf iblk; rw [dat_A]; try rfl) t d).trans
    (by unfold Dat.fetched Dat.blockOf biasAt iblk; rw [dat_A]; try rfl)

/-- What the obligation asks of each window's buffer after the body: an input's at its block (inputs are never
    idle), an output's as found away from the last block of a tile, at the projection / the blend at a last block. -/
theorem leaves0 (c : Dev nD) (t : Fin cfg1.N) : (dat V c).leavesExact 0 t = owns (c : Thread nD τ) (m0 t) fullShare (idxAt V c t) := by
  unfold Dat.leavesExact; rw [show cfg1.idle 0 (cfg1.grid.coords t) = false from rfl]; dsimp only [dat]; rfl
theorem leaves1 (c : Dev nD) (t : Fin cfg1.N) : (dat V c).leavesExact 1 t = owns (c : Thread nD τ) (m1 t) fullShare (tblAt V c t) := by
  unfold Dat.leavesExact; rw [show cfg1.idle 1 (cfg1.grid.coords t) = false from rfl]; dsimp only [dat]; rfl
theorem leaves2 (c : Dev nD) (t : Fin cfg1.N) : (dat V c).leavesExact 2 t = owns (c : Thread nD τ) (m2 t) fullShare (hisAt V c t) := by
  unfold Dat.leavesExact; rw [show cfg1.idle 2 (cfg1.grid.coords t) = false from rfl]; dsimp only [dat]; rfl
theorem leaves3 (c : Dev nD) (t : Fin cfg1.N) : (dat V c).leavesExact 3 t = owns (c : Thread nD τ) (m3 t) fullShare (wtAt V c t) := by
  unfold Dat.leavesExact; rw [show cfg1.idle 3 (cfg1.grid.coords t) = false from rfl]; dsimp only [dat]; rfl
theorem leaves4 (c : Dev nD) (t : Fin cfg1.N) : (dat V c).leavesExact 4 t = owns (c : Thread nD τ) (m4 t) fullShare (biasAt V c t) := by
  unfold Dat.leavesExact; rw [show cfg1.idle 4 (cfg1.grid.coords t) = false from rfl]; dsimp only [dat]; rfl
theorem leaves5_idle (c : Dev nD) (t : Fin cfg1.N) (h : ¬t.val % 50 = 49) :
    (dat V c).leavesExact 5 t = iprop(∃ d, owns (c : Thread nD τ) (m5 t) fullShare ((dat V c).before 5 t d)) :=
  Dat.leavesExact_idle (dat V c) 5 t (idle5 t h) (noflush5 t h)
theorem leaves6_idle (c : Dev nD) (t : Fin cfg1.N) (h : ¬t.val % 50 = 49) :
    (dat V c).leavesExact 6 t = iprop(∃ d, owns (c : Thread nD τ) (m6 t) fullShare ((dat V c).before 6 t d)) :=
  Dat.leavesExact_idle (dat V c) 6 t (idle6 t h) (noflush6 t h)
theorem leaves5_last (c : Dev nD) (t : Fin cfg1.N) (h : t.val % 50 = 49) :
    (dat V c).leavesExact 5 t = owns (c : Thread nD τ) (m5 t) fullShare (projAt V c t) := by
  unfold Dat.leavesExact; rw [live5 t h, dat_after5]
theorem leaves6_last (c : Dev nD) (t : Fin cfg1.N) (h : t.val % 50 = 49) :
    (dat V c).leavesExact 6 t = owns (c : Thread nD τ) (m6 t) fullShare (blendAt V c t) := by
  unfold Dat.leavesExact; rw [live6 t h, dat_after6]

/-- What the body is called with at point t (the obligation's precondition, the seven windows one by one), -/
def bodyPre (c : Dev nD) (t : Fin cfg1.N) : sProp 𝕄 :=
  iprop((dat V c).Φ t.castSucc ∗ (dat V c).owesAt () t.castSucc
    ∗ (∃ d, owns (c : Thread nD τ) (m0 t) fullShare ((dat V c).before 0 t d))
    ∗ (∃ d, owns (c : Thread nD τ) (m1 t) fullShare ((dat V c).before 1 t d))
    ∗ (∃ d, owns (c : Thread nD τ) (m2 t) fullShare ((dat V c).before 2 t d))
    ∗ (∃ d, owns (c : Thread nD τ) (m3 t) fullShare ((dat V c).before 3 t d))
    ∗ (∃ d, owns (c : Thread nD τ) (m4 t) fullShare ((dat V c).before 4 t d))
    ∗ (∃ d, owns (c : Thread nD τ) (m5 t) fullShare ((dat V c).before 5 t d))
    ∗ (∃ d, owns (c : Thread nD τ) (m6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
/-- The body at any point. The five inputs' buffers hold their blocks. At a first block of a tile (t ≡ 0 mod 50) the
    invariant gives the two sums at anything, which is all the reset asks, and takes them back at the restarted sums;
    the outputs go back as found. At a middle block the invariant gives the sums the point before left and takes back
    this point's; the outputs go back as found. At a last block (t ≡ 49 mod 50) likewise for the sums, and the two
    outputs, handed over at anything, come back at the projection and the blend of this point's sums. The core owes
    nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, leaves0, leaves1, leaves2, leaves3, leaves4]
  rw [show (dat V c).owesAt () t.succ = (dat V c).owesAt () t.castSucc from rfl]
  rw [show (dat V c).Φ t.castSucc = Phi V c t.val (Nat.le_of_lt t.isLt) from rfl]
  rw [show (dat V c).Φ t.succ = iprop(owns (c : Thread nD τ) scTbl fullShare (sumsAt V c t.val t.isLt).1
      ∗ owns (c : Thread nD τ) scHis fullShare (sumsAt V c t.val t.isLt).2 ∗ otherScoped (F := F) c) from rfl]
  by_cases h0 : t.val % 50 = 0
  · have h1 : ¬t.val % 50 = 49 := by omega
    rw [leaves5_idle V c t h1, leaves6_idle V c t h1, tblSum_first V c t h0, hisSum_first V c t h0]
    refine (sep_mono (Phi_forget V c _ _) .rfl).trans ?_
    iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
    iapply (run_first c (grid1.coords t) _ _ _ _ _ _ _ _ _ _ _ _ _ _ _ _ _ _ ((isFirst_iff t).mpr h0) (fun h => h1 ((isLast_iff t).mp h))
      (idxAt V c t) (tblAt V c t) (hisAt V c t) (wtAt V c t) (biasAt V c t) ((dat V c).before 5 t d5) ((dat V c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ht]; · iexact Ht
    isplitl [Hh]; · iexact Hh
    iintro ⟨H0, H1, H2, H3, H4, H5, H6, Ht, Hh⟩
    isplitl [Ht Hh Hr]
    · isplitl [Ht]; · iexact Ht
      isplitl [Hh]; · iexact Hh
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun e => h0 (by rw [e])
    rw [Phi_pos V c _ _ hz, tblSum_next V c t h0, hisSum_next V c t h0]
    by_cases h1 : t.val % 50 = 49
    · rw [leaves5_last V c t h1, leaves6_last V c t h1]
      unfold projAt blendAt
      rw [tblSum_next V c t h0, hisSum_next V c t h0]
      iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
      iapply (run_last c (grid1.coords t) _ _ _ _ _ _ _ _ _ _ _ _ _ _ _ _ _ _ (fun h => h0 ((isFirst_iff t).mp h)) ((isLast_iff t).mpr h1)
        (idxAt V c t) (tblAt V c t) (hisAt V c t) (wtAt V c t) (biasAt V c t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [Ht]; · iexact Ht
      isplitl [Hh]; · iexact Hh
      iintro ⟨H0, H1, H2, H3, H4, H5, H6, Ht, Hh⟩
      isplitl [Ht Hh Hr]
      · isplitl [Ht]; · iexact Ht
        isplitl [Hh]; · iexact Hh
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves5_idle V c t h1, leaves6_idle V c t h1]
      iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
      iapply (run_mid c (grid1.coords t) _ _ _ _ _ _ _ _ _ _ _ _ _ _ _ _ _ _ (fun h => h0 ((isFirst_iff t).mp h)) (fun h => h1 ((isLast_iff t).mp h))
        (idxAt V c t) (tblAt V c t) (hisAt V c t) (wtAt V c t) (biasAt V c t) ((dat V c).before 5 t d5) ((dat V c).before 6 t d6) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Ht]; · iexact Ht
      isplitl [Hh]; · iexact Hh
      iintro ⟨H0, H1, H2, H3, H4, H5, H6, Ht, Hh⟩
      isplitl [Ht Hh Hr]
      · isplitl [Ht]; · iexact Ht
        isplitl [Hh]; · iexact Hh
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation at every point. -/
theorem body_obligation (c : Dev nD) : BodyObligation (dat (F := F) V c) (defs₀ (F := F)) Variants.none () Set.univ := fun t => by
  rw [bigSep_W1, bigSep_W1]
  exact sound_body V c t

end Cert.Kernel.RegionI

end
-- ==== Proof.FrameK.lean ====
/-
  The whole run of the two gather regions, user side then item side.

  The program is a stretch of host operations, the user-side region, the item-side region. Each region finds
  every unscoped buffer at a valuation and leaves it at that valuation changed at its two result arrays only:
  there the arrays hold what the region's write-backs leave (the projection's and the blend's blocks, written
  back at the last table block of each batch tile). The item-side region is entered from what the user-side
  region leaves. This module names those four arrays' final contents (outs), runs the launch over the two
  regions' records, and reads the four results and the eleven arguments off the last valuation.
-/
import proofs.«404517_j50560355008860_1_alg».proof.Proof.KDatU
import proofs.«404517_j50560355008860_1_alg».proof.Proof.KDatI
import proofs.«404517_j50560355008860_1_alg».proof.Proof.KernelRegions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four result arrays' final contents -/

/-- The unscoped buffers when the user-side region is entered (after the host stretch), read at the
    TensorCore's references. -/
abbrev E1 : (c : Dev nD) → (b : Ref sig .tc) → Buf (Elt F) ((c : Thread nD τ).loc b) := fun c b => Gen.V1 m c b

/-- What the user-side region leaves: its two result arrays at what its write-backs leave, anything else as entered. -/
def outsU : Gen.Outs (F := F) := fun _ r c =>
  if h : r = main_v48_0 then h ▸ (RegionU.dat (E1 m) c).arrAt 5 cfg0.N
  else if h : r = main_v48_1 then h ▸ (RegionU.dat (E1 m) c).arrAt 6 cfg0.N
  else Gen.V1 m c r

/-- The unscoped buffers when the item-side region is entered: as the user-side region leaves them. -/
abbrev E2 : (c : Dev nD) → (b : Ref sig .tc) → Buf (Elt F) ((c : Thread nD τ).loc b) := fun c b => Gen.V2 m (outsU m) c b

/-- What the two regions leave: the item-side region's two result arrays at what its write-backs leave (it is
    entered from what the user-side region leaves), the user-side region's as above. -/
def outs : Gen.Outs (F := F) := fun J r c =>
  if h : r = main_v49_0 then h ▸ (RegionI.dat (E2 m) c).arrAt 5 cfg1.N
  else if h : r = main_v49_1 then h ▸ (RegionI.dat (E2 m) c).arrAt 6 cfg1.N
  else outsU m J r c

theorem outsU_v48_0 (J : ℕ) (c : Dev nD) : outsU m J main_v48_0 c = (RegionU.dat (E1 m) c).arrAt 5 cfg0.N := by
  unfold outsU; rw [dif_pos rfl]
theorem outsU_v48_1 (J : ℕ) (c : Dev nD) : outsU m J main_v48_1 c = (RegionU.dat (E1 m) c).arrAt 6 cfg0.N := by
  unfold outsU; rw [dif_neg (by decide), dif_pos rfl]

theorem outs_eq_outsU_v48_0 (J : ℕ) (c : Dev nD) : outs m J main_v48_0 c = outsU m J main_v48_0 c := by
  unfold outs; rw [dif_neg (by decide), dif_neg (by decide)]
theorem outs_eq_outsU_v48_1 (J : ℕ) (c : Dev nD) : outs m J main_v48_1 c = outsU m J main_v48_1 c := by
  unfold outs; rw [dif_neg (by decide), dif_neg (by decide)]

/-- The item-side region's entry contents do not depend on what is said of its own results. -/
theorem V2_outs (c : Dev nD) : Gen.V2 m (outs m) c = Gen.V2 m (outsU m) c := by
  show Function.update (Function.update (Gen.V1 m c) main_v48_0 (outs m 2 main_v48_0 c)) main_v48_1 (outs m 2 main_v48_1 c)
    = Function.update (Function.update (Gen.V1 m c) main_v48_0 (outsU m 2 main_v48_0 c)) main_v48_1 (outsU m 2 main_v48_1 c)
  rw [outs_eq_outsU_v48_0, outs_eq_outsU_v48_1]

theorem outs_v48_0 (c : Dev nD) : outs m 2 main_v48_0 c = (RegionU.dat (fun c b => Gen.V1 m c b) c).arrAt 5 cfg0.N :=
  (outs_eq_outsU_v48_0 m 2 c).trans (outsU_v48_0 m 2 c)
theorem outs_v48_1 (c : Dev nD) : outs m 2 main_v48_1 c = (RegionU.dat (fun c b => Gen.V1 m c b) c).arrAt 6 cfg0.N :=
  (outs_eq_outsU_v48_1 m 2 c).trans (outsU_v48_1 m 2 c)
theorem outs_v49_0' (c : Dev nD) : outs m 3 main_v49_0 c = (RegionI.dat (E2 m) c).arrAt 5 cfg1.N := by
  unfold outs; rw [dif_pos rfl]
theorem outs_v49_1' (c : Dev nD) : outs m 3 main_v49_1 c = (RegionI.dat (E2 m) c).arrAt 6 cfg1.N := by
  unfold outs; rw [dif_neg (by decide), dif_pos rfl]
theorem outs_v49_0 (c : Dev nD) : outs m 3 main_v49_0 c = (RegionI.dat (fun c b => Gen.V2 m (outs m) c b) c).arrAt 5 cfg1.N := by
  rw [show (fun c b => Gen.V2 m (outs m) c b : (c : Dev nD) → (b : Ref sig .tc) → Buf (Elt F) ((c : Thread nD τ).loc b)) = E2 m from
    funext fun c => by rw [V2_outs]]
  unfold outs; rw [dif_pos rfl]
theorem outs_v49_1 (c : Dev nD) : outs m 3 main_v49_1 c = (RegionI.dat (fun c b => Gen.V2 m (outs m) c b) c).arrAt 6 cfg1.N := by
  rw [show (fun c b => Gen.V2 m (outs m) c b : (c : Dev nD) → (b : Ref sig .tc) → Buf (Elt F) ((c : Thread nD τ).loc b)) = E2 m from
    funext fun c => by rw [V2_outs]]
  unfold outs; rw [dif_neg (by decide), dif_pos rfl]

/-! ## The proof data family and what rides beside the buffers -/

/-- Both regions' proof data, each at its region's entry contents. -/
def pdats : (p : Fin 2) → (c : Dev nD) → Dat τ (Elt F) Unit ℕ (UR sig nD τ) ℕ (Pipeline.pin (pcfgs (F := F)) Gen.adm p) c
  | ⟨0, _⟩ => fun c => RegionU.dat (E1 m) c
  | ⟨1, _⟩ => fun c => RegionI.dat (E2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)

/-! ## What each region leaves in each of its windows' arrays -/

/-- The valuation after the user-side region, read at that region's two results. -/
theorem V2_v48_0 (outs : Gen.Outs (F := F)) (c : Dev nD) : Gen.V2 m outs c main_v48_0 = outs 2 main_v48_0 c :=
  (Function.update_of_ne (StableHlo.devRef_ne_of_ne (by decide) : (Proc.devRef .tc main_v48_0 : DevRef τ sig) ≠ Proc.devRef .tc main_v48_1) _ _).trans (Function.update_self _ _ _)
theorem V2_v48_1 (outs : Gen.Outs (F := F)) (c : Dev nD) : Gen.V2 m outs c main_v48_1 = outs 2 main_v48_1 c :=
  Function.update_self _ _ _
/-- The valuation after the item-side region, read at that region's two results. -/
theorem V3_v49_0 (outs : Gen.Outs (F := F)) (c : Dev nD) : Gen.V3 m outs c main_v49_0 = outs 3 main_v49_0 c :=
  (Function.update_of_ne (StableHlo.devRef_ne_of_ne (by decide) : (Proc.devRef .tc main_v49_0 : DevRef τ sig) ≠ Proc.devRef .tc main_v49_1) _ _).trans (Function.update_self _ _ _)
theorem V3_v49_1 (outs : Gen.Outs (F := F)) (c : Dev nD) : Gen.V3 m outs c main_v49_1 = outs 3 main_v49_1 c :=
  Function.update_self _ _ _

set_option maxHeartbeats 1000000 in
/-- The user-side region's arrays at its exit are the next valuation's: an input array is never written and
    is no region's result, the two outputs are the results by name. -/
theorem hF0 (c : Dev nD) (w : Fin cfg0.W) : (pdats m 0 c).arrAt w cfg0.N = Gen.V2 m (outs m) c (Pipeline.arrRef spec0 w) := by
  have hin (w : Fin cfg0.W) (h : (cfg0.win w).isOut = false) (h' : Pipeline.arrRef spec0 w ∉ ([main_v48_0, main_v48_1] : List (Ref sig .tc))) :
      (pdats m 0 c).arrAt w cfg0.N = Gen.V2 m (outs m) c (Pipeline.arrRef spec0 w) :=
    ((pdats m 0 c).arrAt_in w h _).trans ((RegionU.dat_A (E1 m) c w).trans (Gen.V2_of m (outs m) c (Pipeline.arrRef spec0 w) h').symm)
  fin_cases w
  · exact hin 0 rfl (by decide)
  · exact hin 1 rfl (by decide)
  · exact hin 2 rfl (by decide)
  · exact hin 3 rfl (by decide)
  · exact hin 4 rfl (by decide)
  · exact (outs_v48_0 m c).symm.trans (V2_v48_0 m (outs m) c).symm
  · exact (outs_v48_1 m c).symm.trans (V2_v48_1 m (outs m) c).symm

/-- and every buffer that is none of its arrays is as the region found it. -/
theorem hrest0 (c : Dev nD) : ∀ b, b ∉ Finset.univ.image (Pipeline.arrRef spec0) → Gen.V2 m (outs m) c b = Gen.V1 m c b :=
  fun b hb => Gen.V2_of m (outs m) c b fun h => by
    rcases List.mem_cons.mp h with rfl | h
    · exact hb (Finset.mem_image.mpr ⟨5, Finset.mem_univ _, rfl⟩)
    · rcases List.mem_cons.mp h with rfl | h
      · exact hb (Finset.mem_image.mpr ⟨6, Finset.mem_univ _, rfl⟩)
      · exact absurd h List.not_mem_nil

set_option maxHeartbeats 1000000 in
/-- The item-side region's arrays at its exit are the last valuation's. -/
theorem hF1 (c : Dev nD) (w : Fin cfg1.W) : (pdats m 1 c).arrAt w cfg1.N = Gen.V3 m (outs m) c (Pipeline.arrRef spec1 w) := by
  have hin (w : Fin cfg1.W) (h : (cfg1.win w).isOut = false) (h' : Pipeline.arrRef spec1 w ∉ ([main_v49_0, main_v49_1] : List (Ref sig .tc))) :
      (pdats m 1 c).arrAt w cfg1.N = Gen.V3 m (outs m) c (Pipeline.arrRef spec1 w) :=
    ((pdats m 1 c).arrAt_in w h _).trans ((RegionI.dat_A (E2 m) c w).trans
      ((congrFun (V2_outs m c) (Pipeline.arrRef spec1 w)).symm.trans (Gen.V3_of m (outs m) c (Pipeline.arrRef spec1 w) h').symm))
  fin_cases w
  · exact hin 0 rfl (by decide)
  · exact hin 1 rfl (by decide)
  · exact hin 2 rfl (by decide)
  · exact hin 3 rfl (by decide)
  · exact hin 4 rfl (by decide)
  · exact (outs_v49_0' m c).symm.trans (V3_v49_0 m (outs m) c).symm
  · exact (outs_v49_1' m c).symm.trans (V3_v49_1 m (outs m) c).symm

theorem hrest1 (c : Dev nD) : ∀ b, b ∉ Finset.univ.image (Pipeline.arrRef spec1) → Gen.V3 m (outs m) c b = Gen.V2 m (outsU m) c b :=
  fun b hb => (Gen.V3_of m (outs m) c b fun h => by
    rcases List.mem_cons.mp h with rfl | h
    · exact hb (Finset.mem_image.mpr ⟨5, Finset.mem_univ _, rfl⟩)
    · rcases List.mem_cons.mp h with rfl | h
      · exact hb (Finset.mem_image.mpr ⟨6, Finset.mem_univ _, rfl⟩)
      · exact absurd h List.not_mem_nil).trans (congrFun (V2_outs m c) b)

/-! ## The regions as segments -/

-- a library lemma stated over the pinned configuration unifies with the printed one only when unification may
-- unfold plain definitions in a metavariable's type
set_option backward.isDefEq.respectTransparency.types false in
/-- THE USER-SIDE REGION over the thread state "every unscoped buffer at a valuation, the generator register and the
    core owing nothing beside": entered from the valuation after the host stretch, left at that valuation changed
    at the region's two results. Its arrays are split out of the unscoped buffers at entry and put back at exit;
    nothing but the scoped rest enters the invariant (the scratch sums live there); no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (RegionU.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X _ := BI.emp
  Y _ := BI.emp
  Z c := iprop(Pipeline.unscopedRest (Ix := Unit) (Name := ℕ) (U := UR sig nD τ) (Lvl := ℕ) spec0 c (E1 m c) ∗ ∃ r, prngReg c r)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 0 c).Φ 0 = Pipeline.scopedRest (Ix := Unit) (Name := ℕ) (U := UR sig nD τ) (Lvl := ℕ) (Val := Elt F) spec0 c from RegionU.dat_Phi_zero (E1 m) c]
    iintro ⟨-, -, Hr⟩; iexact Hr
  hout c := by
    rw [Pipeline.ownSems0_none]
    refine (RegionU.dat_Phi_last (E1 m) c).trans ?_
    iintro Hr
    isplitr; · iempintro
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- THE ITEM-SIDE REGION over the same thread state: entered from what the user-side region leaves, left at that
    valuation changed at this region's two results (what the launch reads at the end). -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (RegionI.body_obligation (E2 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X _ := BI.emp
  Y _ := BI.emp
  Z c := iprop(Pipeline.unscopedRest (Ix := Unit) (Name := ℕ) (U := UR sig nD τ) (Lvl := ℕ) spec1 c (E2 m c) ∗ ∃ r, prngReg c r)
  hentry c := by
    rw [Pipeline.ownSems0_none, V2_outs]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 1 c).Φ 0 = Pipeline.scopedRest (Ix := Unit) (Name := ℕ) (U := UR sig nD τ) (Lvl := ℕ) (Val := Elt F) spec1 c from RegionI.dat_Phi_zero (E2 m) c]
    iintro ⟨-, -, Hr⟩; iexact Hr
  hout c := by
    rw [Pipeline.ownSems0_none]
    refine (RegionI.dat_Phi_last (E2 m) c).trans ?_
    iintro Hr
    isplitr; · iempintro
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (fun b => Gen.V3 m (outs m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state is the last valuation and the generator register, beside the core owing nothing. -/
theorem last_link (c : Dev nD) :
    (iprop(StableHlo.held (c : Thread nD τ) (Pipeline.ucRefs τ sig) (Gen.V3 m (outs m) c) ∗ R c) : sProp 𝕄)
      ⊢ iprop((StableHlo.held (c : Thread nD τ) (Pipeline.ucRefs τ sig) (Gen.V3 m (outs m) c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

-- the launch theorem's implicit arguments are found by unifying its conclusion with this one, which takes unfolding
-- plain definitions in a metavariable's type
set_option backward.isDefEq.respectTransparency.types false in
/-- THE RUN: from any memory with zero counters every weakly fair execution of the program terminates, and every
    final memory holds the four result arrays at what the two regions' write-backs leave (outs) and each argument
    as launched. The launch over the host stretch and the two regions' records; the last thread state read against
    the final state, each result by name off the last valuation, each argument walked back to the launch memory. -/
theorem run_results : θ_run defs (onTc (τ := τ) (main (F := F))) ⟨m, fun _ => 0, ρ⟩ (fun r => ∀ c : Dev nD,
      r.2.mem ((c.tc : Thread nD τ).loc main_v48_0) = outs m 2 main_v48_0 c
      ∧ r.2.mem ((c.tc : Thread nD τ).loc main_v48_1) = outs m 2 main_v48_1 c
      ∧ r.2.mem ((c.tc : Thread nD τ).loc main_v49_0) = outs m 3 main_v49_0 c
      ∧ r.2.mem ((c.tc : Thread nD τ).loc main_v49_1) = outs m 3 main_v49_1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) Gen.adm (pdats m) () cellOf_inj emb₁ defs₀ 𝒱₀ L lv m ρ main
    (Gen.segs m 𝒱₀ L lv (fun _ => R) () (pdats m) (reg0 m) (reg1 m))
    (fun c Q => by
      rewrite [main_chain c, Pipeline.Seg.run_eq_chain,
        show (Gen.segs m 𝒱₀ L lv (fun _ => R) () (pdats m) (reg0 m) (reg1 m) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V3 m (outs m) c) ∗ ∃ r, prngReg c r))
    (hch := fun c => ⟨.rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V3 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V3 m (outs m) c) s')
      isplitl [Hh] <;> iassumption)
    (hQ := fun s h c =>
      ⟨(h c _ (mem_uc main_v48_0 (by decide))).trans (((Gen.V3_of m (outs m) c main_v48_0 (by decide)).trans (V2_v48_0 m (outs m) c))),
       (h c _ (mem_uc main_v48_1 (by decide))).trans (((Gen.V3_of m (outs m) c main_v48_1 (by decide)).trans (V2_v48_1 m (outs m) c))),
       (h c _ (mem_uc main_v49_0 (by decide))).trans (V3_v49_0 m (outs m) c),
       (h c _ (mem_uc main_v49_1 (by decide))).trans (V3_v49_1 m (outs m) c),
       (h c _ (mem_uc main_arg0 (by decide))).trans (Gen.V3_main_arg0 m (outs m) c),
       (h c _ (mem_uc main_arg1 (by decide))).trans (Gen.V3_main_arg1 m (outs m) c),
       (h c _ (mem_uc main_arg2 (by decide))).trans (Gen.V3_main_arg2 m (outs m) c),
       (h c _ (mem_uc main_arg3 (by decide))).trans (Gen.V3_main_arg3 m (outs m) c),
       (h c _ (mem_uc main_arg4 (by decide))).trans (Gen.V3_main_arg4 m (outs m) c),
       (h c _ (mem_uc main_arg5 (by decide))).trans (Gen.V3_main_arg5 m (outs m) c),
       (h c _ (mem_uc main_arg6 (by decide))).trans (Gen.V3_main_arg6 m (outs m) c),
       (h c _ (mem_uc main_arg7 (by decide))).trans (Gen.V3_main_arg7 m (outs m) c),
       (h c _ (mem_uc main_arg8 (by decide))).trans (Gen.V3_main_arg8 m (outs m) c),
       (h c _ (mem_uc main_arg9 (by decide))).trans (Gen.V3_main_arg9 m (outs m) c),
       (h c _ (mem_uc main_arg10 (by decide))).trans (Gen.V3_main_arg10 m (outs m) c)⟩)

/-- THE FRAME: every weakly fair execution terminates and every final memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2.2.2.2) (run_results m ρ)

end Cert.Kernel.Whole

end
-- ==== Proof.BodyU.lean ====
/-
  The body of the user-side gather kernel at one grid point (batch tile i, table block k), in its three control cases.
  Row r of the one-hot block is 1 exactly at the column j with idx r = 1000 k + j; the body adds
  onehot · table-block to each of two running sums (the layer-averaged table's rows and the history table's rows),
  resets both sums to zero first when k = 0, and when k is the last block writes the momentum blend of the two sums
  and the projection of the first sum through the transposed weight plus the bias.
  Stated over ANY whole staging memrefs and at any float instance: what each buffer holds afterwards is a pure
  function of what the inputs held (the generated payloads), so one text serves the word-level and the ideal reading.
-/
import proofs.«404517_j50560355008860_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.RegionU

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first table block of its batch tile (k = 0), as the kernel tests it. -/
abbrev isFirst (i : grid0.Coords) : Prop :=
  (Scalar.cmpi .ne (Scalar.extui (Scalar.cmpi .eq (BitVec.ofNat 32 (i 1).val) 0#32)) 0#32) = 1#1
/-- The point is the last table block of its batch tile (k = 99), as the kernel tests it. -/
abbrev isLast (i : grid0.Coords) : Prop := k0_cond2 i = 1#1

/-- The running sum of selected table rows after one more block: acc + onehot(i, idx) · blk. -/
def sumTbl (i : grid0.Coords) (idx : Vec F S2048 .i32) (blk : Vec F S1000x64 .f32) (acc : Vec F S2048x64 .f32) : Vec F S2048x64 .f32 :=
  k0_pay6 i idx blk acc
/-- The running sum of selected history rows after one more block. -/
def sumHis (i : grid0.Coords) (idx : Vec F S2048 .i32) (blk : Vec F S1000x64 .f32) (acc : Vec F S2048x64 .f32) : Vec F S2048x64 .f32 :=
  k0_pay7 i idx blk acc
/-- The two sums as reset at the first block. -/
def zeroTbl : Vec F S2048x64 .f32 := k0_pay3
def zeroHis : Vec F S2048x64 .f32 := k0_pay4
/-- The momentum blend his · 0.05 + tbl · 0.95 (the two f32 words as printed). -/
def blend (tblSum hisSum : Vec F S2048x64 .f32) : Vec F S2048x64 .f32 := k0_pay1 tblSum hisSum
/-- The projection tblSum · wt + bias. -/
def project (tblSum : Vec F S2048x64 .f32) (wt : Vec F S64x64 .f32) (bias : Vec F S64 .f32) : Vec F S2048x64 .f32 := k0_pay2 tblSum wt bias

/-- The zero offsets of a rank-2 rectangle, as the constant function. -/
private theorem hz2 : (![0, 0] : Fin 2 → Nat) = fun _ => 0 := funext fun a => by fin_cases a <;> rfl
/-- The zero offset of a rank-1 rectangle, as the constant function. -/
private theorem hz1 : (![0] : Fin 1 → Nat) = fun _ => 0 := funext fun a => by fin_cases a; rfl

section Whole
variable {S : Shape} {e : EltTy} (M : Memref sig .tc .vmem S e)

/-- A load of the whole shape at zero offsets, from a whole buffer whose contents read `X`, reads `X`. -/
private theorem load_whole (hM : M.IsWhole) {off : Fin S.rank → Nat} (hz : off = fun _ => 0) (inb : ∀ a, off a + S.size a ≤ S.size a)
    (X : S.Idx → Elt F e) :
    View.readAt (Elt F) M.view (Rect.unit off S.size inb).toLoadRect (hM.unread X) = X := by
  rw [View.readAt_eq_ld, hM.read_unread, View.ld_unit_zero hz]

/-- After a store of the whole shape at zero offsets, made LAST, the buffer reads the stored value, whatever it
    held before and whatever the earlier stores were (the list holds the last store first). -/
private theorem read_store_last (f : M.view.ty.Contents (Elt F)) {off : Fin S.rank → Nat} (hz : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

set_option maxHeartbeats 1000000 in
/-- FIRST block of a tile (not the last): both sums are reset, then take the block's contribution; the two output
    buffers are not touched. -/
theorem run_first (c : Dev nD) (i : grid0.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : isFirst i) (h1 : ¬isLast i)
    (idx : Vec F S2048 .i32) (tbl his : Vec F S1000x64 .f32) (wt : Vec F S64x64 .f32) (bias : Vec F S64 .f32)
    (xp xt : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ owns (c : Thread nD τ) arg7 fullShare xp ∗ owns (c : Thread nD τ) arg8 fullShare xt
        ∗ (∃ d, owns (c : Thread nD τ) arg9 fullShare d) ∗ (∃ d, owns (c : Thread nD τ) arg10 fullShare d)
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare xp ∗ owns (c : Thread nD τ) arg8 fullShare xt
            ∗ owns (c : Thread nD τ) arg9 fullShare (sumTbl i idx tbl zeroTbl) ∗ owns (c : Thread nD τ) arg10 fullShare (sumHis i idx his zeroHis)) -∗ K ⟨⟩))
      ⊢ wp frame (wpE (defs₀ (F := F)) Variants.none c none) E (cc0__gather_blend_proj_kernel i arg2 harg2 arg3 harg3 arg4 harg4 arg5 harg5 arg6 harg6 arg7 harg7 arg8 harg8 arg9 harg9 arg10 harg10) K := by
  simp only [cc0__gather_blend_proj_kernel_eq_skeleton]; unfold cc0__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    rotate_left
    · iexact H9
    · ipureintro
      rw [read_store_last arg9 _ hz2]
      sl_unfold_run_names
      rw [View.readCov_cons_toLoadRect, load_whole arg2 harg2 hz1, load_whole arg3 harg3 hz2]
      rfl
  iexists _; isplitr
  rotate_left
  · iexact H10
  · ipureintro
    rw [read_store_last arg10 _ hz2]
    sl_unfold_run_names
    rw [View.readCov_cons_toLoadRect, load_whole arg2 harg2 hz1, load_whole arg4 harg4 hz2]
    rfl

set_option maxHeartbeats 1000000 in
/-- MIDDLE block: both sums take the block's contribution over what the point before left; outputs not touched. -/
theorem run_mid (c : Dev nD) (i : grid0.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : ¬isFirst i) (h1 : ¬isLast i)
    (idx : Vec F S2048 .i32) (tbl his : Vec F S1000x64 .f32) (wt : Vec F S64x64 .f32) (bias : Vec F S64 .f32)
    (xp xt st sh : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ owns (c : Thread nD τ) arg7 fullShare xp ∗ owns (c : Thread nD τ) arg8 fullShare xt
        ∗ owns (c : Thread nD τ) arg9 fullShare st ∗ owns (c : Thread nD τ) arg10 fullShare sh
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare xp ∗ owns (c : Thread nD τ) arg8 fullShare xt
            ∗ owns (c : Thread nD τ) arg9 fullShare (sumTbl i idx tbl st) ∗ owns (c : Thread nD τ) arg10 fullShare (sumHis i idx his sh)) -∗ K ⟨⟩))
      ⊢ wp frame (wpE (defs₀ (F := F)) Variants.none c none) E (cc0__gather_blend_proj_kernel i arg2 harg2 arg3 harg3 arg4 harg4 arg5 harg5 arg6 harg6 arg7 harg7 arg8 harg8 arg9 harg9 arg10 harg10) K := by
  simp only [cc0__gather_blend_proj_kernel_eq_skeleton]; unfold cc0__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    rotate_left
    · iexact H9
    · ipureintro
      rw [read_store_last arg9 _ hz2, load_whole arg2 harg2 hz1, load_whole arg3 harg3 hz2, load_whole arg9 harg9 hz2]
      rfl
  iexists _; isplitr
  rotate_left
  · iexact H10
  · ipureintro
    rw [read_store_last arg10 _ hz2, load_whole arg2 harg2 hz1, load_whole arg4 harg4 hz2, load_whole arg10 harg10 hz2]
    rfl

set_option maxHeartbeats 1000000 in
/-- LAST block (not the first): both sums take the block's contribution, and the outputs are written whole:
    the projection of the table sum into the first, the blend of the two sums into the second. -/
theorem run_last (c : Dev nD) (i : grid0.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : ¬isFirst i) (h1 : isLast i)
    (idx : Vec F S2048 .i32) (tbl his : Vec F S1000x64 .f32) (wt : Vec F S64x64 .f32) (bias : Vec F S64 .f32)
    (st sh : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ (∃ d, owns (c : Thread nD τ) arg7 fullShare d) ∗ (∃ d, owns (c : Thread nD τ) arg8 fullShare d)
        ∗ owns (c : Thread nD τ) arg9 fullShare st ∗ owns (c : Thread nD τ) arg10 fullShare sh
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare (project (sumTbl i idx tbl st) wt bias)
            ∗ owns (c : Thread nD τ) arg8 fullShare (blend (sumTbl i idx tbl st) (sumHis i idx his sh))
            ∗ owns (c : Thread nD τ) arg9 fullShare (sumTbl i idx tbl st) ∗ owns (c : Thread nD τ) arg10 fullShare (sumHis i idx his sh)) -∗ K ⟨⟩))
      ⊢ wp frame (wpE (defs₀ (F := F)) Variants.none c none) E (cc0__gather_blend_proj_kernel i arg2 harg2 arg3 harg3 arg4 harg4 arg5 harg5 arg6 harg6 arg7 harg7 arg8 harg8 arg9 harg9 arg10 harg10) K := by
  simp only [cc0__gather_blend_proj_kernel_eq_skeleton]; unfold cc0__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := harg9.eq_unread hf9; obtain rfl := harg10.eq_unread hf10
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    rotate_left
    · iexact H7
    · ipureintro
      rw [read_store_last arg7 _ hz2]
      sl_unfold_run_names
      rw [View.readCov_cons_toLoadRect, load_whole arg2 harg2 hz1, load_whole arg3 harg3 hz2, load_whole arg9 harg9 hz2,
        load_whole arg5 harg5 hz2, load_whole arg6 harg6 hz1]
      rfl
  isplitl [H8]
  · iexists _; isplitr
    rotate_left
    · iexact H8
    · ipureintro
      rw [read_store_last arg8 _ hz2]
      sl_unfold_run_names
      rw [View.readCov_cons_toLoadRect, View.readCov_cons_toLoadRect, load_whole arg2 harg2 hz1, load_whole arg3 harg3 hz2,
        load_whole arg9 harg9 hz2, load_whole arg4 harg4 hz2, load_whole arg10 harg10 hz2]
      rfl
  isplitl [H9]
  · iexists _; isplitr
    rotate_left
    · iexact H9
    · ipureintro
      sl_unfold_run_names
      rw [read_store_last arg9 _ hz2, load_whole arg2 harg2 hz1, load_whole arg3 harg3 hz2, load_whole arg9 harg9 hz2]
      rfl
  iexists _; isplitr
  rotate_left
  · iexact H10
  · ipureintro
    sl_unfold_run_names
    rw [read_store_last arg10 _ hz2, load_whole arg2 harg2 hz1, load_whole arg4 harg4 hz2, load_whole arg10 harg10 hz2]
    rfl

end Cert.KernelIdeal.RegionU

end
-- ==== Proof.DatU.lean ====
/-
  The user-side gather region's proof data, at any entry contents V of the unscoped buffers and any float instance.
  Point t = 100 i + k of the grid (batch tile i, table block k). After the body at t the two scratch buffers hold
  the sums over blocks 0..k of onehot · block (of the averaged table and of the history table), restarted from zero
  at k = 0; at k = 99 the two output buffers hold the projection and the blend of those sums and are written back;
  at every other point the output buffers are left as found. Between points the region's invariant is: the two
  scratch buffers at those sums, every other scoped buffer of the program at something.
-/
import proofs.«404517_j50560355008860_1_alg».proof.Proof.BodyU
import proofs.«404517_j50560355008860_1_alg».proof.Proof.KernelIdealLaunch
import proofs.«404517_j50560355008860_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.RegionU

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered, per core
variable (V : (c : Dev nD) → (b : Ref sig .tc) → Buf (Elt F) ((c : Thread nD τ).loc b))

/-- Window w's block of its array at point t, as the fetch stages it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The index block, the two table blocks, the weight and the bias at point t, at their literal types. -/
def idxAt (c : Dev nD) (t : Fin cfg0.N) : Vec F S2048 .i32 := iblk V c 0 t
def tblAt (c : Dev nD) (t : Fin cfg0.N) : Vec F S1000x64 .f32 := iblk V c 1 t
def hisAt (c : Dev nD) (t : Fin cfg0.N) : Vec F S1000x64 .f32 := iblk V c 2 t
def wtAt (c : Dev nD) (t : Fin cfg0.N) : Vec F S64x64 .f32 := iblk V c 3 t
def biasAt (c : Dev nD) (t : Fin cfg0.N) : Vec F S64 .f32 := iblk V c 4 t

/-- THE ACCUMULATION: the pair (table sum, history sum) the scratch buffers hold after the body at position n. -/
def sumsAt (c : Dev nD) : (n : ℕ) → n < cfg0.N → Vec F S2048x64 .f32 × Vec F S2048x64 .f32
  | 0, hn => (sumTbl (grid0.coords ⟨0, hn⟩) (idxAt V c ⟨0, hn⟩) (tblAt V c ⟨0, hn⟩) zeroTbl,
              sumHis (grid0.coords ⟨0, hn⟩) (idxAt V c ⟨0, hn⟩) (hisAt V c ⟨0, hn⟩) zeroHis)
  | n + 1, hn =>
    if (n + 1) % 100 = 0 then
      (sumTbl (grid0.coords ⟨n + 1, hn⟩) (idxAt V c ⟨n + 1, hn⟩) (tblAt V c ⟨n + 1, hn⟩) zeroTbl,
       sumHis (grid0.coords ⟨n + 1, hn⟩) (idxAt V c ⟨n + 1, hn⟩) (hisAt V c ⟨n + 1, hn⟩) zeroHis)
    else
      (sumTbl (grid0.coords ⟨n + 1, hn⟩) (idxAt V c ⟨n + 1, hn⟩) (tblAt V c ⟨n + 1, hn⟩) (sumsAt c n (Nat.lt_of_succ_lt hn)).1,
       sumHis (grid0.coords ⟨n + 1, hn⟩) (idxAt V c ⟨n + 1, hn⟩) (hisAt V c ⟨n + 1, hn⟩) (sumsAt c n (Nat.lt_of_succ_lt hn)).2)

/-- At the first block of a tile the sums restart from zero. -/
theorem sumsAt_first (c : Dev nD) (t : Fin cfg0.N) (h : t.val % 100 = 0) :
    sumsAt V c t.val t.isLt = (sumTbl (grid0.coords t) (idxAt V c t) (tblAt V c t) zeroTbl, sumHis (grid0.coords t) (idxAt V c t) (hisAt V c t) zeroHis) := by
  obtain ⟨n, hn⟩ := t
  cases n with
  | zero => rfl
  | succ n => exact if_pos h
/-- At any other block they continue from the point before. -/
theorem sumsAt_next (c : Dev nD) (t : Fin cfg0.N) (h : ¬t.val % 100 = 0) :
    sumsAt V c t.val t.isLt = (sumTbl (grid0.coords t) (idxAt V c t) (tblAt V c t) (sumsAt V c (t.val - 1) (Nat.lt_of_le_of_lt (Nat.sub_le _ _) t.isLt)).1,
      sumHis (grid0.coords t) (idxAt V c t) (hisAt V c t) (sumsAt V c (t.val - 1) (Nat.lt_of_le_of_lt (Nat.sub_le _ _) t.isLt)).2) := by
  obtain ⟨n, hn⟩ := t
  cases n with
  | zero => exact absurd (Nat.zero_mod 100) h
  | succ n => exact if_neg h

/-- What the first output's buffer (the projection) and the second's (the blend) hold after the body at a last block. -/
def projAt (c : Dev nD) (t : Fin cfg0.N) : Vec F S2048x64 .f32 := project (sumsAt V c t.val t.isLt).1 (wtAt V c t) (biasAt V c t)
def blendAt (c : Dev nD) (t : Fin cfg0.N) : Vec F S2048x64 .f32 := blend (sumsAt V c t.val t.isLt).1 (sumsAt V c t.val t.isLt).2

/-- The two scratch operands as memrefs. -/
abbrev scTbl : Memref sig .tc .vmem S2048x64 .f32 := Memref.whole cc0_scratch0
abbrev scHis : Memref sig .tc .vmem S2048x64 .f32 := Memref.whole cc0_scratch1

/-- Every scoped buffer that is neither a staging buffer of this region nor one of its two scratch buffers (the
    other region's fourteen), each whole at something. -/
def otherScoped (c : Dev nD) : sProp 𝕄 :=
  Pipeline.scopedRestBut (Ix := Unit) (Name := ℕ) (U := UR sig nD τ) (Lvl := ℕ) (Val := Elt F) spec0 c [cc0_scratch0, cc0_scratch1]

/-- The scoped rest of this region is its two scratch buffers at something beside the others. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) scTbl fullShare d) ∗ (∃ d, owns (c : Thread nD τ) scHis fullShare d) ∗ otherScoped (F := F) c) := by
  rw [Pipeline.scopedRest_split_of_list spec0 c [cc0_scratch0, cc0_scratch1] (by decide) (by decide)]
  unfold otherScoped
  simp only [scTbl, scHis, owns_whole]
  exact equiv_iff.mp ⟨Idealize.SL.BI.sep_assoc, Idealize.SL.BI.sep_assoc'⟩

/-- The invariant before position n: at the region's entry the scoped rest; afterwards the two scratch buffers at the
    sums the point before left, beside the other scoped buffers. -/
def Phi (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scTbl fullShare (sumsAt V c n hn).1 ∗ owns (c : Thread nD τ) scHis fullShare (sumsAt V c n hn).2 ∗ otherScoped (F := F) c)

/-- Before the first point the invariant is the scoped rest. -/
theorem Phi_zero (c : Dev nD) (n : ℕ) (h : n ≤ cfg0.N) (hz : n = 0) :
    Phi V c n h = Pipeline.scopedRest (Ix := Unit) (Name := ℕ) (U := UR sig nD τ) (Lvl := ℕ) (Val := Elt F) spec0 c := by
  subst hz; rfl

/-- Before any later point it names the sums the point before left. -/
theorem Phi_pos (c : Dev nD) (n : ℕ) (h : n ≤ cfg0.N) (hz : n ≠ 0) :
    Phi V c n h = iprop(owns (c : Thread nD τ) scTbl fullShare (sumsAt V c (n - 1) (by omega)).1
      ∗ owns (c : Thread nD τ) scHis fullShare (sumsAt V c (n - 1) (by omega)).2 ∗ otherScoped (F := F) c) := by
  cases n with
  | zero => exact absurd rfl hz
  | succ n => rfl

/-- At every position the invariant holds both sums at something: at the entry by splitting the scoped rest,
    later by forgetting which sums they are. That is all a first block of a tile asks of them. -/
theorem Phi_forget (c : Dev nD) (n : ℕ) (h : n ≤ cfg0.N) :
    Phi V c n h ⊢ iprop((∃ d, owns (c : Thread nD τ) scTbl fullShare d) ∗ (∃ d, owns (c : Thread nD τ) scHis fullShare d) ∗ otherScoped (F := F) c) := by
  by_cases hz : n = 0
  · rw [Phi_zero V c n h hz, scopedRest_split]
  · rw [Phi_pos V c n h hz]
    iintro ⟨Ht, Hh, Hr⟩
    isplitl [Ht]
    · iexists _; iexact Ht
    isplitl [Hh]
    · iexists _; iexact Hh
    iexact Hr

/-- The region's proof data on core c. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => projAt V c t
    | ⟨6, _⟩ => blendAt V c t
  Φ t := Phi V c t.val (Nat.le_of_lt_succ t.isLt)
  q _ := fullShare
  owed _ := 0

theorem dat_A (c : Dev nD) (w : Fin cfg0.W) : (dat V c).A w = V c (Pipeline.arrRef spec0 w) := by dsimp only [dat]
theorem dat_after5 (c : Dev nD) (t : Fin cfg0.N) : (dat V c).after 5 t = projAt V c t := by dsimp only [dat]
theorem dat_after6 (c : Dev nD) (t : Fin cfg0.N) : (dat V c).after 6 t = blendAt V c t := by dsimp only [dat]
theorem dat_Phi_zero (c : Dev nD) : (dat V c).Φ 0 = Pipeline.scopedRest (Ix := Unit) (Name := ℕ) (U := UR sig nD τ) (Lvl := ℕ) (Val := Elt F) spec0 c := rfl
/-- At the region's exit the invariant gives the scoped rest back. -/
theorem dat_Phi_last (c : Dev nD) : (dat V c).Φ (Fin.last cfg0.N) ⊢ (Pipeline.scopedRest (Ix := Unit) (Name := ℕ) (U := UR sig nD τ) (Lvl := ℕ) (Val := Elt F) spec0 c : sProp 𝕄) := by
  rw [show (dat V c).Φ (Fin.last cfg0.N) = Phi V c (Fin.last cfg0.N).val (Nat.le_of_lt_succ (Fin.last cfg0.N).isLt) from rfl,
    Phi_pos V c _ _ (by rw [Fin.val_last]; have : cfg0.N = 200 := N_0; omega), scopedRest_split]
  iintro ⟨Ht, Hh, Hr⟩
  isplitl [Ht]
  · iexists _; iexact Ht
  isplitl [Hh]
  · iexists _; iexact Hh
  iexact Hr

/-! ## The body obligation -/

/-- Each sum by itself, at a first block and at a later one. -/
theorem tblSum_first (c : Dev nD) (t : Fin cfg0.N) (h : t.val % 100 = 0) :
    (sumsAt V c t.val t.isLt).1 = sumTbl (grid0.coords t) (idxAt V c t) (tblAt V c t) zeroTbl :=
  congrArg Prod.fst (sumsAt_first V c t h)
theorem hisSum_first (c : Dev nD) (t : Fin cfg0.N) (h : t.val % 100 = 0) :
    (sumsAt V c t.val t.isLt).2 = sumHis (grid0.coords t) (idxAt V c t) (hisAt V c t) zeroHis :=
  congrArg Prod.snd (sumsAt_first V c t h)
theorem tblSum_next (c : Dev nD) (t : Fin cfg0.N) (h : ¬t.val % 100 = 0) :
    (sumsAt V c t.val t.isLt).1 = sumTbl (grid0.coords t) (idxAt V c t) (tblAt V c t) (sumsAt V c (t.val - 1) (Nat.lt_of_le_of_lt (Nat.sub_le _ _) t.isLt)).1 :=
  congrArg Prod.fst (sumsAt_next V c t h)
theorem hisSum_next (c : Dev nD) (t : Fin cfg0.N) (h : ¬t.val % 100 = 0) :
    (sumsAt V c t.val t.isLt).2 = sumHis (grid0.coords t) (idxAt V c t) (hisAt V c t) (sumsAt V c (t.val - 1) (Nat.lt_of_le_of_lt (Nat.sub_le _ _) t.isLt)).2 :=
  congrArg Prod.snd (sumsAt_next V c t h)

/-- The kernel's two tests on the point, in closed form over the grid of 200 points: the first block of a tile is
    the positions ≡ 0 (mod 100), the last block the positions ≡ 99 (mod 100). -/
theorem isFirst_iff : ∀ t : Fin cfg0.N, isFirst (grid0.coords t) ↔ t.val % 100 = 0 :=
  (by decide +kernel : ∀ t : Fin grid0.N, isFirst (grid0.coords t) ↔ t.val % 100 = 0)
theorem isLast_iff : ∀ t : Fin cfg0.N, isLast (grid0.coords t) ↔ t.val % 100 = 99 :=
  (by decide +kernel : ∀ t : Fin grid0.N, isLast (grid0.coords t) ↔ t.val % 100 = 99)

/-- The two output windows are idle exactly away from the last block of a tile, and are not written back there. -/
theorem idle5 : ∀ t : Fin cfg0.N, ¬t.val % 100 = 99 → cfg0.idle 5 (grid0.coords t) = true := by decide +kernel
theorem idle6 : ∀ t : Fin cfg0.N, ¬t.val % 100 = 99 → cfg0.idle 6 (grid0.coords t) = true := by decide +kernel
theorem live5 : ∀ t : Fin cfg0.N, t.val % 100 = 99 → cfg0.idle 5 (grid0.coords t) = false := by decide +kernel
theorem live6 : ∀ t : Fin cfg0.N, t.val % 100 = 99 → cfg0.idle 6 (grid0.coords t) = false := by decide +kernel
theorem noflush5 (t : Fin cfg0.N) (h : ¬t.val % 100 = 99) : (cfg0.win 5).flush t = false :=
  Bool.eq_false_iff.mpr fun hf => h ((flush0_5 t).mp hf)
theorem noflush6 (t : Fin cfg0.N) (h : ¬t.val % 100 = 99) : (cfg0.win 6).flush t = false :=
  Bool.eq_false_iff.mpr fun hf => h ((flush0_6 t).mp hf)

/-- The windows' current staging memrefs at point t, at their literal types. -/
abbrev m0 (t : Fin cfg0.N) : Memref sig .tc .vmem S2048 .i32 := win0_0.stage (cfg0.slots t 0)
abbrev m1 (t : Fin cfg0.N) : Memref sig .tc .vmem S1000x64 .f32 := win0_1.stage (cfg0.slots t 1)
abbrev m2 (t : Fin cfg0.N) : Memref sig .tc .vmem S1000x64 .f32 := win0_2.stage (cfg0.slots t 2)
abbrev m3 (t : Fin cfg0.N) : Memref sig .tc .vmem S64x64 .f32 := win0_3.stage (cfg0.slots t 3)
abbrev m4 (t : Fin cfg0.N) : Memref sig .tc .vmem S64 .f32 := win0_4.stage (cfg0.slots t 4)
abbrev m5 (t : Fin cfg0.N) : Memref sig .tc .vmem S2048x64 .f32 := win0_5.stage (cfg0.slots t 5)
abbrev m6 (t : Fin cfg0.N) : Memref sig .tc .vmem S2048x64 .f32 := win0_6.stage (cfg0.slots t 6)

/-- Every input's current buffer holds the input's block at every point, fetched there or not: where it is not
    fetched the block index has not moved since the point before, and the body leaves inputs in place. -/
theorem before0 (c : Dev nD) (t : Fin cfg0.N) (d) : (dat V c).before 0 t d = idxAt V c t :=
  ((dat V c).before_in_eq_fetched 0 rfl (fun _ => rfl) (fun _ _ _ => rfl)
    (fun t => by rw [show (dat V c).after 0 t = iblk V c 0 t from by dsimp only [dat]]; unfold Dat.blockOf iblk; rw [dat_A]; try rfl) t d).trans
    (by unfold Dat.fetched Dat.blockOf idxAt iblk; rw [dat_A]; try rfl)
theorem before1 (c : Dev nD) (t : Fin cfg0.N) (d) : (dat V c).before 1 t d = tblAt V c t :=
  ((dat V c).before_in_eq_fetched 1 rfl (fun _ => rfl) (fun _ _ _ => rfl)
    (fun t => by rw [show (dat V c).after 1 t = iblk V c 1 t from by dsimp only [dat]]; unfold Dat.blockOf iblk; rw [dat_A]; try rfl) t d).trans
    (by unfold Dat.fetched Dat.blockOf tblAt iblk; rw [dat_A]; try rfl)
theorem before2 (c : Dev nD) (t : Fin cfg0.N) (d) : (dat V c).before 2 t d = hisAt V c t :=
  ((dat V c).before_in_eq_fetched 2 rfl (fun _ => rfl) (fun _ _ _ => rfl)
    (fun t => by rw [show (dat V c).after 2 t = iblk V c 2 t from by dsimp only [dat]]; unfold Dat.blockOf iblk; rw [dat_A]; try rfl) t d).trans
    (by unfold Dat.fetched Dat.blockOf hisAt iblk; rw [dat_A]; try rfl)
theorem before3 (c : Dev nD) (t : Fin cfg0.N) (d) : (dat V c).before 3 t d = wtAt V c t :=
  ((dat V c).before_in_eq_fetched 3 rfl (fun _ => rfl) (fun _ _ _ => rfl)
    (fun t => by rw [show (dat V c).after 3 t = iblk V c 3 t from by dsimp only [dat]]; unfold Dat.blockOf iblk; rw [dat_A]; try rfl) t d).trans
    (by unfold Dat.fetched Dat.blockOf wtAt iblk; rw [dat_A]; try rfl)
theorem before4 (c : Dev nD) (t : Fin cfg0.N) (d) : (dat V c).before 4 t d = biasAt V c t :=
  ((dat V c).before_in_eq_fetched 4 rfl (fun _ => rfl) (fun _ _ _ => rfl)
    (fun t => by rw [show (dat V c).after 4 t = iblk V c 4 t from by dsimp only [dat]]; unfold Dat.blockOf iblk; rw [dat_A]; try rfl) t d).trans
    (by unfold Dat.fetched Dat.blockOf biasAt iblk; rw [dat_A]; try rfl)

/-- What the obligation asks of each window's buffer after the body: an input's at its block (inputs are never
    idle), an output's as found away from the last block of a tile, at the projection / the blend at a last block. -/
theorem leaves0 (c : Dev nD) (t : Fin cfg0.N) : (dat V c).leavesExact 0 t = owns (c : Thread nD τ) (m0 t) fullShare (idxAt V c t) := by
  unfold Dat.leavesExact; rw [show cfg0.idle 0 (cfg0.grid.coords t) = false from rfl]; dsimp only [dat]; rfl
theorem leaves1 (c : Dev nD) (t : Fin cfg0.N) : (dat V c).leavesExact 1 t = owns (c : Thread nD τ) (m1 t) fullShare (tblAt V c t) := by
  unfold Dat.leavesExact; rw [show cfg0.idle 1 (cfg0.grid.coords t) = false from rfl]; dsimp only [dat]; rfl
theorem leaves2 (c : Dev nD) (t : Fin cfg0.N) : (dat V c).leavesExact 2 t = owns (c : Thread nD τ) (m2 t) fullShare (hisAt V c t) := by
  unfold Dat.leavesExact; rw [show cfg0.idle 2 (cfg0.grid.coords t) = false from rfl]; dsimp only [dat]; rfl
theorem leaves3 (c : Dev nD) (t : Fin cfg0.N) : (dat V c).leavesExact 3 t = owns (c : Thread nD τ) (m3 t) fullShare (wtAt V c t) := by
  unfold Dat.leavesExact; rw [show cfg0.idle 3 (cfg0.grid.coords t) = false from rfl]; dsimp only [dat]; rfl
theorem leaves4 (c : Dev nD) (t : Fin cfg0.N) : (dat V c).leavesExact 4 t = owns (c : Thread nD τ) (m4 t) fullShare (biasAt V c t) := by
  unfold Dat.leavesExact; rw [show cfg0.idle 4 (cfg0.grid.coords t) = false from rfl]; dsimp only [dat]; rfl
theorem leaves5_idle (c : Dev nD) (t : Fin cfg0.N) (h : ¬t.val % 100 = 99) :
    (dat V c).leavesExact 5 t = iprop(∃ d, owns (c : Thread nD τ) (m5 t) fullShare ((dat V c).before 5 t d)) :=
  Dat.leavesExact_idle (dat V c) 5 t (idle5 t h) (noflush5 t h)
theorem leaves6_idle (c : Dev nD) (t : Fin cfg0.N) (h : ¬t.val % 100 = 99) :
    (dat V c).leavesExact 6 t = iprop(∃ d, owns (c : Thread nD τ) (m6 t) fullShare ((dat V c).before 6 t d)) :=
  Dat.leavesExact_idle (dat V c) 6 t (idle6 t h) (noflush6 t h)
theorem leaves5_last (c : Dev nD) (t : Fin cfg0.N) (h : t.val % 100 = 99) :
    (dat V c).leavesExact 5 t = owns (c : Thread nD τ) (m5 t) fullShare (projAt V c t) := by
  unfold Dat.leavesExact; rw [live5 t h, dat_after5]
theorem leaves6_last (c : Dev nD) (t : Fin cfg0.N) (h : t.val % 100 = 99) :
    (dat V c).leavesExact 6 t = owns (c : Thread nD τ) (m6 t) fullShare (blendAt V c t) := by
  unfold Dat.leavesExact; rw [live6 t h, dat_after6]

/-- What the body is called with at point t (the obligation's precondition, the seven windows one by one), -/
def bodyPre (c : Dev nD) (t : Fin cfg0.N) : sProp 𝕄 :=
  iprop((dat V c).Φ t.castSucc ∗ (dat V c).owesAt () t.castSucc
    ∗ (∃ d, owns (c : Thread nD τ) (m0 t) fullShare ((dat V c).before 0 t d))
    ∗ (∃ d, owns (c : Thread nD τ) (m1 t) fullShare ((dat V c).before 1 t d))
    ∗ (∃ d, owns (c : Thread nD τ) (m2 t) fullShare ((dat V c).before 2 t d))
    ∗ (∃ d, owns (c : Thread nD τ) (m3 t) fullShare ((dat V c).before 3 t d))
    ∗ (∃ d, owns (c : Thread nD τ) (m4 t) fullShare ((dat V c).before 4 t d))
    ∗ (∃ d, owns (c : Thread nD τ) (m5 t) fullShare ((dat V c).before 5 t d))
    ∗ (∃ d, owns (c : Thread nD τ) (m6 t) fullShare ((dat V c).before 6 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
/-- The body at any point. The five inputs' buffers hold their blocks. At a first block of a tile (t ≡ 0 mod 100) the
    invariant gives the two sums at anything, which is all the reset asks, and takes them back at the restarted sums;
    the outputs go back as found. At a middle block the invariant gives the sums the point before left and takes back
    this point's; the outputs go back as found. At a last block (t ≡ 99 mod 100) likewise for the sums, and the two
    outputs, handed over at anything, come back at the projection and the blend of this point's sums. The core owes
    nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, leaves0, leaves1, leaves2, leaves3, leaves4]
  rw [show (dat V c).owesAt () t.succ = (dat V c).owesAt () t.castSucc from rfl]
  rw [show (dat V c).Φ t.castSucc = Phi V c t.val (Nat.le_of_lt t.isLt) from rfl]
  rw [show (dat V c).Φ t.succ = iprop(owns (c : Thread nD τ) scTbl fullShare (sumsAt V c t.val t.isLt).1
      ∗ owns (c : Thread nD τ) scHis fullShare (sumsAt V c t.val t.isLt).2 ∗ otherScoped (F := F) c) from rfl]
  by_cases h0 : t.val % 100 = 0
  · have h1 : ¬t.val % 100 = 99 := by omega
    rw [leaves5_idle V c t h1, leaves6_idle V c t h1, tblSum_first V c t h0, hisSum_first V c t h0]
    refine (sep_mono (Phi_forget V c _ _) .rfl).trans ?_
    iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ _ _ ((isFirst_iff t).mpr h0) (fun h => h1 ((isLast_iff t).mp h))
      (idxAt V c t) (tblAt V c t) (hisAt V c t) (wtAt V c t) (biasAt V c t) ((dat V c).before 5 t d5) ((dat V c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ht]; · iexact Ht
    isplitl [Hh]; · iexact Hh
    iintro ⟨H0, H1, H2, H3, H4, H5, H6, Ht, Hh⟩
    isplitl [Ht Hh Hr]
    · isplitl [Ht]; · iexact Ht
      isplitl [Hh]; · iexact Hh
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun e => h0 (by rw [e])
    rw [Phi_pos V c _ _ hz, tblSum_next V c t h0, hisSum_next V c t h0]
    by_cases h1 : t.val % 100 = 99
    · rw [leaves5_last V c t h1, leaves6_last V c t h1]
      unfold projAt blendAt
      rw [tblSum_next V c t h0, hisSum_next V c t h0]
      iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ _ _ (fun h => h0 ((isFirst_iff t).mp h)) ((isLast_iff t).mpr h1)
        (idxAt V c t) (tblAt V c t) (hisAt V c t) (wtAt V c t) (biasAt V c t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [Ht]; · iexact Ht
      isplitl [Hh]; · iexact Hh
      iintro ⟨H0, H1, H2, H3, H4, H5, H6, Ht, Hh⟩
      isplitl [Ht Hh Hr]
      · isplitl [Ht]; · iexact Ht
        isplitl [Hh]; · iexact Hh
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves5_idle V c t h1, leaves6_idle V c t h1]
      iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) _ _ _ _ _ _ _ _ _ _ _ _ _ _ _ _ _ _ (fun h => h0 ((isFirst_iff t).mp h)) (fun h => h1 ((isLast_iff t).mp h))
        (idxAt V c t) (tblAt V c t) (hisAt V c t) (wtAt V c t) (biasAt V c t) ((dat V c).before 5 t d5) ((dat V c).before 6 t d6) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Ht]; · iexact Ht
      isplitl [Hh]; · iexact Hh
      iintro ⟨H0, H1, H2, H3, H4, H5, H6, Ht, Hh⟩
      isplitl [Ht Hh Hr]
      · isplitl [Ht]; · iexact Ht
        isplitl [Hh]; · iexact Hh
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation at every point. -/
theorem body_obligation (c : Dev nD) : BodyObligation (dat (F := F) V c) (defs₀ (F := F)) Variants.none () Set.univ := fun t => by
  rw [bigSep_W0, bigSep_W0]
  exact sound_body V c t

end Cert.KernelIdeal.RegionU

end
-- ==== Proof.BodyI.lean ====
/-
  The body of the user-side gather kernel at one grid point (batch tile i, table block k), in its three control cases.
  Row r of the one-hot block is 1 exactly at the column j with idx r = 1000 k + j; the body adds
  onehot · table-block to each of two running sums (the layer-averaged table's rows and the history table's rows),
  resets both sums to zero first when k = 0, and when k is the last block writes the momentum blend of the two sums
  and the projection of the first sum through the transposed weight plus the bias.
  Stated over ANY whole staging memrefs and at any float instance: what each buffer holds afterwards is a pure
  function of what the inputs held (the generated payloads), so one text serves the word-level and the ideal reading.
-/
import proofs.«404517_j50560355008860_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.RegionI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first table block of its batch tile (k = 0), as the kernel tests it. -/
abbrev isFirst (i : grid1.Coords) : Prop :=
  (Scalar.cmpi .ne (Scalar.extui (Scalar.cmpi .eq (BitVec.ofNat 32 (i 1).val) 0#32)) 0#32) = 1#1
/-- The point is the last table block of its batch tile (k = 49), as the kernel tests it. -/
abbrev isLast (i : grid1.Coords) : Prop := k1_cond2 i = 1#1

/-- The running sum of selected table rows after one more block: acc + onehot(i, idx) · blk. -/
def sumTbl (i : grid1.Coords) (idx : Vec F S2048 .i32) (blk : Vec F S1000x64 .f32) (acc : Vec F S2048x64 .f32) : Vec F S2048x64 .f32 :=
  k1_pay6 i idx blk acc
/-- The running sum of selected history rows after one more block. -/
def sumHis (i : grid1.Coords) (idx : Vec F S2048 .i32) (blk : Vec F S1000x64 .f32) (acc : Vec F S2048x64 .f32) : Vec F S2048x64 .f32 :=
  k1_pay7 i idx blk acc
/-- The two sums as reset at the first block. -/
def zeroTbl : Vec F S2048x64 .f32 := k1_pay3
def zeroHis : Vec F S2048x64 .f32 := k1_pay4
/-- The momentum blend his · 0.05 + tbl · 0.95 (the two f32 words as printed). -/
def blend (tblSum hisSum : Vec F S2048x64 .f32) : Vec F S2048x64 .f32 := k1_pay1 tblSum hisSum
/-- The projection tblSum · wt + bias. -/
def project (tblSum : Vec F S2048x64 .f32) (wt : Vec F S64x64 .f32) (bias : Vec F S64 .f32) : Vec F S2048x64 .f32 := k1_pay2 tblSum wt bias

/-- The zero offsets of a rank-2 rectangle, as the constant function. -/
private theorem hz2 : (![0, 0] : Fin 2 → Nat) = fun _ => 0 := funext fun a => by fin_cases a <;> rfl
/-- The zero offset of a rank-1 rectangle, as the constant function. -/
private theorem hz1 : (![0] : Fin 1 → Nat) = fun _ => 0 := funext fun a => by fin_cases a; rfl

section Whole
variable {S : Shape} {e : EltTy} (M : Memref sig .tc .vmem S e)

/-- A load of the whole shape at zero offsets, from a whole buffer whose contents read `X`, reads `X`. -/
private theorem load_whole (hM : M.IsWhole) {off : Fin S.rank → Nat} (hz : off = fun _ => 0) (inb : ∀ a, off a + S.size a ≤ S.size a)
    (X : S.Idx → Elt F e) :
    View.readAt (Elt F) M.view (Rect.unit off S.size inb).toLoadRect (hM.unread X) = X := by
  rw [View.readAt_eq_ld, hM.read_unread, View.ld_unit_zero hz]

/-- After a store of the whole shape at zero offsets, made LAST, the buffer reads the stored value, whatever it
    held before and whatever the earlier stores were (the list holds the last store first). -/
private theorem read_store_last (f : M.view.ty.Contents (Elt F)) {off : Fin S.rank → Nat} (hz : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

set_option maxHeartbeats 1000000 in
/-- FIRST block of a tile (not the last): both sums are reset, then take the block's contribution; the two output
    buffers are not touched. -/
theorem run_first (c : Dev nD) (i : grid1.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : isFirst i) (h1 : ¬isLast i)
    (idx : Vec F S2048 .i32) (tbl his : Vec F S1000x64 .f32) (wt : Vec F S64x64 .f32) (bias : Vec F S64 .f32)
    (xp xt : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ owns (c : Thread nD τ) arg7 fullShare xp ∗ owns (c : Thread nD τ) arg8 fullShare xt
        ∗ (∃ d, owns (c : Thread nD τ) arg9 fullShare d) ∗ (∃ d, owns (c : Thread nD τ) arg10 fullShare d)
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare xp ∗ owns (c : Thread nD τ) arg8 fullShare xt
            ∗ owns (c : Thread nD τ) arg9 fullShare (sumTbl i idx tbl zeroTbl) ∗ owns (c : Thread nD τ) arg10 fullShare (sumHis i idx his zeroHis)) -∗ K ⟨⟩))
      ⊢ wp frame (wpE (defs₀ (F := F)) Variants.none c none) E (cc1__gather_blend_proj_kernel i arg2 harg2 arg3 harg3 arg4 harg4 arg5 harg5 arg6 harg6 arg7 harg7 arg8 harg8 arg9 harg9 arg10 harg10) K := by
  simp only [cc1__gather_blend_proj_kernel_eq_skeleton]; unfold cc1__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    rotate_left
    · iexact H9
    · ipureintro
      rw [read_store_last arg9 _ hz2]
      sl_unfold_run_names
      rw [View.readCov_cons_toLoadRect, load_whole arg2 harg2 hz1, load_whole arg3 harg3 hz2]
      rfl
  iexists _; isplitr
  rotate_left
  · iexact H10
  · ipureintro
    rw [read_store_last arg10 _ hz2]
    sl_unfold_run_names
    rw [View.readCov_cons_toLoadRect, load_whole arg2 harg2 hz1, load_whole arg4 harg4 hz2]
    rfl

set_option maxHeartbeats 1000000 in
/-- MIDDLE block: both sums take the block's contribution over what the point before left; outputs not touched. -/
theorem run_mid (c : Dev nD) (i : grid1.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : ¬isFirst i) (h1 : ¬isLast i)
    (idx : Vec F S2048 .i32) (tbl his : Vec F S1000x64 .f32) (wt : Vec F S64x64 .f32) (bias : Vec F S64 .f32)
    (xp xt st sh : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ owns (c : Thread nD τ) arg7 fullShare xp ∗ owns (c : Thread nD τ) arg8 fullShare xt
        ∗ owns (c : Thread nD τ) arg9 fullShare st ∗ owns (c : Thread nD τ) arg10 fullShare sh
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare xp ∗ owns (c : Thread nD τ) arg8 fullShare xt
            ∗ owns (c : Thread nD τ) arg9 fullShare (sumTbl i idx tbl st) ∗ owns (c : Thread nD τ) arg10 fullShare (sumHis i idx his sh)) -∗ K ⟨⟩))
      ⊢ wp frame (wpE (defs₀ (F := F)) Variants.none c none) E (cc1__gather_blend_proj_kernel i arg2 harg2 arg3 harg3 arg4 harg4 arg5 harg5 arg6 harg6 arg7 harg7 arg8 harg8 arg9 harg9 arg10 harg10) K := by
  simp only [cc1__gather_blend_proj_kernel_eq_skeleton]; unfold cc1__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    rotate_left
    · iexact H9
    · ipureintro
      rw [read_store_last arg9 _ hz2, load_whole arg2 harg2 hz1, load_whole arg3 harg3 hz2, load_whole arg9 harg9 hz2]
      rfl
  iexists _; isplitr
  rotate_left
  · iexact H10
  · ipureintro
    rw [read_store_last arg10 _ hz2, load_whole arg2 harg2 hz1, load_whole arg4 harg4 hz2, load_whole arg10 harg10 hz2]
    rfl

set_option maxHeartbeats 1000000 in
/-- LAST block (not the first): both sums take the block's contribution, and the outputs are written whole:
    the projection of the table sum into the first, the blend of the two sums into the second. -/
theorem run_last (c : Dev nD) (i : grid1.Coords) (arg2 : Memref sig .tc .vmem S2048 .i32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole)
    (h0 : ¬isFirst i) (h1 : isLast i)
    (idx : Vec F S2048 .i32) (tbl his : Vec F S1000x64 .f32) (wt : Vec F S64x64 .f32) (bias : Vec F S64 .f32)
    (st sh : Vec F S2048x64 .f32) (E : Set ℕ) (K : PUnit → sProp 𝕄) :
    iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
        ∗ (∃ d, owns (c : Thread nD τ) arg7 fullShare d) ∗ (∃ d, owns (c : Thread nD τ) arg8 fullShare d)
        ∗ owns (c : Thread nD τ) arg9 fullShare st ∗ owns (c : Thread nD τ) arg10 fullShare sh
        ∗ (iprop(owns (c : Thread nD τ) arg2 fullShare idx ∗ owns (c : Thread nD τ) arg3 fullShare tbl ∗ owns (c : Thread nD τ) arg4 fullShare his ∗ owns (c : Thread nD τ) arg5 fullShare wt ∗ owns (c : Thread nD τ) arg6 fullShare bias
            ∗ owns (c : Thread nD τ) arg7 fullShare (project (sumTbl i idx tbl st) wt bias)
            ∗ owns (c : Thread nD τ) arg8 fullShare (blend (sumTbl i idx tbl st) (sumHis i idx his sh))
            ∗ owns (c : Thread nD τ) arg9 fullShare (sumTbl i idx tbl st) ∗ owns (c : Thread nD τ) arg10 fullShare (sumHis i idx his sh)) -∗ K ⟨⟩))
      ⊢ wp frame (wpE (defs₀ (F := F)) Variants.none c none) E (cc1__gather_blend_proj_kernel i arg2 harg2 arg3 harg3 arg4 harg4 arg5 harg5 arg6 harg6 arg7 harg7 arg8 harg8 arg9 harg9 arg10 harg10) K := by
  simp only [cc1__gather_blend_proj_kernel_eq_skeleton]; unfold cc1__gather_blend_proj_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6
  obtain rfl := harg9.eq_unread hf9; obtain rfl := harg10.eq_unread hf10
  sl_exec (disch := first | exact h0 | exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    rotate_left
    · iexact H7
    · ipureintro
      rw [read_store_last arg7 _ hz2]
      sl_unfold_run_names
      rw [View.readCov_cons_toLoadRect, load_whole arg2 harg2 hz1, load_whole arg3 harg3 hz2, load_whole arg9 harg9 hz2,
        load_whole arg5 harg5 hz2, load_whole arg6 harg6 hz1]
      rfl
  isplitl [H8]
  · iexists _; isplitr
    rotate_left
    · iexact H8
    · ipureintro
      rw [read_store_last arg8 _ hz2]
      sl_unfold_run_names
      rw [View.readCov_cons_toLoadRect, View.readCov_cons_toLoadRect, load_whole arg2 harg2 hz1, load_whole arg3 harg3 hz2,
        load_whole arg9 harg9 hz2, load_whole arg4 harg4 hz2, load_whole arg10 harg10 hz2]
      rfl
  isplitl [H9]
  · iexists _; isplitr
    rotate_left
    · iexact H9
    · ipureintro
      sl_unfold_run_names
      rw [read_store_last arg9 _ hz2, load_whole arg2 harg2 hz1, load_whole arg3 harg3 hz2, load_whole arg9 harg9 hz2]
      rfl
  iexists _; isplitr
  rotate_left
  · iexact H10
  · ipureintro
    sl_unfold_run_names
    rw [read_store_last arg10 _ hz2, load_whole arg2 harg2 hz1, load_whole arg4 harg4 hz2, load_whole arg10 harg10 hz2]
    rfl

end Cert.KernelIdeal.RegionI

end
-- ==== Proof.DatI.lean ====
/-
  The user-side gather region's proof data, at any entry contents V of the unscoped buffers and any float instance.
  Point t = 50 i + k of the grid (batch tile i, table block k). After the body at t the two scratch buffers hold
  the sums over blocks 0..k of onehot · block (of the averaged table and of the history table), restarted from zero
  at k = 0; at k = 49 the two output buffers hold the projection and the blend of those sums and are written back;
  at every other point the output buffers are left as found. Between points the region's invariant is: the two
  scratch buffers at those sums, every other scoped buffer of the program at something.
-/
import proofs.«404517_j50560355008860_1_alg».proof.Proof.BodyI
import proofs.«404517_j50560355008860_1_alg».proof.Proof.KernelIdealLaunch
import proofs.«404517_j50560355008860_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.RegionI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents when the region is entered, per core
variable (V : (c : Dev nD) → (b : Ref sig .tc) → Buf (Elt F) ((c : Thread nD τ).loc b))

/-- Window w's block of its array at point t, as the fetch stages it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The index block, the two table blocks, the weight and the bias at point t, at their literal types. -/
def idxAt (c : Dev nD) (t : Fin cfg1.N) : Vec F S2048 .i32 := iblk V c 0 t
def tblAt (c : Dev nD) (t : Fin cfg1.N) : Vec F S1000x64 .f32 := iblk V c 1 t
def hisAt (c : Dev nD) (t : Fin cfg1.N) : Vec F S1000x64 .f32 := iblk V c 2 t
def wtAt (c : Dev nD) (t : Fin cfg1.N) : Vec F S64x64 .f32 := iblk V c 3 t
def biasAt (c : Dev nD) (t : Fin cfg1.N) : Vec F S64 .f32 := iblk V c 4 t

/-- THE ACCUMULATION: the pair (table sum, history sum) the scratch buffers hold after the body at position n. -/
def sumsAt (c : Dev nD) : (n : ℕ) → n < cfg1.N → Vec F S2048x64 .f32 × Vec F S2048x64 .f32
  | 0, hn => (sumTbl (grid1.coords ⟨0, hn⟩) (idxAt V c ⟨0, hn⟩) (tblAt V c ⟨0, hn⟩) zeroTbl,
              sumHis (grid1.coords ⟨0, hn⟩) (idxAt V c ⟨0, hn⟩) (hisAt V c ⟨0, hn⟩) zeroHis)
  | n + 1, hn =>
    if (n + 1) % 50 = 0 then
      (sumTbl (grid1.coords ⟨n + 1, hn⟩) (idxAt V c ⟨n + 1, hn⟩) (tblAt V c ⟨n + 1, hn⟩) zeroTbl,
       sumHis (grid1.coords ⟨n + 1, hn⟩) (idxAt V c ⟨n + 1, hn⟩) (hisAt V c ⟨n + 1, hn⟩) zeroHis)
    else
      (sumTbl (grid1.coords ⟨n + 1, hn⟩) (idxAt V c ⟨n + 1, hn⟩) (tblAt V c ⟨n + 1, hn⟩) (sumsAt c n (Nat.lt_of_succ_lt hn)).1,
       sumHis (grid1.coords ⟨n + 1, hn⟩) (idxAt V c ⟨n + 1, hn⟩) (hisAt V c ⟨n + 1, hn⟩) (sumsAt c n (Nat.lt_of_succ_lt hn)).2)

/-- At the first block of a tile the sums restart from zero. -/
theorem sumsAt_first (c : Dev nD) (t : Fin cfg1.N) (h : t.val % 50 = 0) :
    sumsAt V c t.val t.isLt = (sumTbl (grid1.coords t) (idxAt V c t) (tblAt V c t) zeroTbl, sumHis (grid1.coords t) (idxAt V c t) (hisAt V c t) zeroHis) := by
  obtain ⟨n, hn⟩ := t
  cases n with
  | zero => rfl
  | succ n => exact if_pos h
/-- At any other block they continue from the point before. -/
theorem sumsAt_next (c : Dev nD) (t : Fin cfg1.N) (h : ¬t.val % 50 = 0) :
    sumsAt V c t.val t.isLt = (sumTbl (grid1.coords t) (idxAt V c t) (tblAt V c t) (sumsAt V c (t.val - 1) (Nat.lt_of_le_of_lt (Nat.sub_le _ _) t.isLt)).1,
      sumHis (grid1.coords t) (idxAt V c t) (hisAt V c t) (sumsAt V c (t.val - 1) (Nat.lt_of_le_of_lt (Nat.sub_le _ _) t.isLt)).2) := by
  obtain ⟨n, hn⟩ := t
  cases n with
  | zero => exact absurd (Nat.zero_mod 50) h
  | succ n => exact if_neg h

/-- What the first output's buffer (the projection) and the second's (the blend) hold after the body at a last block. -/
def projAt (c : Dev nD) (t : Fin cfg1.N) : Vec F S2048x64 .f32 := project (sumsAt V c t.val t.isLt).1 (wtAt V c t) (biasAt V c t)
def blendAt (c : Dev nD) (t : Fin cfg1.N) : Vec F S2048x64 .f32 := blend (sumsAt V c t.val t.isLt).1 (sumsAt V c t.val t.isLt).2

/-- The two scratch operands as memrefs. -/
abbrev scTbl : Memref sig .tc .vmem S2048x64 .f32 := Memref.whole cc1_scratch0
abbrev scHis : Memref sig .tc .vmem S2048x64 .f32 := Memref.whole cc1_scratch1

/-- Every scoped buffer that is neither a staging buffer of this region nor one of its two scratch buffers (the
    other region's fourteen), each whole at something. -/
def otherScoped (c : Dev nD) : sProp 𝕄 :=
  Pipeline.scopedRestBut (Ix := Unit) (Name := ℕ) (U := UR sig nD τ) (Lvl := ℕ) (Val := Elt F) spec1 c [cc1_scratch0, cc1_scratch1]

/-- The scoped rest of this region is its two scratch buffers at something beside the others. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) scTbl fullShare d) ∗ (∃ d, owns (c : Thread nD τ) scHis fullShare d) ∗ otherScoped (F := F) c) := by
  rw [Pipeline.scopedRest_split_of_list spec1 c [cc1_scratch0, cc1_scratch1] (by decide) (by decide)]
  unfold otherScoped
  simp only [scTbl, scHis, owns_whole]
  exact equiv_iff.mp ⟨Idealize.SL.BI.sep_assoc, Idealize.SL.BI.sep_assoc'⟩

/-- The invariant before position n: at the region's entry the scoped rest; afterwards the two scratch buffers at the
    sums the point before left, beside the other scoped buffers. -/
def Phi (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scTbl fullShare (sumsAt V c n hn).1 ∗ owns (c : Thread nD τ) scHis fullShare (sumsAt V c n hn).2 ∗ otherScoped (F := F) c)

/-- Before the first point the invariant is the scoped rest. -/
theorem Phi_zero (c : Dev nD) (n : ℕ) (h : n ≤ cfg1.N) (hz : n = 0) :
    Phi V c n h = Pipeline.scopedRest (Ix := Unit) (Name := ℕ) (U := UR sig nD τ) (Lvl := ℕ) (Val := Elt F) spec1 c := by
  subst hz; rfl

/-- Before any later point it names the sums the point before left. -/
theorem Phi_pos (c : Dev nD) (n : ℕ) (h : n ≤ cfg1.N) (hz : n ≠ 0) :
    Phi V c n h = iprop(owns (c : Thread nD τ) scTbl fullShare (sumsAt V c (n - 1) (by omega)).1
      ∗ owns (c : Thread nD τ) scHis fullShare (sumsAt V c (n - 1) (by omega)).2 ∗ otherScoped (F := F) c) := by
  cases n with
  | zero => exact absurd rfl hz
  | succ n => rfl

/-- At every position the invariant holds both sums at something: at the entry by splitting the scoped rest,
    later by forgetting which sums they are. That is all a first block of a tile asks of them. -/
theorem Phi_forget (c : Dev nD) (n : ℕ) (h : n ≤ cfg1.N) :
    Phi V c n h ⊢ iprop((∃ d, owns (c : Thread nD τ) scTbl fullShare d) ∗ (∃ d, owns (c : Thread nD τ) scHis fullShare d) ∗ otherScoped (F := F) c) := by
  by_cases hz : n = 0
  · rw [Phi_zero V c n h hz, scopedRest_split]
  · rw [Phi_pos V c n h hz]
    iintro ⟨Ht, Hh, Hr⟩
    isplitl [Ht]
    · iexists _; iexact Ht
    isplitl [Hh]
    · iexists _; iexact Hh
    iexact Hr

/-- The region's proof data on core c. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => projAt V c t
    | ⟨6, _⟩ => blendAt V c t
  Φ t := Phi V c t.val (Nat.le_of_lt_succ t.isLt)
  q _ := fullShare
  owed _ := 0

theorem dat_A (c : Dev nD) (w : Fin cfg1.W) : (dat V c).A w = V c (Pipeline.arrRef spec1 w) := by dsimp only [dat]
theorem dat_after5 (c : Dev nD) (t : Fin cfg1.N) : (dat V c).after 5 t = projAt V c t := by dsimp only [dat]
theorem dat_after6 (c : Dev nD) (t : Fin cfg1.N) : (dat V c).after 6 t = blendAt V c t := by dsimp only [dat]
theorem dat_Phi_zero (c : Dev nD) : (dat V c).Φ 0 = Pipeline.scopedRest (Ix := Unit) (Name := ℕ) (U := UR sig nD τ) (Lvl := ℕ) (Val := Elt F) spec1 c := rfl
/-- At the region's exit the invariant gives the scoped rest back. -/
theorem dat_Phi_last (c : Dev nD) : (dat V c).Φ (Fin.last cfg1.N) ⊢ (Pipeline.scopedRest (Ix := Unit) (Name := ℕ) (U := UR sig nD τ) (Lvl := ℕ) (Val := Elt F) spec1 c : sProp 𝕄) := by
  rw [show (dat V c).Φ (Fin.last cfg1.N) = Phi V c (Fin.last cfg1.N).val (Nat.le_of_lt_succ (Fin.last cfg1.N).isLt) from rfl,
    Phi_pos V c _ _ (by rw [Fin.val_last]; have : cfg1.N = 100 := N_1; omega), scopedRest_split]
  iintro ⟨Ht, Hh, Hr⟩
  isplitl [Ht]
  · iexists _; iexact Ht
  isplitl [Hh]
  · iexists _; iexact Hh
  iexact Hr

/-! ## The body obligation -/

/-- Each sum by itself, at a first block and at a later one. -/
theorem tblSum_first (c : Dev nD) (t : Fin cfg1.N) (h : t.val % 50 = 0) :
    (sumsAt V c t.val t.isLt).1 = sumTbl (grid1.coords t) (idxAt V c t) (tblAt V c t) zeroTbl :=
  congrArg Prod.fst (sumsAt_first V c t h)
theorem hisSum_first (c : Dev nD) (t : Fin cfg1.N) (h : t.val % 50 = 0) :
    (sumsAt V c t.val t.isLt).2 = sumHis (grid1.coords t) (idxAt V c t) (hisAt V c t) zeroHis :=
  congrArg Prod.snd (sumsAt_first V c t h)
theorem tblSum_next (c : Dev nD) (t : Fin cfg1.N) (h : ¬t.val % 50 = 0) :
    (sumsAt V c t.val t.isLt).1 = sumTbl (grid1.coords t) (idxAt V c t) (tblAt V c t) (sumsAt V c (t.val - 1) (Nat.lt_of_le_of_lt (Nat.sub_le _ _) t.isLt)).1 :=
  congrArg Prod.fst (sumsAt_next V c t h)
theorem hisSum_next (c : Dev nD) (t : Fin cfg1.N) (h : ¬t.val % 50 = 0) :
    (sumsAt V c t.val t.isLt).2 = sumHis (grid1.coords t) (idxAt V c t) (hisAt V c t) (sumsAt V c (t.val - 1) (Nat.lt_of_le_of_lt (Nat.sub_le _ _) t.isLt)).2 :=
  congrArg Prod.snd (sumsAt_next V c t h)

/-- The kernel's two tests on the point, in closed form over the grid of 100 points: the first block of a tile is
    the positions ≡ 0 (mod 50), the last block the positions ≡ 49 (mod 50). -/
theorem isFirst_iff : ∀ t : Fin cfg1.N, isFirst (grid1.coords t) ↔ t.val % 50 = 0 :=
  (by decide +kernel : ∀ t : Fin grid1.N, isFirst (grid1.coords t) ↔ t.val % 50 = 0)
theorem isLast_iff : ∀ t : Fin cfg1.N, isLast (grid1.coords t) ↔ t.val % 50 = 49 :=
  (by decide +kernel : ∀ t : Fin grid1.N, isLast (grid1.coords t) ↔ t.val % 50 = 49)

/-- The two output windows are idle exactly away from the last block of a tile, and are not written back there. -/
theorem idle5 : ∀ t : Fin cfg1.N, ¬t.val % 50 = 49 → cfg1.idle 5 (grid1.coords t) = true := by decide +kernel
theorem idle6 : ∀ t : Fin cfg1.N, ¬t.val % 50 = 49 → cfg1.idle 6 (grid1.coords t) = true := by decide +kernel
theorem live5 : ∀ t : Fin cfg1.N, t.val % 50 = 49 → cfg1.idle 5 (grid1.coords t) = false := by decide +kernel
theorem live6 : ∀ t : Fin cfg1.N, t.val % 50 = 49 → cfg1.idle 6 (grid1.coords t) = false := by decide +kernel
theorem noflush5 (t : Fin cfg1.N) (h : ¬t.val % 50 = 49) : (cfg1.win 5).flush t = false :=
  Bool.eq_false_iff.mpr fun hf => h ((flush1_5 t).mp hf)
theorem noflush6 (t : Fin cfg1.N) (h : ¬t.val % 50 = 49) : (cfg1.win 6).flush t = false :=
  Bool.eq_false_iff.mpr fun hf => h ((flush1_6 t).mp hf)

/-- The windows' current staging memrefs at point t, at their literal types. -/
abbrev m0 (t : Fin cfg1.N) : Memref sig .tc .vmem S2048 .i32 := win1_0.stage (cfg1.slots t 0)
abbrev m1 (t : Fin cfg1.N) : Memref sig .tc .vmem S1000x64 .f32 := win1_1.stage (cfg1.slots t 1)
abbrev m2 (t : Fin cfg1.N) : Memref sig .tc .vmem S1000x64 .f32 := win1_2.stage (cfg1.slots t 2)
abbrev m3 (t : Fin cfg1.N) : Memref sig .tc .vmem S64x64 .f32 := win1_3.stage (cfg1.slots t 3)
abbrev m4 (t : Fin cfg1.N) : Memref sig .tc .vmem S64 .f32 := win1_4.stage (cfg1.slots t 4)
abbrev m5 (t : Fin cfg1.N) : Memref sig .tc .vmem S2048x64 .f32 := win1_5.stage (cfg1.slots t 5)
abbrev m6 (t : Fin cfg1.N) : Memref sig .tc .vmem S2048x64 .f32 := win1_6.stage (cfg1.slots t 6)

/-- Every input's current buffer holds the input's block at every point, fetched there or not: where it is not
    fetched the block index has not moved since the point before, and the body leaves inputs in place. -/
theorem before0 (c : Dev nD) (t : Fin cfg1.N) (d) : (dat V c).before 0 t d = idxAt V c t :=
  ((dat V c).before_in_eq_fetched 0 rfl (fun _ => rfl) (fun _ _ _ => rfl)
    (fun t => by rw [show (dat V c).after 0 t = iblk V c 0 t from by dsimp only [dat]]; unfold Dat.blockOf iblk; rw [dat_A]; try rfl) t d).trans
    (by unfold Dat.fetched Dat.blockOf idxAt iblk; rw [dat_A]; try rfl)
theorem before1 (c : Dev nD) (t : Fin cfg1.N) (d) : (dat V c).before 1 t d = tblAt V c t :=
  ((dat V c).before_in_eq_fetched 1 rfl (fun _ => rfl) (fun _ _ _ => rfl)
    (fun t => by rw [show (dat V c).after 1 t = iblk V c 1 t from by dsimp only [dat]]; unfold Dat.blockOf iblk; rw [dat_A]; try rfl) t d).trans
    (by unfold Dat.fetched Dat.blockOf tblAt iblk; rw [dat_A]; try rfl)
theorem before2 (c : Dev nD) (t : Fin cfg1.N) (d) : (dat V c).before 2 t d = hisAt V c t :=
  ((dat V c).before_in_eq_fetched 2 rfl (fun _ => rfl) (fun _ _ _ => rfl)
    (fun t => by rw [show (dat V c).after 2 t = iblk V c 2 t from by dsimp only [dat]]; unfold Dat.blockOf iblk; rw [dat_A]; try rfl) t d).trans
    (by unfold Dat.fetched Dat.blockOf hisAt iblk; rw [dat_A]; try rfl)
theorem before3 (c : Dev nD) (t : Fin cfg1.N) (d) : (dat V c).before 3 t d = wtAt V c t :=
  ((dat V c).before_in_eq_fetched 3 rfl (fun _ => rfl) (fun _ _ _ => rfl)
    (fun t => by rw [show (dat V c).after 3 t = iblk V c 3 t from by dsimp only [dat]]; unfold Dat.blockOf iblk; rw [dat_A]; try rfl) t d).trans
    (by unfold Dat.fetched Dat.blockOf wtAt iblk; rw [dat_A]; try rfl)
theorem before4 (c : Dev nD) (t : Fin cfg1.N) (d) : (dat V c).before 4 t d = biasAt V c t :=
  ((dat V c).before_in_eq_fetched 4 rfl (fun _ => rfl) (fun _ _ _ => rfl)
    (fun t => by rw [show (dat V c).after 4 t = iblk V c 4 t from by dsimp only [dat]]; unfold Dat.blockOf iblk; rw [dat_A]; try rfl) t d).trans
    (by unfold Dat.fetched Dat.blockOf biasAt iblk; rw [dat_A]; try rfl)

/-- What the obligation asks of each window's buffer after the body: an input's at its block (inputs are never
    idle), an output's as found away from the last block of a tile, at the projection / the blend at a last block. -/
theorem leaves0 (c : Dev nD) (t : Fin cfg1.N) : (dat V c).leavesExact 0 t = owns (c : Thread nD τ) (m0 t) fullShare (idxAt V c t) := by
  unfold Dat.leavesExact; rw [show cfg1.idle 0 (cfg1.grid.coords t) = false from rfl]; dsimp only [dat]; rfl
theorem leaves1 (c : Dev nD) (t : Fin cfg1.N) : (dat V c).leavesExact 1 t = owns (c : Thread nD τ) (m1 t) fullShare (tblAt V c t) := by
  unfold Dat.leavesExact; rw [show cfg1.idle 1 (cfg1.grid.coords t) = false from rfl]; dsimp only [dat]; rfl
theorem leaves2 (c : Dev nD) (t : Fin cfg1.N) : (dat V c).leavesExact 2 t = owns (c : Thread nD τ) (m2 t) fullShare (hisAt V c t) := by
  unfold Dat.leavesExact; rw [show cfg1.idle 2 (cfg1.grid.coords t) = false from rfl]; dsimp only [dat]; rfl
theorem leaves3 (c : Dev nD) (t : Fin cfg1.N) : (dat V c).leavesExact 3 t = owns (c : Thread nD τ) (m3 t) fullShare (wtAt V c t) := by
  unfold Dat.leavesExact; rw [show cfg1.idle 3 (cfg1.grid.coords t) = false from rfl]; dsimp only [dat]; rfl
theorem leaves4 (c : Dev nD) (t : Fin cfg1.N) : (dat V c).leavesExact 4 t = owns (c : Thread nD τ) (m4 t) fullShare (biasAt V c t) := by
  unfold Dat.leavesExact; rw [show cfg1.idle 4 (cfg1.grid.coords t) = false from rfl]; dsimp only [dat]; rfl
theorem leaves5_idle (c : Dev nD) (t : Fin cfg1.N) (h : ¬t.val % 50 = 49) :
    (dat V c).leavesExact 5 t = iprop(∃ d, owns (c : Thread nD τ) (m5 t) fullShare ((dat V c).before 5 t d)) :=
  Dat.leavesExact_idle (dat V c) 5 t (idle5 t h) (noflush5 t h)
theorem leaves6_idle (c : Dev nD) (t : Fin cfg1.N) (h : ¬t.val % 50 = 49) :
    (dat V c).leavesExact 6 t = iprop(∃ d, owns (c : Thread nD τ) (m6 t) fullShare ((dat V c).before 6 t d)) :=
  Dat.leavesExact_idle (dat V c) 6 t (idle6 t h) (noflush6 t h)
theorem leaves5_last (c : Dev nD) (t : Fin cfg1.N) (h : t.val % 50 = 49) :
    (dat V c).leavesExact 5 t = owns (c : Thread nD τ) (m5 t) fullShare (projAt V c t) := by
  unfold Dat.leavesExact; rw [live5 t h, dat_after5]
theorem leaves6_last (c : Dev nD) (t : Fin cfg1.N) (h : t.val % 50 = 49) :
    (dat V c).leavesExact 6 t = owns (c : Thread nD τ) (m6 t) fullShare (blendAt V c t) := by
  unfold Dat.leavesExact; rw [live6 t h, dat_after6]

/-- What the body is called with at point t (the obligation's precondition, the seven windows one by one), -/
def bodyPre (c : Dev nD) (t : Fin cfg1.N) : sProp 𝕄 :=
  iprop((dat V c).Φ t.castSucc ∗ (dat V c).owesAt () t.castSucc
    ∗ (∃ d, owns (c : Thread nD τ) (m0 t) fullShare ((dat V c).before 0 t d))
    ∗ (∃ d, owns (c : Thread nD τ) (m1 t) fullShare ((dat V c).before 1 t d))
    ∗ (∃ d, owns (c : Thread nD τ) (m2 t) fullShare ((dat V c).before 2 t d))
    ∗ (∃ d, owns (c : Thread nD τ) (m3 t) fullShare ((dat V c).before 3 t d))
    ∗ (∃ d, owns (c : Thread nD τ) (m4 t) fullShare ((dat V c).before 4 t d))
    ∗ (∃ d, owns (c : Thread nD τ) (m5 t) fullShare ((dat V c).before 5 t d))
    ∗ (∃ d, owns (c : Thread nD τ) (m6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
/-- The body at any point. The five inputs' buffers hold their blocks. At a first block of a tile (t ≡ 0 mod 50) the
    invariant gives the two sums at anything, which is all the reset asks, and takes them back at the restarted sums;
    the outputs go back as found. At a middle block the invariant gives the sums the point before left and takes back
    this point's; the outputs go back as found. At a last block (t ≡ 49 mod 50) likewise for the sums, and the two
    outputs, handed over at anything, come back at the projection and the blend of this point's sums. The core owes
    nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, leaves0, leaves1, leaves2, leaves3, leaves4]
  rw [show (dat V c).owesAt () t.succ = (dat V c).owesAt () t.castSucc from rfl]
  rw [show (dat V c).Φ t.castSucc = Phi V c t.val (Nat.le_of_lt t.isLt) from rfl]
  rw [show (dat V c).Φ t.succ = iprop(owns (c : Thread nD τ) scTbl fullShare (sumsAt V c t.val t.isLt).1
      ∗ owns (c : Thread nD τ) scHis fullShare (sumsAt V c t.val t.isLt).2 ∗ otherScoped (F := F) c) from rfl]
  by_cases h0 : t.val % 50 = 0
  · have h1 : ¬t.val % 50 = 49 := by omega
    rw [leaves5_idle V c t h1, leaves6_idle V c t h1, tblSum_first V c t h0, hisSum_first V c t h0]
    refine (sep_mono (Phi_forget V c _ _) .rfl).trans ?_
    iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
    iapply (run_first c (grid1.coords t) _ _ _ _ _ _ _ _ _ _ _ _ _ _ _ _ _ _ ((isFirst_iff t).mpr h0) (fun h => h1 ((isLast_iff t).mp h))
      (idxAt V c t) (tblAt V c t) (hisAt V c t) (wtAt V c t) (biasAt V c t) ((dat V c).before 5 t d5) ((dat V c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ht]; · iexact Ht
    isplitl [Hh]; · iexact Hh
    iintro ⟨H0, H1, H2, H3, H4, H5, H6, Ht, Hh⟩
    isplitl [Ht Hh Hr]
    · isplitl [Ht]; · iexact Ht
      isplitl [Hh]; · iexact Hh
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := fun e => h0 (by rw [e])
    rw [Phi_pos V c _ _ hz, tblSum_next V c t h0, hisSum_next V c t h0]
    by_cases h1 : t.val % 50 = 49
    · rw [leaves5_last V c t h1, leaves6_last V c t h1]
      unfold projAt blendAt
      rw [tblSum_next V c t h0, hisSum_next V c t h0]
      iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
      iapply (run_last c (grid1.coords t) _ _ _ _ _ _ _ _ _ _ _ _ _ _ _ _ _ _ (fun h => h0 ((isFirst_iff t).mp h)) ((isLast_iff t).mpr h1)
        (idxAt V c t) (tblAt V c t) (hisAt V c t) (wtAt V c t) (biasAt V c t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [Ht]; · iexact Ht
      isplitl [Hh]; · iexact Hh
      iintro ⟨H0, H1, H2, H3, H4, H5, H6, Ht, Hh⟩
      isplitl [Ht Hh Hr]
      · isplitl [Ht]; · iexact Ht
        isplitl [Hh]; · iexact Hh
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves5_idle V c t h1, leaves6_idle V c t h1]
      iintro ⟨⟨Ht, Hh, Hr⟩, Ho, ⟨%d0, H0⟩, ⟨%d1, H1⟩, ⟨%d2, H2⟩, ⟨%d3, H3⟩, ⟨%d4, H4⟩, ⟨%d5, H5⟩, ⟨%d6, H6⟩⟩
      iapply (run_mid c (grid1.coords t) _ _ _ _ _ _ _ _ _ _ _ _ _ _ _ _ _ _ (fun h => h0 ((isFirst_iff t).mp h)) (fun h => h1 ((isLast_iff t).mp h))
        (idxAt V c t) (tblAt V c t) (hisAt V c t) (wtAt V c t) (biasAt V c t) ((dat V c).before 5 t d5) ((dat V c).before 6 t d6) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Ht]; · iexact Ht
      isplitl [Hh]; · iexact Hh
      iintro ⟨H0, H1, H2, H3, H4, H5, H6, Ht, Hh⟩
      isplitl [Ht Hh Hr]
      · isplitl [Ht]; · iexact Ht
        isplitl [Hh]; · iexact Hh
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation at every point. -/
theorem body_obligation (c : Dev nD) : BodyObligation (dat (F := F) V c) (defs₀ (F := F)) Variants.none () Set.univ := fun t => by
  rw [bigSep_W1, bigSep_W1]
  exact sound_body V c t

end Cert.KernelIdeal.RegionI

end
-- ==== Proof.FrameKI.lean ====
/-
  The whole run of the two gather regions, user side then item side.

  The program is a stretch of host operations, the user-side region, the item-side region. Each region finds
  every unscoped buffer at a valuation and leaves it at that valuation changed at its two result arrays only:
  there the arrays hold what the region's write-backs leave (the projection's and the blend's blocks, written
  back at the last table block of each batch tile). The item-side region is entered from what the user-side
  region leaves. This module names those four arrays' final contents (outs), runs the launch over the two
  regions' records, and reads the four results and the eleven arguments off the last valuation.
-/
import proofs.«404517_j50560355008860_1_alg».proof.Proof.DatU
import proofs.«404517_j50560355008860_1_alg».proof.Proof.DatI
import proofs.«404517_j50560355008860_1_alg».proof.Proof.KernelIdealRegions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four result arrays' final contents -/

/-- The unscoped buffers when the user-side region is entered (after the host stretch), read at the
    TensorCore's references. -/
abbrev E1 : (c : Dev nD) → (b : Ref sig .tc) → Buf (Elt F) ((c : Thread nD τ).loc b) := fun c b => Gen.V1 m c b

/-- What the user-side region leaves: its two result arrays at what its write-backs leave, anything else as entered. -/
def outsU : Gen.Outs (F := F) := fun _ r c =>
  if h : r = main_v48_0 then h ▸ (RegionU.dat (E1 m) c).arrAt 5 cfg0.N
  else if h : r = main_v48_1 then h ▸ (RegionU.dat (E1 m) c).arrAt 6 cfg0.N
  else Gen.V1 m c r

/-- The unscoped buffers when the item-side region is entered: as the user-side region leaves them. -/
abbrev E2 : (c : Dev nD) → (b : Ref sig .tc) → Buf (Elt F) ((c : Thread nD τ).loc b) := fun c b => Gen.V2 m (outsU m) c b

/-- What the two regions leave: the item-side region's two result arrays at what its write-backs leave (it is
    entered from what the user-side region leaves), the user-side region's as above. -/
def outs : Gen.Outs (F := F) := fun J r c =>
  if h : r = main_v49_0 then h ▸ (RegionI.dat (E2 m) c).arrAt 5 cfg1.N
  else if h : r = main_v49_1 then h ▸ (RegionI.dat (E2 m) c).arrAt 6 cfg1.N
  else outsU m J r c

theorem outsU_v48_0 (J : ℕ) (c : Dev nD) : outsU m J main_v48_0 c = (RegionU.dat (E1 m) c).arrAt 5 cfg0.N := by
  unfold outsU; rw [dif_pos rfl]
theorem outsU_v48_1 (J : ℕ) (c : Dev nD) : outsU m J main_v48_1 c = (RegionU.dat (E1 m) c).arrAt 6 cfg0.N := by
  unfold outsU; rw [dif_neg (by decide), dif_pos rfl]

theorem outs_eq_outsU_v48_0 (J : ℕ) (c : Dev nD) : outs m J main_v48_0 c = outsU m J main_v48_0 c := by
  unfold outs; rw [dif_neg (by decide), dif_neg (by decide)]
theorem outs_eq_outsU_v48_1 (J : ℕ) (c : Dev nD) : outs m J main_v48_1 c = outsU m J main_v48_1 c := by
  unfold outs; rw [dif_neg (by decide), dif_neg (by decide)]

/-- The item-side region's entry contents do not depend on what is said of its own results. -/
theorem V2_outs (c : Dev nD) : Gen.V2 m (outs m) c = Gen.V2 m (outsU m) c := by
  show Function.update (Function.update (Gen.V1 m c) main_v48_0 (outs m 2 main_v48_0 c)) main_v48_1 (outs m 2 main_v48_1 c)
    = Function.update (Function.update (Gen.V1 m c) main_v48_0 (outsU m 2 main_v48_0 c)) main_v48_1 (outsU m 2 main_v48_1 c)
  rw [outs_eq_outsU_v48_0, outs_eq_outsU_v48_1]

theorem outs_v48_0 (c : Dev nD) : outs m 2 main_v48_0 c = (RegionU.dat (fun c b => Gen.V1 m c b) c).arrAt 5 cfg0.N :=
  (outs_eq_outsU_v48_0 m 2 c).trans (outsU_v48_0 m 2 c)
theorem outs_v48_1 (c : Dev nD) : outs m 2 main_v48_1 c = (RegionU.dat (fun c b => Gen.V1 m c b) c).arrAt 6 cfg0.N :=
  (outs_eq_outsU_v48_1 m 2 c).trans (outsU_v48_1 m 2 c)
theorem outs_v49_0' (c : Dev nD) : outs m 3 main_v49_0 c = (RegionI.dat (E2 m) c).arrAt 5 cfg1.N := by
  unfold outs; rw [dif_pos rfl]
theorem outs_v49_1' (c : Dev nD) : outs m 3 main_v49_1 c = (RegionI.dat (E2 m) c).arrAt 6 cfg1.N := by
  unfold outs; rw [dif_neg (by decide), dif_pos rfl]
theorem outs_v49_0 (c : Dev nD) : outs m 3 main_v49_0 c = (RegionI.dat (fun c b => Gen.V2 m (outs m) c b) c).arrAt 5 cfg1.N := by
  rw [show (fun c b => Gen.V2 m (outs m) c b : (c : Dev nD) → (b : Ref sig .tc) → Buf (Elt F) ((c : Thread nD τ).loc b)) = E2 m from
    funext fun c => by rw [V2_outs]]
  unfold outs; rw [dif_pos rfl]
theorem outs_v49_1 (c : Dev nD) : outs m 3 main_v49_1 c = (RegionI.dat (fun c b => Gen.V2 m (outs m) c b) c).arrAt 6 cfg1.N := by
  rw [show (fun c b => Gen.V2 m (outs m) c b : (c : Dev nD) → (b : Ref sig .tc) → Buf (Elt F) ((c : Thread nD τ).loc b)) = E2 m from
    funext fun c => by rw [V2_outs]]
  unfold outs; rw [dif_neg (by decide), dif_pos rfl]

/-! ## The proof data family and what rides beside the buffers -/

/-- Both regions' proof data, each at its region's entry contents. -/
def pdats : (p : Fin 2) → (c : Dev nD) → Dat τ (Elt F) Unit ℕ (UR sig nD τ) ℕ (Pipeline.pin (pcfgs (F := F)) Gen.adm p) c
  | ⟨0, _⟩ => fun c => RegionU.dat (E1 m) c
  | ⟨1, _⟩ => fun c => RegionI.dat (E2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)

/-! ## What each region leaves in each of its windows' arrays -/

/-- The valuation after the user-side region, read at that region's two results. -/
theorem V2_v48_0 (outs : Gen.Outs (F := F)) (c : Dev nD) : Gen.V2 m outs c main_v48_0 = outs 2 main_v48_0 c :=
  (Function.update_of_ne (StableHlo.devRef_ne_of_ne (by decide) : (Proc.devRef .tc main_v48_0 : DevRef τ sig) ≠ Proc.devRef .tc main_v48_1) _ _).trans (Function.update_self _ _ _)
theorem V2_v48_1 (outs : Gen.Outs (F := F)) (c : Dev nD) : Gen.V2 m outs c main_v48_1 = outs 2 main_v48_1 c :=
  Function.update_self _ _ _
/-- The valuation after the item-side region, read at that region's two results. -/
theorem V3_v49_0 (outs : Gen.Outs (F := F)) (c : Dev nD) : Gen.V3 m outs c main_v49_0 = outs 3 main_v49_0 c :=
  (Function.update_of_ne (StableHlo.devRef_ne_of_ne (by decide) : (Proc.devRef .tc main_v49_0 : DevRef τ sig) ≠ Proc.devRef .tc main_v49_1) _ _).trans (Function.update_self _ _ _)
theorem V3_v49_1 (outs : Gen.Outs (F := F)) (c : Dev nD) : Gen.V3 m outs c main_v49_1 = outs 3 main_v49_1 c :=
  Function.update_self _ _ _

set_option maxHeartbeats 1000000 in
/-- The user-side region's arrays at its exit are the next valuation's: an input array is never written and
    is no region's result, the two outputs are the results by name. -/
theorem hF0 (c : Dev nD) (w : Fin cfg0.W) : (pdats m 0 c).arrAt w cfg0.N = Gen.V2 m (outs m) c (Pipeline.arrRef spec0 w) := by
  have hin (w : Fin cfg0.W) (h : (cfg0.win w).isOut = false) (h' : Pipeline.arrRef spec0 w ∉ ([main_v48_0, main_v48_1] : List (Ref sig .tc))) :
      (pdats m 0 c).arrAt w cfg0.N = Gen.V2 m (outs m) c (Pipeline.arrRef spec0 w) :=
    ((pdats m 0 c).arrAt_in w h _).trans ((RegionU.dat_A (E1 m) c w).trans (Gen.V2_of m (outs m) c (Pipeline.arrRef spec0 w) h').symm)
  fin_cases w
  · exact hin 0 rfl (by decide)
  · exact hin 1 rfl (by decide)
  · exact hin 2 rfl (by decide)
  · exact hin 3 rfl (by decide)
  · exact hin 4 rfl (by decide)
  · exact (outs_v48_0 m c).symm.trans (V2_v48_0 m (outs m) c).symm
  · exact (outs_v48_1 m c).symm.trans (V2_v48_1 m (outs m) c).symm

/-- and every buffer that is none of its arrays is as the region found it. -/
theorem hrest0 (c : Dev nD) : ∀ b, b ∉ Finset.univ.image (Pipeline.arrRef spec0) → Gen.V2 m (outs m) c b = Gen.V1 m c b :=
  fun b hb => Gen.V2_of m (outs m) c b fun h => by
    rcases List.mem_cons.mp h with rfl | h
    · exact hb (Finset.mem_image.mpr ⟨5, Finset.mem_univ _, rfl⟩)
    · rcases List.mem_cons.mp h with rfl | h
      · exact hb (Finset.mem_image.mpr ⟨6, Finset.mem_univ _, rfl⟩)
      · exact absurd h List.not_mem_nil

set_option maxHeartbeats 1000000 in
/-- The item-side region's arrays at its exit are the last valuation's. -/
theorem hF1 (c : Dev nD) (w : Fin cfg1.W) : (pdats m 1 c).arrAt w cfg1.N = Gen.V3 m (outs m) c (Pipeline.arrRef spec1 w) := by
  have hin (w : Fin cfg1.W) (h : (cfg1.win w).isOut = false) (h' : Pipeline.arrRef spec1 w ∉ ([main_v49_0, main_v49_1] : List (Ref sig .tc))) :
      (pdats m 1 c).arrAt w cfg1.N = Gen.V3 m (outs m) c (Pipeline.arrRef spec1 w) :=
    ((pdats m 1 c).arrAt_in w h _).trans ((RegionI.dat_A (E2 m) c w).trans
      ((congrFun (V2_outs m c) (Pipeline.arrRef spec1 w)).symm.trans (Gen.V3_of m (outs m) c (Pipeline.arrRef spec1 w) h').symm))
  fin_cases w
  · exact hin 0 rfl (by decide)
  · exact hin 1 rfl (by decide)
  · exact hin 2 rfl (by decide)
  · exact hin 3 rfl (by decide)
  · exact hin 4 rfl (by decide)
  · exact (outs_v49_0' m c).symm.trans (V3_v49_0 m (outs m) c).symm
  · exact (outs_v49_1' m c).symm.trans (V3_v49_1 m (outs m) c).symm

theorem hrest1 (c : Dev nD) : ∀ b, b ∉ Finset.univ.image (Pipeline.arrRef spec1) → Gen.V3 m (outs m) c b = Gen.V2 m (outsU m) c b :=
  fun b hb => (Gen.V3_of m (outs m) c b fun h => by
    rcases List.mem_cons.mp h with rfl | h
    · exact hb (Finset.mem_image.mpr ⟨5, Finset.mem_univ _, rfl⟩)
    · rcases List.mem_cons.mp h with rfl | h
      · exact hb (Finset.mem_image.mpr ⟨6, Finset.mem_univ _, rfl⟩)
      · exact absurd h List.not_mem_nil).trans (congrFun (V2_outs m c) b)

/-! ## The regions as segments -/

-- a library lemma stated over the pinned configuration unifies with the printed one only when unification may
-- unfold plain definitions in a metavariable's type
set_option backward.isDefEq.respectTransparency.types false in
/-- THE USER-SIDE REGION over the thread state "every unscoped buffer at a valuation, the generator register and the
    core owing nothing beside": entered from the valuation after the host stretch, left at that valuation changed
    at the region's two results. Its arrays are split out of the unscoped buffers at entry and put back at exit;
    nothing but the scoped rest enters the invariant (the scratch sums live there); no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (RegionU.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X _ := BI.emp
  Y _ := BI.emp
  Z c := iprop(Pipeline.unscopedRest (Ix := Unit) (Name := ℕ) (U := UR sig nD τ) (Lvl := ℕ) spec0 c (E1 m c) ∗ ∃ r, prngReg c r)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 0 c).Φ 0 = Pipeline.scopedRest (Ix := Unit) (Name := ℕ) (U := UR sig nD τ) (Lvl := ℕ) (Val := Elt F) spec0 c from RegionU.dat_Phi_zero (E1 m) c]
    iintro ⟨-, -, Hr⟩; iexact Hr
  hout c := by
    rw [Pipeline.ownSems0_none]
    refine (RegionU.dat_Phi_last (E1 m) c).trans ?_
    iintro Hr
    isplitr; · iempintro
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- THE ITEM-SIDE REGION over the same thread state: entered from what the user-side region leaves, left at that
    valuation changed at this region's two results (what the launch reads at the end). -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (RegionI.body_obligation (E2 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X _ := BI.emp
  Y _ := BI.emp
  Z c := iprop(Pipeline.unscopedRest (Ix := Unit) (Name := ℕ) (U := UR sig nD τ) (Lvl := ℕ) spec1 c (E2 m c) ∗ ∃ r, prngReg c r)
  hentry c := by
    rw [Pipeline.ownSems0_none, V2_outs]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 1 c).Φ 0 = Pipeline.scopedRest (Ix := Unit) (Name := ℕ) (U := UR sig nD τ) (Lvl := ℕ) (Val := Elt F) spec1 c from RegionI.dat_Phi_zero (E2 m) c]
    iintro ⟨-, -, Hr⟩; iexact Hr
  hout c := by
    rw [Pipeline.ownSems0_none]
    refine (RegionI.dat_Phi_last (E2 m) c).trans ?_
    iintro Hr
    isplitr; · iempintro
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (fun b => Gen.V3 m (outs m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state is the last valuation and the generator register, beside the core owing nothing. -/
theorem last_link (c : Dev nD) :
    (iprop(StableHlo.held (c : Thread nD τ) (Pipeline.ucRefs τ sig) (Gen.V3 m (outs m) c) ∗ R c) : sProp 𝕄)
      ⊢ iprop((StableHlo.held (c : Thread nD τ) (Pipeline.ucRefs τ sig) (Gen.V3 m (outs m) c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

-- the launch theorem's implicit arguments are found by unifying its conclusion with this one, which takes unfolding
-- plain definitions in a metavariable's type
set_option backward.isDefEq.respectTransparency.types false in
/-- THE RUN: from any memory with zero counters every weakly fair execution of the program terminates, and every
    final memory holds the four result arrays at what the two regions' write-backs leave (outs) and each argument
    as launched. The launch over the host stretch and the two regions' records; the last thread state read against
    the final state, each result by name off the last valuation, each argument walked back to the launch memory. -/
theorem run_results : θ_run defs (onTc (τ := τ) (main (F := F))) ⟨m, fun _ => 0, ρ⟩ (fun r => ∀ c : Dev nD,
      r.2.mem ((c.tc : Thread nD τ).loc main_v48_0) = outs m 2 main_v48_0 c
      ∧ r.2.mem ((c.tc : Thread nD τ).loc main_v48_1) = outs m 2 main_v48_1 c
      ∧ r.2.mem ((c.tc : Thread nD τ).loc main_v49_0) = outs m 3 main_v49_0 c
      ∧ r.2.mem ((c.tc : Thread nD τ).loc main_v49_1) = outs m 3 main_v49_1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) Gen.adm (pdats m) () cellOf_inj emb₁ defs₀ 𝒱₀ L lv m ρ main
    (Gen.segs m 𝒱₀ L lv (fun _ => R) () (pdats m) (reg0 m) (reg1 m))
    (fun c Q => by
      rewrite [main_chain c, Pipeline.Seg.run_eq_chain,
        show (Gen.segs m 𝒱₀ L lv (fun _ => R) () (pdats m) (reg0 m) (reg1 m) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V3 m (outs m) c) ∗ ∃ r, prngReg c r))
    (hch := fun c => ⟨.rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V3 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V3 m (outs m) c) s')
      isplitl [Hh] <;> iassumption)
    (hQ := fun s h c =>
      ⟨(h c _ (mem_uc main_v48_0 (by decide))).trans (((Gen.V3_of m (outs m) c main_v48_0 (by decide)).trans (V2_v48_0 m (outs m) c))),
       (h c _ (mem_uc main_v48_1 (by decide))).trans (((Gen.V3_of m (outs m) c main_v48_1 (by decide)).trans (V2_v48_1 m (outs m) c))),
       (h c _ (mem_uc main_v49_0 (by decide))).trans (V3_v49_0 m (outs m) c),
       (h c _ (mem_uc main_v49_1 (by decide))).trans (V3_v49_1 m (outs m) c),
       (h c _ (mem_uc main_arg0 (by decide))).trans (Gen.V3_main_arg0 m (outs m) c),
       (h c _ (mem_uc main_arg1 (by decide))).trans (Gen.V3_main_arg1 m (outs m) c),
       (h c _ (mem_uc main_arg2 (by decide))).trans (Gen.V3_main_arg2 m (outs m) c),
       (h c _ (mem_uc main_arg3 (by decide))).trans (Gen.V3_main_arg3 m (outs m) c),
       (h c _ (mem_uc main_arg4 (by decide))).trans (Gen.V3_main_arg4 m (outs m) c),
       (h c _ (mem_uc main_arg5 (by decide))).trans (Gen.V3_main_arg5 m (outs m) c),
       (h c _ (mem_uc main_arg6 (by decide))).trans (Gen.V3_main_arg6 m (outs m) c),
       (h c _ (mem_uc main_arg7 (by decide))).trans (Gen.V3_main_arg7 m (outs m) c),
       (h c _ (mem_uc main_arg8 (by decide))).trans (Gen.V3_main_arg8 m (outs m) c),
       (h c _ (mem_uc main_arg9 (by decide))).trans (Gen.V3_main_arg9 m (outs m) c),
       (h c _ (mem_uc main_arg10 (by decide))).trans (Gen.V3_main_arg10 m (outs m) c)⟩)

/-- THE FRAME: every weakly fair execution terminates and every final memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2.2.2.2) (run_results m ρ)

end Cert.KernelIdeal.Whole

end
-- ==== Proof.Spec.lean ====
/-
  What the gather-blend-project program computes, index by index, as functions of its argument arrays.

  A batch of 4096 index words selects rows of a table (100000 rows on the user side, 50000 on the item side, 64
  columns). Row r of the gathered array is the table's row whose number is the r-th index word. Two such gathers
  (of the layer-averaged table g and of the history table h) are blended entry by entry, h · 0.05 + g · 0.95 with
  the two factors kept as the f32 words the programs print, and g is also projected through a 64 x 64 weight
  (already transposed) with a bias added along the columns.

  The law that joins a blocked one-hot contraction to a gather is here too, over the extended reals: a sum of
  indicator · x over a finite index set, where the indicator is 1 at exactly one point p and 0 elsewhere, is x p.
  Zero times ANY extended real is zero, the two infinities included, so no entry has to be finite. In blocked
  form the index set is K blocks of B consecutive rows, row B k + j being entry j of block k.
-/
import Idealize.ShloMosaic.PureOps.Ideal
import Idealize.ShloMosaic.Lib.ValueIdx

noncomputable section

open scoped BigOperators

namespace Cert.Spec

open Idealize.ShloMosaic Idealize.ShloMosaic.ValueIdx

/-! ## Shapes -/

abbrev T4096 : Shape := ⟨1, ![4096]⟩
abbrev T64 : Shape := ⟨1, ![64]⟩
abbrev T64x64 : Shape := ⟨2, ![64, 64]⟩
abbrev T4096x64 : Shape := ⟨2, ![4096, 64]⟩
abbrev T100000x64 : Shape := ⟨2, ![100000, 64]⟩
abbrev T50000x64 : Shape := ⟨2, ![50000, 64]⟩

/-! ## The selected row, and the range the index words are assumed to lie in -/

/-- The table row an index word selects among n rows: the word read as a natural number, reduced modulo n so
    that the function is total. On a word in range the reduction does nothing (rowOf_val_of_lt). -/
def rowOf (n : Nat) (hn : 0 < n) (w : BitVec 32) : Fin n := ⟨w.toNat % n, Nat.mod_lt _ hn⟩

/-- Every index word, read as a signed integer, is a row number of a table with n rows. -/
def InRange (n : Nat) (idx : IVec ⟨1, ![4096]⟩ 32) : Prop := ∀ j, 0 ≤ (idx j).toInt ∧ (idx j).toInt < n

/-- A word whose signed reading is not negative has that reading as its unsigned one. -/
theorem toNat_of_toInt_nonneg (w : BitVec 32) (h : 0 ≤ w.toInt) : (w.toNat : Int) = w.toInt := by
  rw [BitVec.toInt_eq_toNat_cond] at h ⊢
  split at h <;> rename_i hc
  · rw [if_pos hc]
  · exfalso; have := w.isLt; omega

/-- In range, the unsigned reading of an index word is below the number of rows. -/
theorem InRange.toNat_lt {n : Nat} {idx : IVec ⟨1, ![4096]⟩ 32} (h : InRange n idx) (j : (⟨1, ![4096]⟩ : Shape).Idx) :
    (idx j).toNat < n := by
  have h0 := toNat_of_toInt_nonneg (idx j) (h j).1
  have h1 := (h j).2
  omega

/-- In range, the signed and the unsigned readings of an index word agree. -/
theorem InRange.toInt_eq {n : Nat} {idx : IVec ⟨1, ![4096]⟩ 32} (h : InRange n idx) (j : (⟨1, ![4096]⟩ : Shape).Idx) :
    (idx j).toInt = ((idx j).toNat : Int) := (toNat_of_toInt_nonneg (idx j) (h j).1).symm

/-- On a word below n the selected row is the word itself. -/
theorem rowOf_val_of_lt {n : Nat} (hn : 0 < n) {w : BitVec 32} (h : w.toNat < n) : (rowOf n hn w).val = w.toNat :=
  Nat.mod_eq_of_lt h

/-- In range, the selected row is the index word's unsigned reading. -/
theorem InRange.rowOf_val {n : Nat} (hn : 0 < n) {idx : IVec ⟨1, ![4096]⟩ 32} (h : InRange n idx)
    (j : (⟨1, ![4096]⟩ : Shape).Idx) : (rowOf n hn (idx j)).val = (idx j).toNat :=
  rowOf_val_of_lt hn (h.toNat_lt j)

/-! ## The results -/

/-- Rows of a table of 100000 rows selected by the 4096 index words. -/
def gatherU (tbl : FVec Ideal T100000x64 .f32) (idx : IVec T4096 32) : FVec Ideal T4096x64 .f32 :=
  fun j => tbl (ix2 (rowOf 100000 (by decide) (idx (ix1 (j 0)))) (j 1))

/-- Rows of a table of 50000 rows selected by the 4096 index words. -/
def gatherI (tbl : FVec Ideal T50000x64 .f32) (idx : IVec T4096 32) : FVec Ideal T4096x64 .f32 :=
  fun j => tbl (ix2 (rowOf 50000 (by decide) (idx (ix1 (j 0)))) (j 1))

/-- The momentum blend of the gathered table rows g and the gathered history rows h: h · 0.05 + g · 0.95, the
    factors being the f32 words 0x3D4CCCCD and 0x3F733333. -/
def blendOf (g h : FVec Ideal T4096x64 .f32) : FVec Ideal T4096x64 .f32 :=
  fun j => h j * Ideal.ofBits .f32 0x3D4CCCCD#32 + g j * Ideal.ofBits .f32 0x3F733333#32

/-- The projection of the gathered rows g through the (transposed) weight wt, plus the bias b on every row. -/
def projWt (g : FVec Ideal T4096x64 .f32) (wt : FVec Ideal T64x64 .f32) (b : FVec Ideal T64 .f32) :
    FVec Ideal T4096x64 .f32 :=
  fun j => (∑ e : Fin 64, g (ix2 (j 0) e) * wt (ix2 e (j 1))) + b (ix1 (j 1))

theorem gatherU_apply (tbl : FVec Ideal T100000x64 .f32) (idx : IVec T4096 32) (r : Fin 4096) (d : Fin 64) :
    gatherU tbl idx (ix2 r d) = tbl (ix2 (rowOf 100000 (by decide) (idx (ix1 r))) d) := rfl

theorem gatherI_apply (tbl : FVec Ideal T50000x64 .f32) (idx : IVec T4096 32) (r : Fin 4096) (d : Fin 64) :
    gatherI tbl idx (ix2 r d) = tbl (ix2 (rowOf 50000 (by decide) (idx (ix1 r))) d) := rfl

theorem blendOf_apply (g h : FVec Ideal T4096x64 .f32) (j : T4096x64.Idx) :
    blendOf g h j = h j * Ideal.ofBits .f32 0x3D4CCCCD#32 + g j * Ideal.ofBits .f32 0x3F733333#32 := rfl

theorem projWt_apply (g : FVec Ideal T4096x64 .f32) (wt : FVec Ideal T64x64 .f32) (b : FVec Ideal T64 .f32)
    (r : Fin 4096) (d : Fin 64) :
    projWt g wt b (ix2 r d) = (∑ e : Fin 64, g (ix2 r e) * wt (ix2 e d)) + b (ix1 d) := rfl

/-! ## The one-hot law -/

/-- A sum of indicator · x, the indicator being that of a property that holds at p and nowhere else, is x p. -/
theorem sum_indicator_mul_of_unique {ι : Type*} [Fintype ι] (P : ι → Prop) [DecidablePred P] (x : ι → EReal) (p : ι)
    (hp : P p) (huniq : ∀ j, P j → j = p) :
    ∑ j, (if P j then (1 : EReal) else 0) * x j = x p := by
  rw [Finset.sum_eq_single p]
  · rw [if_pos hp, one_mul]
  · intro j _ hj
    rw [if_neg (fun h => hj (huniq j h)), zero_mul]
  · intro h; exact absurd (Finset.mem_univ p) h

/-- The one-hot row of p against x: the sum over j of (1 if j = p, else 0) · x j is x p. -/
theorem sum_onehot_mul {n : Nat} (x : Fin n → EReal) (p : Fin n) :
    ∑ j : Fin n, (if j = p then (1 : EReal) else 0) * x j = x p :=
  sum_indicator_mul_of_unique (fun j => j = p) x p rfl (fun _ h => h)

/-- A row number B k + j with j < B determines its block k and its place j in the block. -/
theorem block_coords {B k j p : Nat} (hB : 0 < B) (hj : j < B) (h : B * k + j = p) : k = p / B ∧ j = p % B := by
  subst h
  refine ⟨?_, ?_⟩
  · rw [Nat.mul_add_div hB, Nat.div_eq_of_lt hj, Nat.add_zero]
  · rw [Nat.mul_add_mod, Nat.mod_eq_of_lt hj]

/-- Entry j of block k is a row of the whole: B k + j < K B. -/
theorem block_row_lt {K B : Nat} (k : Fin K) (j : Fin B) : B * k.val + j.val < K * B := by
  have h1 : B * k.val + j.val < B * (k.val + 1) := by rw [Nat.mul_succ]; exact Nat.add_lt_add_left j.isLt _
  have h2 : B * (k.val + 1) ≤ B * K := Nat.mul_le_mul_left _ k.isLt
  rw [Nat.mul_comm K B]
  exact Nat.lt_of_lt_of_le h1 h2

/-- THE BLOCKED ONE-HOT LAW. K blocks of B entries each, y k j the entry j of block k; the indicator selects the
    one entry whose row number B k + j is p. The double sum of indicator · entry is the entry at block p / B,
    place p % B. -/
theorem sum_blocks_indicator_mul {K B : Nat} (hB : 0 < B) (y : Fin K → Fin B → EReal) (p : Nat) (hp : p < K * B) :
    ∑ k : Fin K, ∑ j : Fin B, (if B * k.val + j.val = p then (1 : EReal) else 0) * y k j
      = y ⟨p / B, (Nat.div_lt_iff_lt_mul hB).mpr hp⟩ ⟨p % B, Nat.mod_lt _ hB⟩ := by
  rw [Finset.sum_eq_single (⟨p / B, (Nat.div_lt_iff_lt_mul hB).mpr hp⟩ : Fin K)]
  · rw [Finset.sum_eq_single (⟨p % B, Nat.mod_lt _ hB⟩ : Fin B)]
    · rw [if_pos (Nat.div_add_mod p B), one_mul]
    · intro j _ hj
      rw [if_neg (fun h => hj (Fin.ext (block_coords hB j.isLt h).2)), zero_mul]
    · intro h; exact absurd (Finset.mem_univ _) h
  · intro k _ hk
    refine Finset.sum_eq_zero fun j _ => ?_
    rw [if_neg (fun h => hk (Fin.ext (block_coords hB j.isLt h).1)), zero_mul]
  · intro h; exact absurd (Finset.mem_univ _) h

/-- The same over a function x on the n = K B rows themselves: the blocked one-hot sum against x is x p. -/
theorem sum_blocks_onehot_mul {K B n : Nat} (hB : 0 < B) (hn : K * B = n) (x : Fin n → EReal) (p : Fin n) :
    ∑ k : Fin K, ∑ j : Fin B, (if B * k.val + j.val = p.val then (1 : EReal) else 0)
        * x ⟨B * k.val + j.val, hn ▸ block_row_lt k j⟩ = x p := by
  have hp : p.val < K * B := hn ▸ p.isLt
  rw [sum_blocks_indicator_mul hB (fun k j => x ⟨B * k.val + j.val, hn ▸ block_row_lt k j⟩) p.val hp]
  exact congrArg x (Fin.ext (Nat.div_add_mod p.val B))

end Cert.Spec

end
-- ==== Proof.ValueU.lean ====
/-
  The two result arrays of the user-side gather region, as functions of the arrays the region reads.

  Point t = 100 i + k of the grid handles batch tile i (index words 2048 i .. 2048 i + 2047) and table block k (rows
  1000 k .. 1000 k + 999 of each of the two tables). Entry (r, j) of the one-hot block is 1 when index word r of the
  tile is the row number 1000 k + j and 0 otherwise, and the body adds onehot · block to each running sum. So after
  block k the table sum at (r, d) is the sum, over the blocks k' = 0 .. k and their entries j, of
  indicator(1000 k' + j = p) · table(1000 k' + j, d), where p is the row the tile's index word r selects: an
  induction over the positions of the grid, restarted at the first block of each tile. After the last block, k = 99,
  the indicator has run over all 100000 row numbers; the index words being in range it is 1 at exactly one of
  them, so the sum is table(p, d), the gathered row. Zero times any extended real is zero, so no entry of a table
  has to be finite for this.

  What a last block writes back is therefore the projection of the gathered rows through the weight plus the bias
  (first result) and the momentum blend of the gathered table rows and history rows (second result), read through
  the block's rectangle: entry (r, d) of the block at point t is row 2048 (t / 100) + r of the array. The blocks
  written back at the points 100 i + 99 tile each result array, so each ends holding that one function everywhere.
-/
import proofs.«404517_j50560355008860_1_alg».proof.Proof.DatU
import proofs.«404517_j50560355008860_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionU

open Cert.KernelIdeal Cert.KernelIdeal.Gen
open Idealize.ShloMosaic Idealize.ShloMosaic.TcCoe Idealize.ShloMosaic.ValueIdx
open Idealize.SL.Sem
open Idealize.ShloMosaic.Pipeline (Dat)

/-! ## The payloads at an index -/

/-- The row number 1000 k + j of entry j of table block k, as the 32-bit word the kernel compares with: no wrap,
    the number is below 100000. -/
theorem rowWord_eq (k : Fin 100) (j : Fin 1000) :
    IntOp.addi (Scalar.muli (BitVec.ofNat 32 k.val) 1000#32) (BitVec.ofNat 32 j.val) = BitVec.ofNat 32 (1000 * k.val + j.val) := by
  have hk := k.isLt
  have hj := j.isLt
  apply BitVec.eq_of_toNat_eq
  simp only [IntOp.addi, Scalar.muli, IntOp.muli, BitVec.toNat_add, BitVec.toNat_mul, BitVec.toNat_ofNat]
  omega

/-- An index word equals that word exactly when its unsigned reading is the row number. -/
theorem eq_rowWord_iff (w : BitVec 32) (k : Fin 100) (j : Fin 1000) :
    w = BitVec.ofNat 32 (1000 * k.val + j.val) ↔ w.toNat = 1000 * k.val + j.val := by
  have hk := k.isLt
  have hj := j.isLt
  constructor
  · intro h; rw [h, BitVec.toNat_ofNat]; omega
  · intro h; apply BitVec.eq_of_toNat_eq; rw [h, BitVec.toNat_ofNat]; omega

/-- The index vector as a column, broadcast along the block's 1000 entries, reads the row's index word. -/
theorem idxCol_apply (idx : IVec S2048 32) (r : Fin 2048) (j : Fin 1000) :
    broadcastTo S2048x1000 (shapeCast S2048x1 idx shapeCasts_S2048_S2048x1) broadcasts_S2048x1_S2048x1000 (ix2 r j)
      = idx (ix1 r) := by
  refine (broadcastTo_apply (shapeCast S2048x1 idx shapeCasts_S2048_S2048x1) broadcasts_S2048x1_S2048x1000 (ix2 r j)
    (ix2 r (0 : Fin 1)) (fun a => ?_)).trans ?_
  · match a with
    | ⟨0, _⟩ => rfl
    | ⟨1, _⟩ => rfl
  · refine shapeCast_apply idx shapeCasts_S2048_S2048x1 (ix2 r (0 : Fin 1)) (ix1 r) ?_
    rw [Shape.rowMajor_val_one, Shape.rowMajor_val_two]
    show r.val = r.val * 1 + 0
    omega

/-- The row of row numbers 1000 k + (0 .. 999), broadcast down the 2048 rows, reads entry j's row number. -/
theorem rowNums_apply (v4 : BitVec 32) (r : Fin 2048) (j : Fin 1000) :
    broadcastTo S2048x1000 (addi (broadcast S1x1000 v4) (iota .tc S1x1000 32 [1] iota_S1x1000_d1_w32)) broadcasts_S1x1000_S2048x1000 (ix2 r j)
      = IntOp.addi v4 (BitVec.ofNat 32 j.val) := by
  refine (broadcastTo_apply (addi (broadcast S1x1000 v4) (iota .tc S1x1000 32 [1] iota_S1x1000_d1_w32)) broadcasts_S1x1000_S2048x1000 (ix2 r j)
    (ix2 (0 : Fin 1) j) (fun a => ?_)).trans ?_
  · match a with
    | ⟨0, _⟩ => rfl
    | ⟨1, _⟩ => rfl
  · show IntOp.addi v4 (iota .tc S1x1000 32 [1] iota_S1x1000_d1_w32 (ix2 (0 : Fin 1) j)) = _
    rw [iota_single_apply]

/-- A comparison bit, widened to 32 bits, read signed and as an extended real: 1 where the words are equal, else 0. -/
theorem bit_real (x y : BitVec 32) :
    (((((IntOp.cmpi .eq x y).setWidth 32).toInt : ℝ)) : EReal) = if x = y then (1 : EReal) else 0 := by
  by_cases h : x = y
  · subst h
    rw [if_pos rfl]
    have : IntOp.cmpi .eq x x = 1#1 := by simp [IntOp.cmpi]
    rw [this]
    norm_num
  · rw [if_neg h]
    have : IntOp.cmpi .eq x y = 0#1 := by
      show BitVec.ofBool (x == y) = 0#1
      rw [beq_eq_false_iff_ne.mpr h]; rfl
    rw [this]
    norm_num

/-- THE ONE-HOT BLOCK at (r, j): 1 exactly when row r's index word is the row number 1000 k + j of the block's
    entry j, else 0 (the narrowing to bf16 changes nothing here). -/
theorem onehot_apply (i : grid0.Coords) (idx : Vec Ideal S2048 .i32) (r : Fin 2048) (j : Fin 1000) :
    k0_pay5 (F := Ideal) i idx (ix2 r j) = if 1000 * (i 1).val + j.val = (idx (ix1 r)).toNat then (1 : EReal) else 0 := by
  unfold k0_pay5
  show ((((IntOp.cmpi .eq
      (broadcastTo S2048x1000 (shapeCast S2048x1 idx shapeCasts_S2048_S2048x1) broadcasts_S2048x1_S2048x1000 (ix2 r j))
      (broadcastTo S2048x1000 (addi (broadcast S1x1000 (Scalar.muli (BitVec.ofNat 32 (i 1).val) 1000#32)) (iota .tc S1x1000 32 [1] iota_S1x1000_d1_w32)) broadcasts_S1x1000_S2048x1000 (ix2 r j))).setWidth 32).toInt : ℝ) : EReal) = _
  rw [idxCol_apply, rowNums_apply, rowWord_eq (i 1) j, bit_real]
  exact if_congr ((eq_rowWord_iff _ (i 1) j).trans eq_comm) rfl rfl

/-! ### The block contraction [2048, 1000] x [1000, 64] re-indexed by the entry number -/

theorem lhs_blk_0 (j : S2048x64.Idx) (q : dot_S2048x1000_S1000x64_S2048x64_1_0_0_1_n_n.contr.Idx) :
    (dot_S2048x1000_S1000x64_S2048x64_1_0_0_1_n_n.lhsIdx j q 0).val = (j 0).val := by
  unfold DotDims.lhsIdx
  rw [dif_neg (show ¬(0 : Fin S2048x1000.rank) ∈ dot_S2048x1000_S1000x64_S2048x64_1_0_0_1_n_n.lhsBatch by decide), dif_pos (show (0 : Fin S2048x1000.rank) ∈ dot_S2048x1000_S1000x64_S2048x64_1_0_0_1_n_n.lhsNonContracting by decide)]
  rfl
theorem lhs_blk_1 (j : S2048x64.Idx) (q : dot_S2048x1000_S1000x64_S2048x64_1_0_0_1_n_n.contr.Idx) :
    (dot_S2048x1000_S1000x64_S2048x64_1_0_0_1_n_n.lhsIdx j q 1).val = (q ⟨0, by decide⟩).val :=
  dot_S2048x1000_S1000x64_S2048x64_1_0_0_1_n_n.lhsIdx_val_of_single rfl j q
theorem rhs_blk_0 (j : S2048x64.Idx) (q : dot_S2048x1000_S1000x64_S2048x64_1_0_0_1_n_n.contr.Idx) :
    (dot_S2048x1000_S1000x64_S2048x64_1_0_0_1_n_n.rhsIdx j q 0).val = (q ⟨0, by decide⟩).val :=
  dot_S2048x1000_S1000x64_S2048x64_1_0_0_1_n_n.rhsIdx_val_of_single rfl j q
theorem rhs_blk_1 (j : S2048x64.Idx) (q : dot_S2048x1000_S1000x64_S2048x64_1_0_0_1_n_n.contr.Idx) :
    (dot_S2048x1000_S1000x64_S2048x64_1_0_0_1_n_n.rhsIdx j q 1).val = (j 1).val := by
  unfold DotDims.rhsIdx
  rw [dif_neg (show ¬(1 : Fin S1000x64.rank) ∈ dot_S2048x1000_S1000x64_S2048x64_1_0_0_1_n_n.rhsBatch by decide), dif_pos (show (1 : Fin S1000x64.rank) ∈ dot_S2048x1000_S1000x64_S2048x64_1_0_0_1_n_n.rhsNonContracting by decide)]
  rfl

/-- A block product into the zero accumulator, at (r, d): row r of the left factor against column d of the right,
    summed over the block's 1000 entries. -/
theorem blockDot_apply (lhs : FVec Ideal S2048x1000 .bf16) (rhs : FVec Ideal S1000x64 .bf16) (r : Fin 2048) (d : Fin 64) :
    FloatOps.matmul dot_S2048x1000_S1000x64_S2048x64_1_0_0_1_n_n none lhs rhs (constant S2048x64 .f32 0x00000000#32) (ix2 r d)
      = ∑ j : Fin 1000, lhs (ix2 r j) * rhs (ix2 j d) := by
  rw [Ideal.matmul_constant_zero_apply, ← Equiv.sum_comp (contrEquiv1 dot_S2048x1000_S1000x64_S2048x64_1_0_0_1_n_n 1000 rfl rfl).symm]
  refine Finset.sum_congr rfl fun k _ => ?_
  have hk := contrEquiv1_symm_val dot_S2048x1000_S1000x64_S2048x64_1_0_0_1_n_n 1000 rfl rfl k
  have el : dot_S2048x1000_S1000x64_S2048x64_1_0_0_1_n_n.lhsIdx (ix2 r d) ((contrEquiv1 dot_S2048x1000_S1000x64_S2048x64_1_0_0_1_n_n 1000 rfl rfl).symm k) = ix2 r k := funext fun a => Fin.ext (by
    match a with
    | ⟨0, _⟩ => exact lhs_blk_0 _ _
    | ⟨1, _⟩ => exact (lhs_blk_1 _ _).trans hk)
  have er : dot_S2048x1000_S1000x64_S2048x64_1_0_0_1_n_n.rhsIdx (ix2 r d) ((contrEquiv1 dot_S2048x1000_S1000x64_S2048x64_1_0_0_1_n_n 1000 rfl rfl).symm k) = ix2 k d := funext fun a => Fin.ext (by
    match a with
    | ⟨0, _⟩ => exact (rhs_blk_0 _ _).trans hk
    | ⟨1, _⟩ => exact rhs_blk_1 _ _)
  rw [el, er]

/-! ### The projection's contraction [2048, 64] x [64, 64] re-indexed by the column of the sums -/

theorem lhs_prj_0 (j : S2048x64.Idx) (q : dot_S2048x64_S64x64_S2048x64_1_0_0_1_n_n.contr.Idx) :
    (dot_S2048x64_S64x64_S2048x64_1_0_0_1_n_n.lhsIdx j q 0).val = (j 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_prj_1 (j : S2048x64.Idx) (q : dot_S2048x64_S64x64_S2048x64_1_0_0_1_n_n.contr.Idx) :
    (dot_S2048x64_S64x64_S2048x64_1_0_0_1_n_n.lhsIdx j q 1).val = (q ⟨0, by decide⟩).val :=
  dot_S2048x64_S64x64_S2048x64_1_0_0_1_n_n.lhsIdx_val_of_single rfl j q
theorem rhs_prj_0 (j : S2048x64.Idx) (q : dot_S2048x64_S64x64_S2048x64_1_0_0_1_n_n.contr.Idx) :
    (dot_S2048x64_S64x64_S2048x64_1_0_0_1_n_n.rhsIdx j q 0).val = (q ⟨0, by decide⟩).val :=
  dot_S2048x64_S64x64_S2048x64_1_0_0_1_n_n.rhsIdx_val_of_single rfl j q
theorem rhs_prj_1 (j : S2048x64.Idx) (q : dot_S2048x64_S64x64_S2048x64_1_0_0_1_n_n.contr.Idx) :
    (dot_S2048x64_S64x64_S2048x64_1_0_0_1_n_n.rhsIdx j q 1).val = (j 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The projection product into the zero accumulator, at (r, d). -/
theorem projDot_apply (lhs : FVec Ideal S2048x64 .bf16) (rhs : FVec Ideal S64x64 .bf16) (r : Fin 2048) (d : Fin 64) :
    FloatOps.matmul dot_S2048x64_S64x64_S2048x64_1_0_0_1_n_n none lhs rhs (constant S2048x64 .f32 0x00000000#32) (ix2 r d)
      = ∑ e : Fin 64, lhs (ix2 r e) * rhs (ix2 e d) := by
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r d) ((contrEquiv1 dot_S2048x64_S64x64_S2048x64_1_0_0_1_n_n 64 rfl rfl).symm k) = ix2 r k := funext fun a => Fin.ext (by
    match a with
    | ⟨0, _⟩ => exact lhs_prj_0 _ _
    | ⟨1, _⟩ => exact (lhs_prj_1 _ _).trans hk)
  have er : dot_S2048x64_S64x64_S2048x64_1_0_0_1_n_n.rhsIdx (ix2 r d) ((contrEquiv1 dot_S2048x64_S64x64_S2048x64_1_0_0_1_n_n 64 rfl rfl).symm k) = ix2 k d := funext fun a => Fin.ext (by
    match a with
    | ⟨0, _⟩ => exact (rhs_prj_0 _ _).trans hk
    | ⟨1, _⟩ => exact rhs_prj_1 _ _)
  rw [el, er]

/-! ### The four step functions at an index -/

/-- The table sum after one more block, at (r, d): what it was plus the one-hot row of r against column d of the
    block. -/
theorem sumTbl_apply (i : grid0.Coords) (idx : Vec Ideal S2048 .i32) (blk : Vec Ideal S1000x64 .f32) (acc : Vec Ideal S2048x64 .f32)
    (r : Fin 2048) (d : Fin 64) :
    sumTbl (F := Ideal) i idx blk acc (ix2 r d)
      = acc (ix2 r d) + ∑ j : Fin 1000, (if 1000 * (i 1).val + j.val = (idx (ix1 r)).toNat then (1 : EReal) else 0) * blk (ix2 j d) := by
  unfold sumTbl k0_pay6
  show shapeCast S2048x64 (addf acc (matmul dot_S2048x1000_S1000x64_S2048x64_1_0_0_1_n_n none (k0_pay5 (F := Ideal) i idx)
      (truncf .bf16 (shapeCast S1000x64 blk shapeCasts_S1000x64_S1000x64) bitsLt_bf16_f32) (constant S2048x64 .f32 0x00000000#32)))
      shapeCasts_S2048x64_S2048x64 (ix2 r d) = _
  rw [shapeCast_self, shapeCast_self]
  show acc (ix2 r d) + FloatOps.matmul dot_S2048x1000_S1000x64_S2048x64_1_0_0_1_n_n none (k0_pay5 (F := Ideal) i idx)
      (truncf .bf16 blk bitsLt_bf16_f32) (constant S2048x64 .f32 0x00000000#32) (ix2 r d) = _
  rw [blockDot_apply]
  refine congrArg (acc (ix2 r d) + ·) (Finset.sum_congr rfl fun j _ => ?_)
  rw [onehot_apply]
  rfl

/-- The history sum after one more block, at (r, d). -/
theorem sumHis_apply (i : grid0.Coords) (idx : Vec Ideal S2048 .i32) (blk : Vec Ideal S1000x64 .f32) (acc : Vec Ideal S2048x64 .f32)
    (r : Fin 2048) (d : Fin 64) :
    sumHis (F := Ideal) i idx blk acc (ix2 r d)
      = acc (ix2 r d) + ∑ j : Fin 1000, (if 1000 * (i 1).val + j.val = (idx (ix1 r)).toNat then (1 : EReal) else 0) * blk (ix2 j d) := by
  unfold sumHis k0_pay7
  show shapeCast S2048x64 (addf acc (matmul dot_S2048x1000_S1000x64_S2048x64_1_0_0_1_n_n none (k0_pay5 (F := Ideal) i idx)
      (truncf .bf16 blk bitsLt_bf16_f32) (constant S2048x64 .f32 0x00000000#32)))
      shapeCasts_S2048x64_S2048x64 (ix2 r d) = _
  rw [shapeCast_self]
  show acc (ix2 r d) + FloatOps.matmul dot_S2048x1000_S1000x64_S2048x64_1_0_0_1_n_n none (k0_pay5 (F := Ideal) i idx)
      (truncf .bf16 blk bitsLt_bf16_f32) (constant S2048x64 .f32 0x00000000#32) (ix2 r d) = _
  rw [blockDot_apply]
  refine congrArg (acc (ix2 r d) + ·) (Finset.sum_congr rfl fun j _ => ?_)
  rw [onehot_apply]
  rfl

/-- The two sums as reset: zero everywhere. -/
theorem zeroTbl_apply (j : S2048x64.Idx) : zeroTbl (F := Ideal) j = 0 := by
  unfold zeroTbl k0_pay3
  show shapeCast S2048x64 (broadcast S2048x64 (Scalar.ofBits (F := Ideal) .f32 0x00000000#32)) shapeCasts_S2048x64_S2048x64 j = 0
  rw [shapeCast_self]
  exact Ideal.ofBits_zero_f32
theorem zeroHis_apply (j : S2048x64.Idx) : zeroHis (F := Ideal) j = 0 := by
  unfold zeroHis k0_pay4
  show shapeCast S2048x64 (broadcast S2048x64 (Scalar.ofBits (F := Ideal) .f32 0x00000000#32)) shapeCasts_S2048x64_S2048x64 j = 0
  rw [shapeCast_self]
  exact Ideal.ofBits_zero_f32

/-- The blend at an index: history sum times the first word plus table sum times the second. -/
theorem blend_apply (tbl his : Vec Ideal S2048x64 .f32) (j : S2048x64.Idx) :
    blend (F := Ideal) tbl his j = his j * Ideal.ofBits .f32 0x3D4CCCCD#32 + tbl j * Ideal.ofBits .f32 0x3F733333#32 := rfl

/-- The bias as one row, broadcast down the 2048 rows, reads the column's bias. -/
theorem biasRow_apply (b : Vec Ideal S64 .f32) (r : Fin 2048) (d : Fin 64) :
    broadcastTo S2048x64 (shapeCast S1x64 b shapeCasts_S64_S1x64) broadcasts_S1x64_S2048x64 (ix2 r d) = b (ix1 d) := by
  refine (broadcastTo_apply (shapeCast S1x64 b shapeCasts_S64_S1x64) broadcasts_S1x64_S2048x64 (ix2 r d)
    (ix2 (0 : Fin 1) d) (fun a => ?_)).trans ?_
  · match a with
    | ⟨0, _⟩ => rfl
    | ⟨1, _⟩ => rfl
  · refine shapeCast_apply b shapeCasts_S64_S1x64 (ix2 (0 : Fin 1) d) (ix1 d) ?_
    rw [Shape.rowMajor_val_one, Shape.rowMajor_val_two]
    show d.val = 0 * 64 + d.val
    omega

/-- The projection at (r, d): row r of the table sum against column d of the weight, plus the column's bias. -/
theorem project_apply (g : Vec Ideal S2048x64 .f32) (wt : Vec Ideal S64x64 .f32) (b : Vec Ideal S64 .f32) (r : Fin 2048) (d : Fin 64) :
    project (F := Ideal) g wt b (ix2 r d) = (∑ e : Fin 64, g (ix2 r e) * wt (ix2 e d)) + b (ix1 d) := by
  unfold project k0_pay2
  show (FloatOps.matmul (F := Ideal) dot_S2048x64_S64x64_S2048x64_1_0_0_1_n_n none (truncf (F := Ideal) .bf16 g bitsLt_bf16_f32)
      (truncf (F := Ideal) .bf16 (shapeCast S64x64 wt shapeCasts_S64x64_S64x64) bitsLt_bf16_f32) (constant (F := Ideal) S2048x64 .f32 0x00000000#32) (ix2 r d) : EReal)
      + (broadcastTo S2048x64 (shapeCast S1x64 b shapeCasts_S64_S1x64) broadcasts_S1x64_S2048x64 (ix2 r d) : EReal) = _
  rw [shapeCast_self, projDot_apply, biasRow_apply]
  rfl

/-! ## The blocks at a point, as entries of the arrays -/

variable (V : (c : Dev nD) → (b : Ref sig .tc) → Buf (Elt Ideal) ((c : Thread nD τ).loc b))

/-- The five arrays the region reads, as the region finds them, at their literal types. -/
abbrev idxArr (c : Dev nD) : IVec S4096 32 := V c main_arg7
abbrev tblArr (c : Dev nD) : FVec Ideal S100000x64 .f32 := V c main_v45
abbrev hisArr (c : Dev nD) : FVec Ideal S100000x64 .f32 := V c main_arg9
abbrev wtArr (c : Dev nD) : FVec Ideal S64x64 .f32 := V c main_v47
abbrev biasArr (c : Dev nD) : FVec Ideal S64 .f32 := V c main_arg3

/-- The printed index maps, decided once over the 200 points. Point t is batch tile t / 100, table block t % 100:
    the index window and the two result windows move with the tile, the two table windows with the block, the
    weight and the bias stay. -/
theorem idx_facts : ∀ t : Fin cfg0.N,
    win0_0.index t (0 : Fin 1) = t.val / 100
    ∧ win0_1.index t (0 : Fin 2) = t.val % 100 ∧ win0_1.index t (1 : Fin 2) = 0
    ∧ win0_2.index t (0 : Fin 2) = t.val % 100 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val / 100 ∧ win0_5.index t (1 : Fin 2) = 0
    ∧ win0_6.index t (0 : Fin 2) = t.val / 100 ∧ win0_6.index t (1 : Fin 2) = 0
    ∧ ((grid0.coords t) 1).val = t.val % 100 :=
  (by decide +kernel : ∀ t : Fin grid0.N, _)

/-- Entry r of the index block at point t is entry 2048 (t / 100) + r of the index vector. -/
theorem idxAt_apply (c : Dev nD) (t : Fin cfg0.N) (r : Fin 2048) (k : Fin 4096) (hk : k.val = 2048 * (t.val / 100) + r.val) :
    idxAt V c t (ix1 r) = idxArr V c (ix1 k) := by
  obtain ⟨e, -⟩ := idx_facts t
  unfold idxAt iblk
  rw [View.read_apply]
  show V c main_arg7 _ = V c main_arg7 _
  congr 1
  funext a
  apply Fin.ext
  match a with
  | ⟨0, _⟩ => show win0_0.index t (0 : Fin 1) * 2048 + 1 * r.val = k.val; rw [e, hk]; omega

/-- Entry (j, d) of the table block at point t is row 1000 (t % 100) + j of the table. -/
theorem tblAt_apply (c : Dev nD) (t : Fin cfg0.N) (j : Fin 1000) (d : Fin 64) (k : Fin 100000) (hk : k.val = 1000 * (t.val % 100) + j.val) :
    tblAt V c t (ix2 j d) = tblArr V c (ix2 k d) := by
  obtain ⟨-, e0, e1, -⟩ := idx_facts t
  unfold tblAt iblk
  rw [View.read_apply]
  show V c main_v45 _ = V c main_v45 _
  congr 1
  funext a
  apply Fin.ext
  match a with
  | ⟨0, _⟩ => show win0_1.index t (0 : Fin 2) * 1000 + 1 * j.val = k.val; rw [e0, hk]; omega
  | ⟨1, _⟩ => show win0_1.index t (1 : Fin 2) * 64 + 1 * d.val = d.val; rw [e1]; omega

/-- Entry (j, d) of the history block at point t is row 1000 (t % 100) + j of the history table. -/
theorem hisAt_apply (c : Dev nD) (t : Fin cfg0.N) (j : Fin 1000) (d : Fin 64) (k : Fin 100000) (hk : k.val = 1000 * (t.val % 100) + j.val) :
    hisAt V c t (ix2 j d) = hisArr V c (ix2 k d) := by
  obtain ⟨-, -, -, e0, e1, -⟩ := idx_facts t
  unfold hisAt iblk
  rw [View.read_apply]
  show V c main_arg9 _ = V c main_arg9 _
  congr 1
  funext a
  apply Fin.ext
  match a with
  | ⟨0, _⟩ => show win0_2.index t (0 : Fin 2) * 1000 + 1 * j.val = k.val; rw [e0, hk]; omega
  | ⟨1, _⟩ => show win0_2.index t (1 : Fin 2) * 64 + 1 * d.val = d.val; rw [e1]; omega

/-- The weight block at any point is the whole weight. -/
theorem wtAt_apply (c : Dev nD) (t : Fin cfg0.N) (e : Fin 64) (d : Fin 64) : wtAt V c t (ix2 e d) = wtArr V c (ix2 e d) := by
  obtain ⟨-, -, -, -, -, e0, e1, -⟩ := idx_facts t
  unfold wtAt iblk
  rw [View.read_apply]
  show V c main_v47 _ = V c main_v47 _
  congr 1
  funext a
  apply Fin.ext
  match a with
  | ⟨0, _⟩ => show win0_3.index t (0 : Fin 2) * 64 + 1 * e.val = e.val; rw [e0]; omega
  | ⟨1, _⟩ => show win0_3.index t (1 : Fin 2) * 64 + 1 * d.val = d.val; rw [e1]; omega

/-- The bias block at any point is the whole bias. -/
theorem biasAt_apply (c : Dev nD) (t : Fin cfg0.N) (d : Fin 64) : biasAt V c t (ix1 d) = biasArr V c (ix1 d) := by
  obtain ⟨-, -, -, -, -, -, -, e0, -⟩ := idx_facts t
  unfold biasAt iblk
  rw [View.read_apply]
  show V c main_arg3 _ = V c main_arg3 _
  congr 1
  funext a
  apply Fin.ext
  match a with
  | ⟨0, _⟩ => show win0_4.index t (0 : Fin 1) * 64 + 1 * d.val = d.val; rw [e0]; omega

/-! ## The running sums in closed form -/

/-- Entry m of the index vector, the zero word past its end: a function of a plain number. -/
def wordAt (I : IVec S4096 32) (m : ℕ) : BitVec 32 := if h : m < 4096 then I (ix1 ⟨m, h⟩) else 0#32
/-- Row n, column d of a table of 100000 rows, zero past its end: a function of a plain number. -/
def rowAt (T : FVec Ideal S100000x64 .f32) (d : Fin 64) (n : ℕ) : EReal := if h : n < 100000 then T (ix2 ⟨n, h⟩ d) else 0

/-- What table block k adds to row p's sum in column d: the one-hot entries of the block's 1000 row numbers
    1000 k + j against the block's rows. -/
def contrib (T : FVec Ideal S100000x64 .f32) (p : ℕ) (d : Fin 64) (k : ℕ) : EReal :=
  ∑ j : Fin 1000, (if 1000 * k + j.val = p then (1 : EReal) else 0) * rowAt T d (1000 * k + j.val)

theorem N_eq : cfg0.N = 200 := by decide

/-- One more block of the averaged table at point t, at (r, d): block t % 100's contribution to the row that entry
    2048 (t / 100) + r of the index vector selects. -/
theorem stepTbl (c : Dev nD) (t : Fin cfg0.N) (acc : Vec Ideal S2048x64 .f32) (r : Fin 2048) (d : Fin 64) :
    sumTbl (F := Ideal) (grid0.coords t) (idxAt V c t) (tblAt V c t) acc (ix2 r d)
      = acc (ix2 r d) + contrib (tblArr V c) (wordAt (idxArr V c) (2048 * (t.val / 100) + r.val)).toNat d (t.val % 100) := by
  have ht : t.val < 200 := N_eq ▸ t.isLt
  have hr := r.isLt
  have hm : 2048 * (t.val / 100) + r.val < 4096 := by omega
  obtain ⟨-, -, -, -, -, -, -, -, -, -, -, -, hcoord⟩ := idx_facts t
  refine (sumTbl_apply (grid0.coords t) (idxAt V c t) (tblAt V c t) acc r d).trans ?_
  refine congrArg (acc (ix2 r d) + ·) (Finset.sum_congr rfl fun j _ => ?_)
  have hj := j.isLt
  have hn : 1000 * (t.val % 100) + j.val < 100000 := by omega
  rw [idxAt_apply V c t r ⟨2048 * (t.val / 100) + r.val, hm⟩ rfl,
    tblAt_apply V c t j d ⟨1000 * (t.val % 100) + j.val, hn⟩ rfl, hcoord]
  unfold wordAt rowAt
  rw [dif_pos hm, dif_pos hn]

/-- The same for the history table. -/
theorem stepHis (c : Dev nD) (t : Fin cfg0.N) (acc : Vec Ideal S2048x64 .f32) (r : Fin 2048) (d : Fin 64) :
    sumHis (F := Ideal) (grid0.coords t) (idxAt V c t) (hisAt V c t) acc (ix2 r d)
      = acc (ix2 r d) + contrib (hisArr V c) (wordAt (idxArr V c) (2048 * (t.val / 100) + r.val)).toNat d (t.val % 100) := by
  have ht : t.val < 200 := N_eq ▸ t.isLt
  have hr := r.isLt
  have hm : 2048 * (t.val / 100) + r.val < 4096 := by omega
  obtain ⟨-, -, -, -, -, -, -, -, -, -, -, -, hcoord⟩ := idx_facts t
  refine (sumHis_apply (grid0.coords t) (idxAt V c t) (hisAt V c t) acc r d).trans ?_
  refine congrArg (acc (ix2 r d) + ·) (Finset.sum_congr rfl fun j _ => ?_)
  have hj := j.isLt
  have hn : 1000 * (t.val % 100) + j.val < 100000 := by omega
  rw [idxAt_apply V c t r ⟨2048 * (t.val / 100) + r.val, hm⟩ rfl,
    hisAt_apply V c t j d ⟨1000 * (t.val % 100) + j.val, hn⟩ rfl, hcoord]
  unfold wordAt rowAt
  rw [dif_pos hm, dif_pos hn]

/-- At the first block of a tile both sums are that block's contribution alone. -/
theorem sums_first (c : Dev nD) (t : Fin cfg0.N) (h : t.val % 100 = 0) (r : Fin 2048) (d : Fin 64) :
    (sumsAt V c t.val t.isLt).1 (ix2 r d)
        = contrib (tblArr V c) (wordAt (idxArr V c) (2048 * (t.val / 100) + r.val)).toNat d (t.val % 100)
    ∧ (sumsAt V c t.val t.isLt).2 (ix2 r d)
        = contrib (hisArr V c) (wordAt (idxArr V c) (2048 * (t.val / 100) + r.val)).toNat d (t.val % 100) := by
  rw [sumsAt_first V c t h]
  dsimp only
  refine ⟨?_, ?_⟩
  · rw [stepTbl V c t zeroTbl r d, zeroTbl_apply, zero_add]
  · rw [stepHis V c t zeroHis r d, zeroHis_apply, zero_add]

/-- At any other block both sums are what the point before left plus that block's contribution. -/
theorem sums_next (c : Dev nD) (n : ℕ) (hn : n + 1 < cfg0.N) (h : ¬(n + 1) % 100 = 0) (r : Fin 2048) (d : Fin 64) :
    (sumsAt V c (n + 1) hn).1 (ix2 r d)
        = (sumsAt V c n (Nat.lt_of_succ_lt hn)).1 (ix2 r d)
          + contrib (tblArr V c) (wordAt (idxArr V c) (2048 * ((n + 1) / 100) + r.val)).toNat d ((n + 1) % 100)
    ∧ (sumsAt V c (n + 1) hn).2 (ix2 r d)
        = (sumsAt V c n (Nat.lt_of_succ_lt hn)).2 (ix2 r d)
          + contrib (hisArr V c) (wordAt (idxArr V c) (2048 * ((n + 1) / 100) + r.val)).toNat d ((n + 1) % 100) := by
  have hs : sumsAt V c (n + 1) hn
      = (sumTbl (F := Ideal) (grid0.coords ⟨n + 1, hn⟩) (idxAt V c ⟨n + 1, hn⟩) (tblAt V c ⟨n + 1, hn⟩) (sumsAt V c n (Nat.lt_of_succ_lt hn)).1,
         sumHis (F := Ideal) (grid0.coords ⟨n + 1, hn⟩) (idxAt V c ⟨n + 1, hn⟩) (hisAt V c ⟨n + 1, hn⟩) (sumsAt V c n (Nat.lt_of_succ_lt hn)).2) :=
    sumsAt_next V c ⟨n + 1, hn⟩ h
  rw [hs]
  dsimp only
  exact ⟨stepTbl V c ⟨n + 1, hn⟩ (sumsAt V c n (Nat.lt_of_succ_lt hn)).1 r d,
    stepHis V c ⟨n + 1, hn⟩ (sumsAt V c n (Nat.lt_of_succ_lt hn)).2 r d⟩

/-- THE SUMS AFTER POSITION n, at (r, d): the contributions of the table blocks 0 .. n % 100 to the row that entry
    2048 (n / 100) + r of the index vector selects. By induction over the positions; nothing is enumerated. -/
theorem sums_closed (c : Dev nD) (r : Fin 2048) (d : Fin 64) : ∀ (n : ℕ) (hn : n < cfg0.N),
    (sumsAt V c n hn).1 (ix2 r d)
        = ∑ k ∈ Finset.range (n % 100 + 1), contrib (tblArr V c) (wordAt (idxArr V c) (2048 * (n / 100) + r.val)).toNat d k
    ∧ (sumsAt V c n hn).2 (ix2 r d)
        = ∑ k ∈ Finset.range (n % 100 + 1), contrib (hisArr V c) (wordAt (idxArr V c) (2048 * (n / 100) + r.val)).toNat d k := by
  intro n
  induction n with
  | zero =>
    intro hn
    obtain ⟨a, b⟩ := sums_first V c ⟨0, hn⟩ rfl r d
    refine ⟨a.trans ?_, b.trans ?_⟩
    · show _ = ∑ k ∈ Finset.range 1, _
      rw [Finset.sum_range_one]
      rfl
    · show _ = ∑ k ∈ Finset.range 1, _
      rw [Finset.sum_range_one]
      rfl
  | succ n ih =>
    intro hn
    by_cases h : (n + 1) % 100 = 0
    · obtain ⟨a, b⟩ := sums_first V c ⟨n + 1, hn⟩ h r d
      refine ⟨a.trans ?_, b.trans ?_⟩
      · show contrib _ _ d ((n + 1) % 100) = _
        rw [h, Nat.zero_add, Finset.sum_range_one]
      · show contrib _ _ d ((n + 1) % 100) = _
        rw [h, Nat.zero_add, Finset.sum_range_one]
    · obtain ⟨a, b⟩ := sums_next V c n hn h r d
      obtain ⟨ia, ib⟩ := ih (Nat.lt_of_succ_lt hn)
      have e1 : (n + 1) / 100 = n / 100 := by omega
      have e2 : (n + 1) % 100 = n % 100 + 1 := by omega
      refine ⟨a.trans ?_, b.trans ?_⟩
      · rw [ia, e1, e2]
        exact (Finset.sum_range_succ _ _).symm
      · rw [ib, e1, e2]
        exact (Finset.sum_range_succ _ _).symm

/-- All 100 blocks' contributions to a row p below 100000 make the table's row p: the blocked one-hot law. -/
theorem contribs_eq_row (T : FVec Ideal S100000x64 .f32) (p : ℕ) (hp : p < 100000) (d : Fin 64) :
    ∑ k ∈ Finset.range 100, contrib T p d k = T (ix2 ⟨p, hp⟩ d) := by
  rw [Finset.sum_range]
  unfold contrib
  rw [Spec.sum_blocks_indicator_mul (K := 100) (B := 1000) (by decide) (fun k j => rowAt T d (1000 * k.val + j.val)) p (by omega)]
  show rowAt T d (1000 * (p / 1000) + p % 1000) = _
  rw [Nat.div_add_mod]
  unfold rowAt
  rw [dif_pos hp]

/-- AT A LAST BLOCK (t % 100 = 99) both sums are gathered rows: row R = 2048 (t / 100) + r of the gather of each
    table by the index vector, the index words being in range. -/
theorem sums_last (c : Dev nD) (h : Spec.InRange 100000 (idxArr V c)) (t : Fin cfg0.N) (h99 : t.val % 100 = 99)
    (r : Fin 2048) (d : Fin 64) (R : Fin 4096) (hR : R.val = 2048 * (t.val / 100) + r.val) :
    (sumsAt V c t.val t.isLt).1 (ix2 r d) = Spec.gatherU (tblArr V c) (idxArr V c) (ix2 R d)
    ∧ (sumsAt V c t.val t.isLt).2 (ix2 r d) = Spec.gatherU (hisArr V c) (idxArr V c) (ix2 R d) := by
  obtain ⟨a, b⟩ := sums_closed V c r d t.val t.isLt
  have hw : wordAt (idxArr V c) (2048 * (t.val / 100) + r.val) = idxArr V c (ix1 R) := by
    unfold wordAt
    rw [dif_pos (hR ▸ R.isLt)]
    exact congrArg (fun k => idxArr V c (ix1 k)) (Fin.ext hR.symm)
  have hp : (idxArr V c (ix1 R)).toNat < 100000 := h.toNat_lt (ix1 R)
  have hrow : (⟨(idxArr V c (ix1 R)).toNat, hp⟩ : Fin 100000) = Spec.rowOf 100000 (by decide) (idxArr V c (ix1 R)) :=
    Fin.ext (Spec.rowOf_val_of_lt (by decide) hp).symm
  rw [h99, hw] at a b
  refine ⟨a.trans ?_, b.trans ?_⟩
  · rw [contribs_eq_row (tblArr V c) _ hp d, hrow]; rfl
  · rw [contribs_eq_row (hisArr V c) _ hp d, hrow]; rfl

/-! ## From blocks to the arrays -/

/-- What the first result's buffer holds after a last block, entry x, is entry k of the projected gather, k being
    x moved down by the tile's 2048 (t / 100) rows. -/
theorem proj_point (c : Dev nD) (h : Spec.InRange 100000 (idxArr V c)) (t : Fin cfg0.N) (h99 : t.val % 100 = 99)
    (x : S2048x64.Idx) (k : S4096x64.Idx) (hk0 : (k 0).val = 2048 * (t.val / 100) + (x 0).val) (hk1 : (k 1).val = (x 1).val) :
    projAt V c t x = Spec.projWt (Spec.gatherU (tblArr V c) (idxArr V c)) (wtArr V c) (biasArr V c) k := by
  obtain ⟨r, d, rfl⟩ : ∃ (r : Fin 2048) (d : Fin 64), x = ix2 r d := ⟨x 0, x 1, eq_ix2 x⟩
  obtain ⟨R, D, rfl⟩ : ∃ (R : Fin 4096) (D : Fin 64), k = ix2 R D := ⟨k 0, k 1, eq_ix2 k⟩
  obtain rfl : D = d := Fin.ext hk1
  have hR : R.val = 2048 * (t.val / 100) + r.val := hk0
  unfold projAt
  refine (project_apply (sumsAt V c t.val t.isLt).1 (wtAt V c t) (biasAt V c t) r D).trans ?_
  rw [Spec.projWt_apply, biasAt_apply V c t D]
  refine congrArg (· + biasArr V c (ix1 D)) (Finset.sum_congr rfl fun e _ => ?_)
  rw [(sums_last V c h t h99 r e R hR).1, wtAt_apply V c t e D]

/-- What the second result's buffer holds after a last block, entry x, is entry k of the blended gathers. -/
theorem blend_point (c : Dev nD) (h : Spec.InRange 100000 (idxArr V c)) (t : Fin cfg0.N) (h99 : t.val % 100 = 99)
    (x : S2048x64.Idx) (k : S4096x64.Idx) (hk0 : (k 0).val = 2048 * (t.val / 100) + (x 0).val) (hk1 : (k 1).val = (x 1).val) :
    blendAt V c t x = Spec.blendOf (Spec.gatherU (tblArr V c) (idxArr V c)) (Spec.gatherU (hisArr V c) (idxArr V c)) k := by
  obtain ⟨r, d, rfl⟩ : ∃ (r : Fin 2048) (d : Fin 64), x = ix2 r d := ⟨x 0, x 1, eq_ix2 x⟩
  obtain ⟨R, D, rfl⟩ : ∃ (R : Fin 4096) (D : Fin 64), k = ix2 R D := ⟨k 0, k 1, eq_ix2 k⟩
  obtain rfl : D = d := Fin.ext hk1
  have hR : R.val = 2048 * (t.val / 100) + r.val := hk0
  obtain ⟨a, b⟩ := sums_last V c h t h99 r D R hR
  unfold blendAt
  refine (blend_apply (sumsAt V c t.val t.isLt).1 (sumsAt V c t.val t.isLt).2 (ix2 r D)).trans ?_
  rw [a, b]
  rfl

/-- WHAT A LAST BLOCK WRITES BACK through the first result window is its block of the projected gather. -/
theorem flushed5_eq (c : Dev nD) (h : Spec.InRange 100000 (idxArr V c)) (t : Fin cfg0.N) (hf : (cfg0.win 5).flush t = true) :
    (dat (F := Ideal) V c).flushed 5 t
      = ((cfg0.win 5).blk t).view.read (Elt Ideal) (Spec.projWt (Spec.gatherU (tblArr V c) (idxArr V c)) (wtArr V c) (biasArr V c)) := by
  have h99 : t.val % 100 = 99 := (flush0_5 t).mp hf
  obtain ⟨-, -, -, -, -, -, -, -, e0, e1, -⟩ := idx_facts t
  show (cfg0.win 5).cut (grid0.coords t) ((dat (F := Ideal) V c).after 5 t) = _
  rw [dat_after5]
  funext y
  rw [View.read_apply]
  refine proj_point V c h t h99 _ _ ?_ ?_
  · show win0_5.index t (0 : Fin 2) * 2048 + 1 * (y 0).val = 2048 * (t.val / 100) + (y 0).val
    rw [e0]; omega
  · show win0_5.index t (1 : Fin 2) * 64 + 1 * (y 1).val = (y 1).val
    rw [e1]; omega

/-- And through the second result window its block of the blended gathers. -/
theorem flushed6_eq (c : Dev nD) (h : Spec.InRange 100000 (idxArr V c)) (t : Fin cfg0.N) (hf : (cfg0.win 6).flush t = true) :
    (dat (F := Ideal) V c).flushed 6 t
      = ((cfg0.win 6).blk t).view.read (Elt Ideal) (Spec.blendOf (Spec.gatherU (tblArr V c) (idxArr V c)) (Spec.gatherU (hisArr V c) (idxArr V c))) := by
  have h99 : t.val % 100 = 99 := (flush0_6 t).mp hf
  obtain ⟨-, -, -, -, -, -, -, -, -, -, e0, e1, -⟩ := idx_facts t
  show (cfg0.win 6).cut (grid0.coords t) ((dat (F := Ideal) V c).after 6 t) = _
  rw [dat_after6]
  funext y
  rw [View.read_apply]
  refine blend_point V c h t h99 _ _ ?_ ?_
  · show win0_6.index t (0 : Fin 2) * 2048 + 1 * (y 0).val = 2048 * (t.val / 100) + (y 0).val
    rw [e0]; omega
  · show win0_6.index t (1 : Fin 2) * 64 + 1 * (y 1).val = (y 1).val
    rw [e1]; omega

/-- An entry of a result array is in point t's block exactly when each coordinate is in the block's range. -/
theorem mem_blk5 (t : Fin cfg0.N) (i : S4096x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v48_0).slice (win0_5.rect t)).set ↔ _
  rw [View.set_slice_whole, Rect.mem_set_unit]
  exact Iff.rfl
theorem mem_blk6 (t : Fin cfg0.N) (i : S4096x64.Idx) :
    i ∈ ((cfg0.win 6).blk t).view.set ↔ ∀ a : Fin 2, win0_6.index t a * S2048x64.size a ≤ (i a).val ∧ (i a).val < win0_6.index t a * S2048x64.size a + S2048x64.size a := by
  show i ∈ ((View.whole main_v48_1).slice (win0_6.rect t)).set ↔ _
  rw [View.set_slice_whole, Rect.mem_set_unit]
  exact Iff.rfl

/-- THE COVER: row i of a result lies in the block the last point of its tile writes back, t = 100 (i / 2048) + 99. -/
theorem cover5 (i : S4096x64.Idx) : ∃ t : Fin cfg0.N, (cfg0.win 5).flush t = true ∧ i ∈ ((cfg0.win 5).blk t).view.set := by
  have hi0 : (i 0).val < 4096 := (i 0).isLt
  have hi1 : (i 1).val < 64 := (i 1).isLt
  have hlt : 100 * ((i 0).val / 2048) + 99 < cfg0.N := by rw [N_eq]; omega
  obtain ⟨-, -, -, -, -, -, -, -, e0, e1, -⟩ := idx_facts ⟨100 * ((i 0).val / 2048) + 99, hlt⟩
  have e0' : win0_5.index ⟨100 * ((i 0).val / 2048) + 99, hlt⟩ (0 : Fin 2) = (100 * ((i 0).val / 2048) + 99) / 100 := e0
  refine ⟨⟨100 * ((i 0).val / 2048) + 99, hlt⟩, (flush0_5 _).mpr (by show (100 * ((i 0).val / 2048) + 99) % 100 = 99; omega), ?_⟩
  rw [mem_blk5]
  intro a
  match a with
  | ⟨0, _⟩ =>
    show win0_5.index ⟨100 * ((i 0).val / 2048) + 99, hlt⟩ (0 : Fin 2) * 2048 ≤ (i 0).val
      ∧ (i 0).val < win0_5.index ⟨100 * ((i 0).val / 2048) + 99, hlt⟩ (0 : Fin 2) * 2048 + 2048
    rw [e0']; omega
  | ⟨1, _⟩ =>
    show win0_5.index ⟨100 * ((i 0).val / 2048) + 99, hlt⟩ (1 : Fin 2) * 64 ≤ (i 1).val
      ∧ (i 1).val < win0_5.index ⟨100 * ((i 0).val / 2048) + 99, hlt⟩ (1 : Fin 2) * 64 + 64
    rw [e1]; omega
theorem cover6 (i : S4096x64.Idx) : ∃ t : Fin cfg0.N, (cfg0.win 6).flush t = true ∧ i ∈ ((cfg0.win 6).blk t).view.set := by
  have hi0 : (i 0).val < 4096 := (i 0).isLt
  have hi1 : (i 1).val < 64 := (i 1).isLt
  have hlt : 100 * ((i 0).val / 2048) + 99 < cfg0.N := by rw [N_eq]; omega
  obtain ⟨-, -, -, -, -, -, -, -, -, -, e0, e1, -⟩ := idx_facts ⟨100 * ((i 0).val / 2048) + 99, hlt⟩
  have e0' : win0_6.index ⟨100 * ((i 0).val / 2048) + 99, hlt⟩ (0 : Fin 2) = (100 * ((i 0).val / 2048) + 99) / 100 := e0
  refine ⟨⟨100 * ((i 0).val / 2048) + 99, hlt⟩, (flush0_6 _).mpr (by show (100 * ((i 0).val / 2048) + 99) % 100 = 99; omega), ?_⟩
  rw [mem_blk6]
  intro a
  match a with
  | ⟨0, _⟩ =>
    show win0_6.index ⟨100 * ((i 0).val / 2048) + 99, hlt⟩ (0 : Fin 2) * 2048 ≤ (i 0).val
      ∧ (i 0).val < win0_6.index ⟨100 * ((i 0).val / 2048) + 99, hlt⟩ (0 : Fin 2) * 2048 + 2048
    rw [e0']; omega
  | ⟨1, _⟩ =>
    show win0_6.index ⟨100 * ((i 0).val / 2048) + 99, hlt⟩ (1 : Fin 2) * 64 ≤ (i 1).val
      ∧ (i 1).val < win0_6.index ⟨100 * ((i 0).val / 2048) + 99, hlt⟩ (1 : Fin 2) * 64 + 64
    rw [e1]; omega

/-- THE FIRST RESULT ARRAY after the region: the gathered table rows projected through the weight, plus the bias. -/
theorem arrAt_proj (c : Dev nD) (h : Spec.InRange 100000 (V c main_arg7)) :
    (dat (F := Ideal) V c).arrAt 5 cfg0.N
      = Spec.projWt (Spec.gatherU (V c main_v45) (V c main_arg7)) (V c main_v47) (V c main_arg3) :=
  (dat (F := Ideal) V c).arrAt_eq_of_cover 5 (Spec.projWt (Spec.gatherU (tblArr V c) (idxArr V c)) (wtArr V c) (biasArr V c))
    (fun t hf => flushed5_eq V c h t hf) cover5

/-- THE SECOND RESULT ARRAY after the region: the momentum blend of the gathered table rows and history rows. -/
theorem arrAt_blend (c : Dev nD) (h : Spec.InRange 100000 (V c main_arg7)) :
    (dat (F := Ideal) V c).arrAt 6 cfg0.N
      = Spec.blendOf (Spec.gatherU (V c main_v45) (V c main_arg7)) (Spec.gatherU (V c main_arg9) (V c main_arg7)) :=
  (dat (F := Ideal) V c).arrAt_eq_of_cover 6 (Spec.blendOf (Spec.gatherU (tblArr V c) (idxArr V c)) (Spec.gatherU (hisArr V c) (idxArr V c)))
    (fun t hf => flushed6_eq V c h t hf) cover6

end Cert.KernelIdeal.RegionU

end
-- ==== Proof.ValueI.lean ====
/-
  The two result arrays of the user-side gather region, as functions of the arrays the region reads.

  Point t = 50 i + k of the grid handles batch tile i (index words 2048 i .. 2048 i + 2047) and table block k (rows
  1000 k .. 1000 k + 999 of each of the two tables). Entry (r, j) of the one-hot block is 1 when index word r of the
  tile is the row number 1000 k + j and 0 otherwise, and the body adds onehot · block to each running sum. So after
  block k the table sum at (r, d) is the sum, over the blocks k' = 0 .. k and their entries j, of
  indicator(1000 k' + j = p) · table(1000 k' + j, d), where p is the row the tile's index word r selects: an
  induction over the positions of the grid, restarted at the first block of each tile. After the last block, k = 49,
  the indicator has run over all 50000 row numbers; the index words being in range it is 1 at exactly one of
  them, so the sum is table(p, d), the gathered row. Zero times any extended real is zero, so no entry of a table
  has to be finite for this.

  What a last block writes back is therefore the projection of the gathered rows through the weight plus the bias
  (first result) and the momentum blend of the gathered table rows and history rows (second result), read through
  the block's rectangle: entry (r, d) of the block at point t is row 2048 (t / 50) + r of the array. The blocks
  written back at the points 50 i + 49 tile each result array, so each ends holding that one function everywhere.
-/
import proofs.«404517_j50560355008860_1_alg».proof.Proof.DatI
import proofs.«404517_j50560355008860_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionI

open Cert.KernelIdeal Cert.KernelIdeal.Gen
open Idealize.ShloMosaic Idealize.ShloMosaic.TcCoe Idealize.ShloMosaic.ValueIdx
open Idealize.SL.Sem
open Idealize.ShloMosaic.Pipeline (Dat)

/-! ## The payloads at an index -/

/-- The row number 1000 k + j of entry j of table block k, as the 32-bit word the kernel compares with: no wrap,
    the number is below 50000. -/
theorem rowWord_eq (k : Fin 50) (j : Fin 1000) :
    IntOp.addi (Scalar.muli (BitVec.ofNat 32 k.val) 1000#32) (BitVec.ofNat 32 j.val) = BitVec.ofNat 32 (1000 * k.val + j.val) := by
  have hk := k.isLt
  have hj := j.isLt
  apply BitVec.eq_of_toNat_eq
  simp only [IntOp.addi, Scalar.muli, IntOp.muli, BitVec.toNat_add, BitVec.toNat_mul, BitVec.toNat_ofNat]
  omega

/-- An index word equals that word exactly when its unsigned reading is the row number. -/
theorem eq_rowWord_iff (w : BitVec 32) (k : Fin 50) (j : Fin 1000) :
    w = BitVec.ofNat 32 (1000 * k.val + j.val) ↔ w.toNat = 1000 * k.val + j.val := by
  have hk := k.isLt
  have hj := j.isLt
  constructor
  · intro h; rw [h, BitVec.toNat_ofNat]; omega
  · intro h; apply BitVec.eq_of_toNat_eq; rw [h, BitVec.toNat_ofNat]; omega

/-- The index vector as a column, broadcast along the block's 1000 entries, reads the row's index word. -/
theorem idxCol_apply (idx : IVec S2048 32) (r : Fin 2048) (j : Fin 1000) :
    broadcastTo S2048x1000 (shapeCast S2048x1 idx shapeCasts_S2048_S2048x1) broadcasts_S2048x1_S2048x1000 (ix2 r j)
      = idx (ix1 r) := by
  refine (broadcastTo_apply (shapeCast S2048x1 idx shapeCasts_S2048_S2048x1) broadcasts_S2048x1_S2048x1000 (ix2 r j)
    (ix2 r (0 : Fin 1)) (fun a => ?_)).trans ?_
  · match a with
    | ⟨0, _⟩ => rfl
    | ⟨1, _⟩ => rfl
  · refine shapeCast_apply idx shapeCasts_S2048_S2048x1 (ix2 r (0 : Fin 1)) (ix1 r) ?_
    rw [Shape.rowMajor_val_one, Shape.rowMajor_val_two]
    show r.val = r.val * 1 + 0
    omega

/-- The row of row numbers 1000 k + (0 .. 999), broadcast down the 2048 rows, reads entry j's row number. -/
theorem rowNums_apply (v4 : BitVec 32) (r : Fin 2048) (j : Fin 1000) :
    broadcastTo S2048x1000 (addi (broadcast S1x1000 v4) (iota .tc S1x1000 32 [1] iota_S1x1000_d1_w32)) broadcasts_S1x1000_S2048x1000 (ix2 r j)
      = IntOp.addi v4 (BitVec.ofNat 32 j.val) := by
  refine (broadcastTo_apply (addi (broadcast S1x1000 v4) (iota .tc S1x1000 32 [1] iota_S1x1000_d1_w32)) broadcasts_S1x1000_S2048x1000 (ix2 r j)
    (ix2 (0 : Fin 1) j) (fun a => ?_)).trans ?_
  · match a with
    | ⟨0, _⟩ => rfl
    | ⟨1, _⟩ => rfl
  · show IntOp.addi v4 (iota .tc S1x1000 32 [1] iota_S1x1000_d1_w32 (ix2 (0 : Fin 1) j)) = _
    rw [iota_single_apply]

/-- A comparison bit, widened to 32 bits, read signed and as an extended real: 1 where the words are equal, else 0. -/
theorem bit_real (x y : BitVec 32) :
    (((((IntOp.cmpi .eq x y).setWidth 32).toInt : ℝ)) : EReal) = if x = y then (1 : EReal) else 0 := by
  by_cases h : x = y
  · subst h
    rw [if_pos rfl]
    have : IntOp.cmpi .eq x x = 1#1 := by simp [IntOp.cmpi]
    rw [this]
    norm_num
  · rw [if_neg h]
    have : IntOp.cmpi .eq x y = 0#1 := by
      show BitVec.ofBool (x == y) = 0#1
      rw [beq_eq_false_iff_ne.mpr h]; rfl
    rw [this]
    norm_num

/-- THE ONE-HOT BLOCK at (r, j): 1 exactly when row r's index word is the row number 1000 k + j of the block's
    entry j, else 0 (the narrowing to bf16 changes nothing here). -/
theorem onehot_apply (i : grid1.Coords) (idx : Vec Ideal S2048 .i32) (r : Fin 2048) (j : Fin 1000) :
    k1_pay5 (F := Ideal) i idx (ix2 r j) = if 1000 * (i 1).val + j.val = (idx (ix1 r)).toNat then (1 : EReal) else 0 := by
  unfold k1_pay5
  show ((((IntOp.cmpi .eq
      (broadcastTo S2048x1000 (shapeCast S2048x1 idx shapeCasts_S2048_S2048x1) broadcasts_S2048x1_S2048x1000 (ix2 r j))
      (broadcastTo S2048x1000 (addi (broadcast S1x1000 (Scalar.muli (BitVec.ofNat 32 (i 1).val) 1000#32)) (iota .tc S1x1000 32 [1] iota_S1x1000_d1_w32)) broadcasts_S1x1000_S2048x1000 (ix2 r j))).setWidth 32).toInt : ℝ) : EReal) = _
  rw [idxCol_apply, rowNums_apply, rowWord_eq (i 1) j, bit_real]
  exact if_congr ((eq_rowWord_iff _ (i 1) j).trans eq_comm) rfl rfl

/-! ### The block contraction [2048, 1000] x [1000, 64] re-indexed by the entry number -/

theorem lhs_blk_0 (j : S2048x64.Idx) (q : dot_S2048x1000_S1000x64_S2048x64_1_0_0_1_n_n.contr.Idx) :
    (dot_S2048x1000_S1000x64_S2048x64_1_0_0_1_n_n.lhsIdx j q 0).val = (j 0).val := by
  unfold DotDims.lhsIdx
  rw [dif_neg (show ¬(0 : Fin S2048x1000.rank) ∈ dot_S2048x1000_S1000x64_S2048x64_1_0_0_1_n_n.lhsBatch by decide), dif_pos (show (0 : Fin S2048x1000.rank) ∈ dot_S2048x1000_S1000x64_S2048x64_1_0_0_1_n_n.lhsNonContracting by decide)]
  rfl
theorem lhs_blk_1 (j : S2048x64.Idx) (q : dot_S2048x1000_S1000x64_S2048x64_1_0_0_1_n_n.contr.Idx) :
    (dot_S2048x1000_S1000x64_S2048x64_1_0_0_1_n_n.lhsIdx j q 1).val = (q ⟨0, by decide⟩).val :=
  dot_S2048x1000_S1000x64_S2048x64_1_0_0_1_n_n.lhsIdx_val_of_single rfl j q
theorem rhs_blk_0 (j : S2048x64.Idx) (q : dot_S2048x1000_S1000x64_S2048x64_1_0_0_1_n_n.contr.Idx) :
    (dot_S2048x1000_S1000x64_S2048x64_1_0_0_1_n_n.rhsIdx j q 0).val = (q ⟨0, by decide⟩).val :=
  dot_S2048x1000_S1000x64_S2048x64_1_0_0_1_n_n.rhsIdx_val_of_single rfl j q
theorem rhs_blk_1 (j : S2048x64.Idx) (q : dot_S2048x1000_S1000x64_S2048x64_1_0_0_1_n_n.contr.Idx) :
    (dot_S2048x1000_S1000x64_S2048x64_1_0_0_1_n_n.rhsIdx j q 1).val = (j 1).val := by
  unfold DotDims.rhsIdx
  rw [dif_neg (show ¬(1 : Fin S1000x64.rank) ∈ dot_S2048x1000_S1000x64_S2048x64_1_0_0_1_n_n.rhsBatch by decide), dif_pos (show (1 : Fin S1000x64.rank) ∈ dot_S2048x1000_S1000x64_S2048x64_1_0_0_1_n_n.rhsNonContracting by decide)]
  rfl

/-- A block product into the zero accumulator, at (r, d): row r of the left factor against column d of the right,
    summed over the block's 1000 entries. -/
theorem blockDot_apply (lhs : FVec Ideal S2048x1000 .bf16) (rhs : FVec Ideal S1000x64 .bf16) (r : Fin 2048) (d : Fin 64) :
    FloatOps.matmul dot_S2048x1000_S1000x64_S2048x64_1_0_0_1_n_n none lhs rhs (constant S2048x64 .f32 0x00000000#32) (ix2 r d)
      = ∑ j : Fin 1000, lhs (ix2 r j) * rhs (ix2 j d) := by
  rw [Ideal.matmul_constant_zero_apply, ← Equiv.sum_comp (contrEquiv1 dot_S2048x1000_S1000x64_S2048x64_1_0_0_1_n_n 1000 rfl rfl).symm]
  refine Finset.sum_congr rfl fun k _ => ?_
  have hk := contrEquiv1_symm_val dot_S2048x1000_S1000x64_S2048x64_1_0_0_1_n_n 1000 rfl rfl k
  have el : dot_S2048x1000_S1000x64_S2048x64_1_0_0_1_n_n.lhsIdx (ix2 r d) ((contrEquiv1 dot_S2048x1000_S1000x64_S2048x64_1_0_0_1_n_n 1000 rfl rfl).symm k) = ix2 r k := funext fun a => Fin.ext (by
    match a with
    | ⟨0, _⟩ => exact lhs_blk_0 _ _
    | ⟨1, _⟩ => exact (lhs_blk_1 _ _).trans hk)
  have er : dot_S2048x1000_S1000x64_S2048x64_1_0_0_1_n_n.rhsIdx (ix2 r d) ((contrEquiv1 dot_S2048x1000_S1000x64_S2048x64_1_0_0_1_n_n 1000 rfl rfl).symm k) = ix2 k d := funext fun a => Fin.ext (by
    match a with
    | ⟨0, _⟩ => exact (rhs_blk_0 _ _).trans hk
    | ⟨1, _⟩ => exact rhs_blk_1 _ _)
  rw [el, er]

/-! ### The projection's contraction [2048, 64] x [64, 64] re-indexed by the column of the sums -/

theorem lhs_prj_0 (j : S2048x64.Idx) (q : dot_S2048x64_S64x64_S2048x64_1_0_0_1_n_n.contr.Idx) :
    (dot_S2048x64_S64x64_S2048x64_1_0_0_1_n_n.lhsIdx j q 0).val = (j 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_prj_1 (j : S2048x64.Idx) (q : dot_S2048x64_S64x64_S2048x64_1_0_0_1_n_n.contr.Idx) :
    (dot_S2048x64_S64x64_S2048x64_1_0_0_1_n_n.lhsIdx j q 1).val = (q ⟨0, by decide⟩).val :=
  dot_S2048x64_S64x64_S2048x64_1_0_0_1_n_n.lhsIdx_val_of_single rfl j q
theorem rhs_prj_0 (j : S2048x64.Idx) (q : dot_S2048x64_S64x64_S2048x64_1_0_0_1_n_n.contr.Idx) :
    (dot_S2048x64_S64x64_S2048x64_1_0_0_1_n_n.rhsIdx j q 0).val = (q ⟨0, by decide⟩).val :=
  dot_S2048x64_S64x64_S2048x64_1_0_0_1_n_n.rhsIdx_val_of_single rfl j q
theorem rhs_prj_1 (j : S2048x64.Idx) (q : dot_S2048x64_S64x64_S2048x64_1_0_0_1_n_n.contr.Idx) :
    (dot_S2048x64_S64x64_S2048x64_1_0_0_1_n_n.rhsIdx j q 1).val = (j 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The projection product into the zero accumulator, at (r, d). -/
theorem projDot_apply (lhs : FVec Ideal S2048x64 .bf16) (rhs : FVec Ideal S64x64 .bf16) (r : Fin 2048) (d : Fin 64) :
    FloatOps.matmul dot_S2048x64_S64x64_S2048x64_1_0_0_1_n_n none lhs rhs (constant S2048x64 .f32 0x00000000#32) (ix2 r d)
      = ∑ e : Fin 64, lhs (ix2 r e) * rhs (ix2 e d) := by
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r d) ((contrEquiv1 dot_S2048x64_S64x64_S2048x64_1_0_0_1_n_n 64 rfl rfl).symm k) = ix2 r k := funext fun a => Fin.ext (by
    match a with
    | ⟨0, _⟩ => exact lhs_prj_0 _ _
    | ⟨1, _⟩ => exact (lhs_prj_1 _ _).trans hk)
  have er : dot_S2048x64_S64x64_S2048x64_1_0_0_1_n_n.rhsIdx (ix2 r d) ((contrEquiv1 dot_S2048x64_S64x64_S2048x64_1_0_0_1_n_n 64 rfl rfl).symm k) = ix2 k d := funext fun a => Fin.ext (by
    match a with
    | ⟨0, _⟩ => exact (rhs_prj_0 _ _).trans hk
    | ⟨1, _⟩ => exact rhs_prj_1 _ _)
  rw [el, er]

/-! ### The four step functions at an index -/

/-- The table sum after one more block, at (r, d): what it was plus the one-hot row of r against column d of the
    block. -/
theorem sumTbl_apply (i : grid1.Coords) (idx : Vec Ideal S2048 .i32) (blk : Vec Ideal S1000x64 .f32) (acc : Vec Ideal S2048x64 .f32)
    (r : Fin 2048) (d : Fin 64) :
    sumTbl (F := Ideal) i idx blk acc (ix2 r d)
      = acc (ix2 r d) + ∑ j : Fin 1000, (if 1000 * (i 1).val + j.val = (idx (ix1 r)).toNat then (1 : EReal) else 0) * blk (ix2 j d) := by
  unfold sumTbl k1_pay6
  show shapeCast S2048x64 (addf acc (matmul dot_S2048x1000_S1000x64_S2048x64_1_0_0_1_n_n none (k1_pay5 (F := Ideal) i idx)
      (truncf .bf16 (shapeCast S1000x64 blk shapeCasts_S1000x64_S1000x64) bitsLt_bf16_f32) (constant S2048x64 .f32 0x00000000#32)))
      shapeCasts_S2048x64_S2048x64 (ix2 r d) = _
  rw [shapeCast_self, shapeCast_self]
  show acc (ix2 r d) + FloatOps.matmul dot_S2048x1000_S1000x64_S2048x64_1_0_0_1_n_n none (k1_pay5 (F := Ideal) i idx)
      (truncf .bf16 blk bitsLt_bf16_f32) (constant S2048x64 .f32 0x00000000#32) (ix2 r d) = _
  rw [blockDot_apply]
  refine congrArg (acc (ix2 r d) + ·) (Finset.sum_congr rfl fun j _ => ?_)
  rw [onehot_apply]
  rfl

/-- The history sum after one more block, at (r, d). -/
theorem sumHis_apply (i : grid1.Coords) (idx : Vec Ideal S2048 .i32) (blk : Vec Ideal S1000x64 .f32) (acc : Vec Ideal S2048x64 .f32)
    (r : Fin 2048) (d : Fin 64) :
    sumHis (F := Ideal) i idx blk acc (ix2 r d)
      = acc (ix2 r d) + ∑ j : Fin 1000, (if 1000 * (i 1).val + j.val = (idx (ix1 r)).toNat then (1 : EReal) else 0) * blk (ix2 j d) := by
  unfold sumHis k1_pay7
  show shapeCast S2048x64 (addf acc (matmul dot_S2048x1000_S1000x64_S2048x64_1_0_0_1_n_n none (k1_pay5 (F := Ideal) i idx)
      (truncf .bf16 blk bitsLt_bf16_f32) (constant S2048x64 .f32 0x00000000#32)))
      shapeCasts_S2048x64_S2048x64 (ix2 r d) = _
  rw [shapeCast_self]
  show acc (ix2 r d) + FloatOps.matmul dot_S2048x1000_S1000x64_S2048x64_1_0_0_1_n_n none (k1_pay5 (F := Ideal) i idx)
      (truncf .bf16 blk bitsLt_bf16_f32) (constant S2048x64 .f32 0x00000000#32) (ix2 r d) = _
  rw [blockDot_apply]
  refine congrArg (acc (ix2 r d) + ·) (Finset.sum_congr rfl fun j _ => ?_)
  rw [onehot_apply]
  rfl

/-- The two sums as reset: zero everywhere. -/
theorem zeroTbl_apply (j : S2048x64.Idx) : zeroTbl (F := Ideal) j = 0 := by
  unfold zeroTbl k1_pay3
  show shapeCast S2048x64 (broadcast S2048x64 (Scalar.ofBits (F := Ideal) .f32 0x00000000#32)) shapeCasts_S2048x64_S2048x64 j = 0
  rw [shapeCast_self]
  exact Ideal.ofBits_zero_f32
theorem zeroHis_apply (j : S2048x64.Idx) : zeroHis (F := Ideal) j = 0 := by
  unfold zeroHis k1_pay4
  show shapeCast S2048x64 (broadcast S2048x64 (Scalar.ofBits (F := Ideal) .f32 0x00000000#32)) shapeCasts_S2048x64_S2048x64 j = 0
  rw [shapeCast_self]
  exact Ideal.ofBits_zero_f32

/-- The blend at an index: history sum times the first word plus table sum times the second. -/
theorem blend_apply (tbl his : Vec Ideal S2048x64 .f32) (j : S2048x64.Idx) :
    blend (F := Ideal) tbl his j = his j * Ideal.ofBits .f32 0x3D4CCCCD#32 + tbl j * Ideal.ofBits .f32 0x3F733333#32 := rfl

/-- The bias as one row, broadcast down the 2048 rows, reads the column's bias. -/
theorem biasRow_apply (b : Vec Ideal S64 .f32) (r : Fin 2048) (d : Fin 64) :
    broadcastTo S2048x64 (shapeCast S1x64 b shapeCasts_S64_S1x64) broadcasts_S1x64_S2048x64 (ix2 r d) = b (ix1 d) := by
  refine (broadcastTo_apply (shapeCast S1x64 b shapeCasts_S64_S1x64) broadcasts_S1x64_S2048x64 (ix2 r d)
    (ix2 (0 : Fin 1) d) (fun a => ?_)).trans ?_
  · match a with
    | ⟨0, _⟩ => rfl
    | ⟨1, _⟩ => rfl
  · refine shapeCast_apply b shapeCasts_S64_S1x64 (ix2 (0 : Fin 1) d) (ix1 d) ?_
    rw [Shape.rowMajor_val_one, Shape.rowMajor_val_two]
    show d.val = 0 * 64 + d.val
    omega

/-- The projection at (r, d): row r of the table sum against column d of the weight, plus the column's bias. -/
theorem project_apply (g : Vec Ideal S2048x64 .f32) (wt : Vec Ideal S64x64 .f32) (b : Vec Ideal S64 .f32) (r : Fin 2048) (d : Fin 64) :
    project (F := Ideal) g wt b (ix2 r d) = (∑ e : Fin 64, g (ix2 r e) * wt (ix2 e d)) + b (ix1 d) := by
  unfold project k1_pay2
  show (FloatOps.matmul (F := Ideal) dot_S2048x64_S64x64_S2048x64_1_0_0_1_n_n none (truncf (F := Ideal) .bf16 g bitsLt_bf16_f32)
      (truncf (F := Ideal) .bf16 (shapeCast S64x64 wt shapeCasts_S64x64_S64x64) bitsLt_bf16_f32) (constant (F := Ideal) S2048x64 .f32 0x00000000#32) (ix2 r d) : EReal)
      + (broadcastTo S2048x64 (shapeCast S1x64 b shapeCasts_S64_S1x64) broadcasts_S1x64_S2048x64 (ix2 r d) : EReal) = _
  rw [shapeCast_self, projDot_apply, biasRow_apply]
  rfl

/-! ## The blocks at a point, as entries of the arrays -/

variable (V : (c : Dev nD) → (b : Ref sig .tc) → Buf (Elt Ideal) ((c : Thread nD τ).loc b))

/-- The five arrays the region reads, as the region finds them, at their literal types. -/
abbrev idxArr (c : Dev nD) : IVec S4096 32 := V c main_arg8
abbrev tblArr (c : Dev nD) : FVec Ideal S50000x64 .f32 := V c main_v46
abbrev hisArr (c : Dev nD) : FVec Ideal S50000x64 .f32 := V c main_arg10
abbrev wtArr (c : Dev nD) : FVec Ideal S64x64 .f32 := V c main_v47
abbrev biasArr (c : Dev nD) : FVec Ideal S64 .f32 := V c main_arg3

/-- The printed index maps, decided once over the 100 points. Point t is batch tile t / 50, table block t % 50:
    the index window and the two result windows move with the tile, the two table windows with the block, the
    weight and the bias stay. -/
theorem idx_facts : ∀ t : Fin cfg1.N,
    win1_0.index t (0 : Fin 1) = t.val / 50
    ∧ win1_1.index t (0 : Fin 2) = t.val % 50 ∧ win1_1.index t (1 : Fin 2) = 0
    ∧ win1_2.index t (0 : Fin 2) = t.val % 50 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val / 50 ∧ win1_5.index t (1 : Fin 2) = 0
    ∧ win1_6.index t (0 : Fin 2) = t.val / 50 ∧ win1_6.index t (1 : Fin 2) = 0
    ∧ ((grid1.coords t) 1).val = t.val % 50 :=
  (by decide +kernel : ∀ t : Fin grid1.N, _)

/-- Entry r of the index block at point t is entry 2048 (t / 50) + r of the index vector. -/
theorem idxAt_apply (c : Dev nD) (t : Fin cfg1.N) (r : Fin 2048) (k : Fin 4096) (hk : k.val = 2048 * (t.val / 50) + r.val) :
    idxAt V c t (ix1 r) = idxArr V c (ix1 k) := by
  obtain ⟨e, -⟩ := idx_facts t
  unfold idxAt iblk
  rw [View.read_apply]
  show V c main_arg8 _ = V c main_arg8 _
  congr 1
  funext a
  apply Fin.ext
  match a with
  | ⟨0, _⟩ => show win1_0.index t (0 : Fin 1) * 2048 + 1 * r.val = k.val; rw [e, hk]; omega

/-- Entry (j, d) of the table block at point t is row 1000 (t % 50) + j of the table. -/
theorem tblAt_apply (c : Dev nD) (t : Fin cfg1.N) (j : Fin 1000) (d : Fin 64) (k : Fin 50000) (hk : k.val = 1000 * (t.val % 50) + j.val) :
    tblAt V c t (ix2 j d) = tblArr V c (ix2 k d) := by
  obtain ⟨-, e0, e1, -⟩ := idx_facts t
  unfold tblAt iblk
  rw [View.read_apply]
  show V c main_v46 _ = V c main_v46 _
  congr 1
  funext a
  apply Fin.ext
  match a with
  | ⟨0, _⟩ => show win1_1.index t (0 : Fin 2) * 1000 + 1 * j.val = k.val; rw [e0, hk]; omega
  | ⟨1, _⟩ => show win1_1.index t (1 : Fin 2) * 64 + 1 * d.val = d.val; rw [e1]; omega

/-- Entry (j, d) of the history block at point t is row 1000 (t % 50) + j of the history table. -/
theorem hisAt_apply (c : Dev nD) (t : Fin cfg1.N) (j : Fin 1000) (d : Fin 64) (k : Fin 50000) (hk : k.val = 1000 * (t.val % 50) + j.val) :
    hisAt V c t (ix2 j d) = hisArr V c (ix2 k d) := by
  obtain ⟨-, -, -, e0, e1, -⟩ := idx_facts t
  unfold hisAt iblk
  rw [View.read_apply]
  show V c main_arg10 _ = V c main_arg10 _
  congr 1
  funext a
  apply Fin.ext
  match a with
  | ⟨0, _⟩ => show win1_2.index t (0 : Fin 2) * 1000 + 1 * j.val = k.val; rw [e0, hk]; omega
  | ⟨1, _⟩ => show win1_2.index t (1 : Fin 2) * 64 + 1 * d.val = d.val; rw [e1]; omega

/-- The weight block at any point is the whole weight. -/
theorem wtAt_apply (c : Dev nD) (t : Fin cfg1.N) (e : Fin 64) (d : Fin 64) : wtAt V c t (ix2 e d) = wtArr V c (ix2 e d) := by
  obtain ⟨-, -, -, -, -, e0, e1, -⟩ := idx_facts t
  unfold wtAt iblk
  rw [View.read_apply]
  show V c main_v47 _ = V c main_v47 _
  congr 1
  funext a
  apply Fin.ext
  match a with
  | ⟨0, _⟩ => show win1_3.index t (0 : Fin 2) * 64 + 1 * e.val = e.val; rw [e0]; omega
  | ⟨1, _⟩ => show win1_3.index t (1 : Fin 2) * 64 + 1 * d.val = d.val; rw [e1]; omega

/-- The bias block at any point is the whole bias. -/
theorem biasAt_apply (c : Dev nD) (t : Fin cfg1.N) (d : Fin 64) : biasAt V c t (ix1 d) = biasArr V c (ix1 d) := by
  obtain ⟨-, -, -, -, -, -, -, e0, -⟩ := idx_facts t
  unfold biasAt iblk
  rw [View.read_apply]
  show V c main_arg3 _ = V c main_arg3 _
  congr 1
  funext a
  apply Fin.ext
  match a with
  | ⟨0, _⟩ => show win1_4.index t (0 : Fin 1) * 64 + 1 * d.val = d.val; rw [e0]; omega

/-! ## The running sums in closed form -/

/-- Entry m of the index vector, the zero word past its end: a function of a plain number. -/
def wordAt (I : IVec S4096 32) (m : ℕ) : BitVec 32 := if h : m < 4096 then I (ix1 ⟨m, h⟩) else 0#32
/-- Row n, column d of a table of 50000 rows, zero past its end: a function of a plain number. -/
def rowAt (T : FVec Ideal S50000x64 .f32) (d : Fin 64) (n : ℕ) : EReal := if h : n < 50000 then T (ix2 ⟨n, h⟩ d) else 0

/-- What table block k adds to row p's sum in column d: the one-hot entries of the block's 1000 row numbers
    1000 k + j against the block's rows. -/
def contrib (T : FVec Ideal S50000x64 .f32) (p : ℕ) (d : Fin 64) (k : ℕ) : EReal :=
  ∑ j : Fin 1000, (if 1000 * k + j.val = p then (1 : EReal) else 0) * rowAt T d (1000 * k + j.val)

theorem N_eq : cfg1.N = 100 := by decide

/-- One more block of the averaged table at point t, at (r, d): block t % 50's contribution to the row that entry
    2048 (t / 50) + r of the index vector selects. -/
theorem stepTbl (c : Dev nD) (t : Fin cfg1.N) (acc : Vec Ideal S2048x64 .f32) (r : Fin 2048) (d : Fin 64) :
    sumTbl (F := Ideal) (grid1.coords t) (idxAt V c t) (tblAt V c t) acc (ix2 r d)
      = acc (ix2 r d) + contrib (tblArr V c) (wordAt (idxArr V c) (2048 * (t.val / 50) + r.val)).toNat d (t.val % 50) := by
  have ht : t.val < 100 := N_eq ▸ t.isLt
  have hr := r.isLt
  have hm : 2048 * (t.val / 50) + r.val < 4096 := by omega
  obtain ⟨-, -, -, -, -, -, -, -, -, -, -, -, hcoord⟩ := idx_facts t
  refine (sumTbl_apply (grid1.coords t) (idxAt V c t) (tblAt V c t) acc r d).trans ?_
  refine congrArg (acc (ix2 r d) + ·) (Finset.sum_congr rfl fun j _ => ?_)
  have hj := j.isLt
  have hn : 1000 * (t.val % 50) + j.val < 50000 := by omega
  rw [idxAt_apply V c t r ⟨2048 * (t.val / 50) + r.val, hm⟩ rfl,
    tblAt_apply V c t j d ⟨1000 * (t.val % 50) + j.val, hn⟩ rfl, hcoord]
  unfold wordAt rowAt
  rw [dif_pos hm, dif_pos hn]

/-- The same for the history table. -/
theorem stepHis (c : Dev nD) (t : Fin cfg1.N) (acc : Vec Ideal S2048x64 .f32) (r : Fin 2048) (d : Fin 64) :
    sumHis (F := Ideal) (grid1.coords t) (idxAt V c t) (hisAt V c t) acc (ix2 r d)
      = acc (ix2 r d) + contrib (hisArr V c) (wordAt (idxArr V c) (2048 * (t.val / 50) + r.val)).toNat d (t.val % 50) := by
  have ht : t.val < 100 := N_eq ▸ t.isLt
  have hr := r.isLt
  have hm : 2048 * (t.val / 50) + r.val < 4096 := by omega
  obtain ⟨-, -, -, -, -, -, -, -, -, -, -, -, hcoord⟩ := idx_facts t
  refine (sumHis_apply (grid1.coords t) (idxAt V c t) (hisAt V c t) acc r d).trans ?_
  refine congrArg (acc (ix2 r d) + ·) (Finset.sum_congr rfl fun j _ => ?_)
  have hj := j.isLt
  have hn : 1000 * (t.val % 50) + j.val < 50000 := by omega
  rw [idxAt_apply V c t r ⟨2048 * (t.val / 50) + r.val, hm⟩ rfl,
    hisAt_apply V c t j d ⟨1000 * (t.val % 50) + j.val, hn⟩ rfl, hcoord]
  unfold wordAt rowAt
  rw [dif_pos hm, dif_pos hn]

/-- At the first block of a tile both sums are that block's contribution alone. -/
theorem sums_first (c : Dev nD) (t : Fin cfg1.N) (h : t.val % 50 = 0) (r : Fin 2048) (d : Fin 64) :
    (sumsAt V c t.val t.isLt).1 (ix2 r d)
        = contrib (tblArr V c) (wordAt (idxArr V c) (2048 * (t.val / 50) + r.val)).toNat d (t.val % 50)
    ∧ (sumsAt V c t.val t.isLt).2 (ix2 r d)
        = contrib (hisArr V c) (wordAt (idxArr V c) (2048 * (t.val / 50) + r.val)).toNat d (t.val % 50) := by
  rw [sumsAt_first V c t h]
  dsimp only
  refine ⟨?_, ?_⟩
  · rw [stepTbl V c t zeroTbl r d, zeroTbl_apply, zero_add]
  · rw [stepHis V c t zeroHis r d, zeroHis_apply, zero_add]

/-- At any other block both sums are what the point before left plus that block's contribution. -/
theorem sums_next (c : Dev nD) (n : ℕ) (hn : n + 1 < cfg1.N) (h : ¬(n + 1) % 50 = 0) (r : Fin 2048) (d : Fin 64) :
    (sumsAt V c (n + 1) hn).1 (ix2 r d)
        = (sumsAt V c n (Nat.lt_of_succ_lt hn)).1 (ix2 r d)
          + contrib (tblArr V c) (wordAt (idxArr V c) (2048 * ((n + 1) / 50) + r.val)).toNat d ((n + 1) % 50)
    ∧ (sumsAt V c (n + 1) hn).2 (ix2 r d)
        = (sumsAt V c n (Nat.lt_of_succ_lt hn)).2 (ix2 r d)
          + contrib (hisArr V c) (wordAt (idxArr V c) (2048 * ((n + 1) / 50) + r.val)).toNat d ((n + 1) % 50) := by
  have hs : sumsAt V c (n + 1) hn
      = (sumTbl (F := Ideal) (grid1.coords ⟨n + 1, hn⟩) (idxAt V c ⟨n + 1, hn⟩) (tblAt V c ⟨n + 1, hn⟩) (sumsAt V c n (Nat.lt_of_succ_lt hn)).1,
         sumHis (F := Ideal) (grid1.coords ⟨n + 1, hn⟩) (idxAt V c ⟨n + 1, hn⟩) (hisAt V c ⟨n + 1, hn⟩) (sumsAt V c n (Nat.lt_of_succ_lt hn)).2) :=
    sumsAt_next V c ⟨n + 1, hn⟩ h
  rw [hs]
  dsimp only
  exact ⟨stepTbl V c ⟨n + 1, hn⟩ (sumsAt V c n (Nat.lt_of_succ_lt hn)).1 r d,
    stepHis V c ⟨n + 1, hn⟩ (sumsAt V c n (Nat.lt_of_succ_lt hn)).2 r d⟩

/-- THE SUMS AFTER POSITION n, at (r, d): the contributions of the table blocks 0 .. n % 50 to the row that entry
    2048 (n / 50) + r of the index vector selects. By induction over the positions; nothing is enumerated. -/
theorem sums_closed (c : Dev nD) (r : Fin 2048) (d : Fin 64) : ∀ (n : ℕ) (hn : n < cfg1.N),
    (sumsAt V c n hn).1 (ix2 r d)
        = ∑ k ∈ Finset.range (n % 50 + 1), contrib (tblArr V c) (wordAt (idxArr V c) (2048 * (n / 50) + r.val)).toNat d k
    ∧ (sumsAt V c n hn).2 (ix2 r d)
        = ∑ k ∈ Finset.range (n % 50 + 1), contrib (hisArr V c) (wordAt (idxArr V c) (2048 * (n / 50) + r.val)).toNat d k := by
  intro n
  induction n with
  | zero =>
    intro hn
    obtain ⟨a, b⟩ := sums_first V c ⟨0, hn⟩ rfl r d
    refine ⟨a.trans ?_, b.trans ?_⟩
    · show _ = ∑ k ∈ Finset.range 1, _
      rw [Finset.sum_range_one]
      rfl
    · show _ = ∑ k ∈ Finset.range 1, _
      rw [Finset.sum_range_one]
      rfl
  | succ n ih =>
    intro hn
    by_cases h : (n + 1) % 50 = 0
    · obtain ⟨a, b⟩ := sums_first V c ⟨n + 1, hn⟩ h r d
      refine ⟨a.trans ?_, b.trans ?_⟩
      · show contrib _ _ d ((n + 1) % 50) = _
        rw [h, Nat.zero_add, Finset.sum_range_one]
      · show contrib _ _ d ((n + 1) % 50) = _
        rw [h, Nat.zero_add, Finset.sum_range_one]
    · obtain ⟨a, b⟩ := sums_next V c n hn h r d
      obtain ⟨ia, ib⟩ := ih (Nat.lt_of_succ_lt hn)
      have e1 : (n + 1) / 50 = n / 50 := by omega
      have e2 : (n + 1) % 50 = n % 50 + 1 := by omega
      refine ⟨a.trans ?_, b.trans ?_⟩
      · rw [ia, e1, e2]
        exact (Finset.sum_range_succ _ _).symm
      · rw [ib, e1, e2]
        exact (Finset.sum_range_succ _ _).symm

/-- All 50 blocks' contributions to a row p below 50000 make the table's row p: the blocked one-hot law. -/
theorem contribs_eq_row (T : FVec Ideal S50000x64 .f32) (p : ℕ) (hp : p < 50000) (d : Fin 64) :
    ∑ k ∈ Finset.range 50, contrib T p d k = T (ix2 ⟨p, hp⟩ d) := by
  rw [Finset.sum_range]
  unfold contrib
  rw [Spec.sum_blocks_indicator_mul (K := 50) (B := 1000) (by decide) (fun k j => rowAt T d (1000 * k.val + j.val)) p (by omega)]
  show rowAt T d (1000 * (p / 1000) + p % 1000) = _
  rw [Nat.div_add_mod]
  unfold rowAt
  rw [dif_pos hp]

/-- AT A LAST BLOCK (t % 50 = 49) both sums are gathered rows: row R = 2048 (t / 50) + r of the gather of each
    table by the index vector, the index words being in range. -/
theorem sums_last (c : Dev nD) (h : Spec.InRange 50000 (idxArr V c)) (t : Fin cfg1.N) (h99 : t.val % 50 = 49)
    (r : Fin 2048) (d : Fin 64) (R : Fin 4096) (hR : R.val = 2048 * (t.val / 50) + r.val) :
    (sumsAt V c t.val t.isLt).1 (ix2 r d) = Spec.gatherI (tblArr V c) (idxArr V c) (ix2 R d)
    ∧ (sumsAt V c t.val t.isLt).2 (ix2 r d) = Spec.gatherI (hisArr V c) (idxArr V c) (ix2 R d) := by
  obtain ⟨a, b⟩ := sums_closed V c r d t.val t.isLt
  have hw : wordAt (idxArr V c) (2048 * (t.val / 50) + r.val) = idxArr V c (ix1 R) := by
    unfold wordAt
    rw [dif_pos (hR ▸ R.isLt)]
    exact congrArg (fun k => idxArr V c (ix1 k)) (Fin.ext hR.symm)
  have hp : (idxArr V c (ix1 R)).toNat < 50000 := h.toNat_lt (ix1 R)
  have hrow : (⟨(idxArr V c (ix1 R)).toNat, hp⟩ : Fin 50000) = Spec.rowOf 50000 (by decide) (idxArr V c (ix1 R)) :=
    Fin.ext (Spec.rowOf_val_of_lt (by decide) hp).symm
  rw [h99, hw] at a b
  refine ⟨a.trans ?_, b.trans ?_⟩
  · rw [contribs_eq_row (tblArr V c) _ hp d, hrow]; rfl
  · rw [contribs_eq_row (hisArr V c) _ hp d, hrow]; rfl

/-! ## From blocks to the arrays -/

/-- What the first result's buffer holds after a last block, entry x, is entry k of the projected gather, k being
    x moved down by the tile's 2048 (t / 50) rows. -/
theorem proj_point (c : Dev nD) (h : Spec.InRange 50000 (idxArr V c)) (t : Fin cfg1.N) (h99 : t.val % 50 = 49)
    (x : S2048x64.Idx) (k : S4096x64.Idx) (hk0 : (k 0).val = 2048 * (t.val / 50) + (x 0).val) (hk1 : (k 1).val = (x 1).val) :
    projAt V c t x = Spec.projWt (Spec.gatherI (tblArr V c) (idxArr V c)) (wtArr V c) (biasArr V c) k := by
  obtain ⟨r, d, rfl⟩ : ∃ (r : Fin 2048) (d : Fin 64), x = ix2 r d := ⟨x 0, x 1, eq_ix2 x⟩
  obtain ⟨R, D, rfl⟩ : ∃ (R : Fin 4096) (D : Fin 64), k = ix2 R D := ⟨k 0, k 1, eq_ix2 k⟩
  obtain rfl : D = d := Fin.ext hk1
  have hR : R.val = 2048 * (t.val / 50) + r.val := hk0
  unfold projAt
  refine (project_apply (sumsAt V c t.val t.isLt).1 (wtAt V c t) (biasAt V c t) r D).trans ?_
  rw [Spec.projWt_apply, biasAt_apply V c t D]
  refine congrArg (· + biasArr V c (ix1 D)) (Finset.sum_congr rfl fun e _ => ?_)
  rw [(sums_last V c h t h99 r e R hR).1, wtAt_apply V c t e D]

/-- What the second result's buffer holds after a last block, entry x, is entry k of the blended gathers. -/
theorem blend_point (c : Dev nD) (h : Spec.InRange 50000 (idxArr V c)) (t : Fin cfg1.N) (h99 : t.val % 50 = 49)
    (x : S2048x64.Idx) (k : S4096x64.Idx) (hk0 : (k 0).val = 2048 * (t.val / 50) + (x 0).val) (hk1 : (k 1).val = (x 1).val) :
    blendAt V c t x = Spec.blendOf (Spec.gatherI (tblArr V c) (idxArr V c)) (Spec.gatherI (hisArr V c) (idxArr V c)) k := by
  obtain ⟨r, d, rfl⟩ : ∃ (r : Fin 2048) (d : Fin 64), x = ix2 r d := ⟨x 0, x 1, eq_ix2 x⟩
  obtain ⟨R, D, rfl⟩ : ∃ (R : Fin 4096) (D : Fin 64), k = ix2 R D := ⟨k 0, k 1, eq_ix2 k⟩
  obtain rfl : D = d := Fin.ext hk1
  have hR : R.val = 2048 * (t.val / 50) + r.val := hk0
  obtain ⟨a, b⟩ := sums_last V c h t h99 r D R hR
  unfold blendAt
  refine (blend_apply (sumsAt V c t.val t.isLt).1 (sumsAt V c t.val t.isLt).2 (ix2 r D)).trans ?_
  rw [a, b]
  rfl

/-- WHAT A LAST BLOCK WRITES BACK through the first result window is its block of the projected gather. -/
theorem flushed5_eq (c : Dev nD) (h : Spec.InRange 50000 (idxArr V c)) (t : Fin cfg1.N) (hf : (cfg1.win 5).flush t = true) :
    (dat (F := Ideal) V c).flushed 5 t
      = ((cfg1.win 5).blk t).view.read (Elt Ideal) (Spec.projWt (Spec.gatherI (tblArr V c) (idxArr V c)) (wtArr V c) (biasArr V c)) := by
  have h99 : t.val % 50 = 49 := (flush1_5 t).mp hf
  obtain ⟨-, -, -, -, -, -, -, -, e0, e1, -⟩ := idx_facts t
  show (cfg1.win 5).cut (grid1.coords t) ((dat (F := Ideal) V c).after 5 t) = _
  rw [dat_after5]
  funext y
  rw [View.read_apply]
  refine proj_point V c h t h99 _ _ ?_ ?_
  · show win1_5.index t (0 : Fin 2) * 2048 + 1 * (y 0).val = 2048 * (t.val / 50) + (y 0).val
    rw [e0]; omega
  · show win1_5.index t (1 : Fin 2) * 64 + 1 * (y 1).val = (y 1).val
    rw [e1]; omega

/-- And through the second result window its block of the blended gathers. -/
theorem flushed6_eq (c : Dev nD) (h : Spec.InRange 50000 (idxArr V c)) (t : Fin cfg1.N) (hf : (cfg1.win 6).flush t = true) :
    (dat (F := Ideal) V c).flushed 6 t
      = ((cfg1.win 6).blk t).view.read (Elt Ideal) (Spec.blendOf (Spec.gatherI (tblArr V c) (idxArr V c)) (Spec.gatherI (hisArr V c) (idxArr V c))) := by
  have h99 : t.val % 50 = 49 := (flush1_6 t).mp hf
  obtain ⟨-, -, -, -, -, -, -, -, -, -, e0, e1, -⟩ := idx_facts t
  show (cfg1.win 6).cut (grid1.coords t) ((dat (F := Ideal) V c).after 6 t) = _
  rw [dat_after6]
  funext y
  rw [View.read_apply]
  refine blend_point V c h t h99 _ _ ?_ ?_
  · show win1_6.index t (0 : Fin 2) * 2048 + 1 * (y 0).val = 2048 * (t.val / 50) + (y 0).val
    rw [e0]; omega
  · show win1_6.index t (1 : Fin 2) * 64 + 1 * (y 1).val = (y 1).val
    rw [e1]; omega

/-- An entry of a result array is in point t's block exactly when each coordinate is in the block's range. -/
theorem mem_blk5 (t : Fin cfg1.N) (i : S4096x64.Idx) :
    i ∈ ((cfg1.win 5).blk t).view.set ↔ ∀ a : Fin 2, win1_5.index t a * S2048x64.size a ≤ (i a).val ∧ (i a).val < win1_5.index t a * S2048x64.size a + S2048x64.size a := by
  show i ∈ ((View.whole main_v49_0).slice (win1_5.rect t)).set ↔ _
  rw [View.set_slice_whole, Rect.mem_set_unit]
  exact Iff.rfl
theorem mem_blk6 (t : Fin cfg1.N) (i : S4096x64.Idx) :
    i ∈ ((cfg1.win 6).blk t).view.set ↔ ∀ a : Fin 2, win1_6.index t a * S2048x64.size a ≤ (i a).val ∧ (i a).val < win1_6.index t a * S2048x64.size a + S2048x64.size a := by
  show i ∈ ((View.whole main_v49_1).slice (win1_6.rect t)).set ↔ _
  rw [View.set_slice_whole, Rect.mem_set_unit]
  exact Iff.rfl

/-- THE COVER: row i of a result lies in the block the last point of its tile writes back, t = 50 (i / 2048) + 49. -/
theorem cover5 (i : S4096x64.Idx) : ∃ t : Fin cfg1.N, (cfg1.win 5).flush t = true ∧ i ∈ ((cfg1.win 5).blk t).view.set := by
  have hi0 : (i 0).val < 4096 := (i 0).isLt
  have hi1 : (i 1).val < 64 := (i 1).isLt
  have hlt : 50 * ((i 0).val / 2048) + 49 < cfg1.N := by rw [N_eq]; omega
  obtain ⟨-, -, -, -, -, -, -, -, e0, e1, -⟩ := idx_facts ⟨50 * ((i 0).val / 2048) + 49, hlt⟩
  have e0' : win1_5.index ⟨50 * ((i 0).val / 2048) + 49, hlt⟩ (0 : Fin 2) = (50 * ((i 0).val / 2048) + 49) / 50 := e0
  refine ⟨⟨50 * ((i 0).val / 2048) + 49, hlt⟩, (flush1_5 _).mpr (by show (50 * ((i 0).val / 2048) + 49) % 50 = 49; omega), ?_⟩
  rw [mem_blk5]
  intro a
  match a with
  | ⟨0, _⟩ =>
    show win1_5.index ⟨50 * ((i 0).val / 2048) + 49, hlt⟩ (0 : Fin 2) * 2048 ≤ (i 0).val
      ∧ (i 0).val < win1_5.index ⟨50 * ((i 0).val / 2048) + 49, hlt⟩ (0 : Fin 2) * 2048 + 2048
    rw [e0']; omega
  | ⟨1, _⟩ =>
    show win1_5.index ⟨50 * ((i 0).val / 2048) + 49, hlt⟩ (1 : Fin 2) * 64 ≤ (i 1).val
      ∧ (i 1).val < win1_5.index ⟨50 * ((i 0).val / 2048) + 49, hlt⟩ (1 : Fin 2) * 64 + 64
    rw [e1]; omega
theorem cover6 (i : S4096x64.Idx) : ∃ t : Fin cfg1.N, (cfg1.win 6).flush t = true ∧ i ∈ ((cfg1.win 6).blk t).view.set := by
  have hi0 : (i 0).val < 4096 := (i 0).isLt
  have hi1 : (i 1).val < 64 := (i 1).isLt
  have hlt : 50 * ((i 0).val / 2048) + 49 < cfg1.N := by rw [N_eq]; omega
  obtain ⟨-, -, -, -, -, -, -, -, -, -, e0, e1, -⟩ := idx_facts ⟨50 * ((i 0).val / 2048) + 49, hlt⟩
  have e0' : win1_6.index ⟨50 * ((i 0).val / 2048) + 49, hlt⟩ (0 : Fin 2) = (50 * ((i 0).val / 2048) + 49) / 50 := e0
  refine ⟨⟨50 * ((i 0).val / 2048) + 49, hlt⟩, (flush1_6 _).mpr (by show (50 * ((i 0).val / 2048) + 49) % 50 = 49; omega), ?_⟩
  rw [mem_blk6]
  intro a
  match a with
  | ⟨0, _⟩ =>
    show win1_6.index ⟨50 * ((i 0).val / 2048) + 49, hlt⟩ (0 : Fin 2) * 2048 ≤ (i 0).val
      ∧ (i 0).val < win1_6.index ⟨50 * ((i 0).val / 2048) + 49, hlt⟩ (0 : Fin 2) * 2048 + 2048
    rw [e0']; omega
  | ⟨1, _⟩ =>
    show win1_6.index ⟨50 * ((i 0).val / 2048) + 49, hlt⟩ (1 : Fin 2) * 64 ≤ (i 1).val
      ∧ (i 1).val < win1_6.index ⟨50 * ((i 0).val / 2048) + 49, hlt⟩ (1 : Fin 2) * 64 + 64
    rw [e1]; omega

/-- THE FIRST RESULT ARRAY after the region: the gathered table rows projected through the weight, plus the bias. -/
theorem arrAt_proj (c : Dev nD) (h : Spec.InRange 50000 (V c main_arg8)) :
    (dat (F := Ideal) V c).arrAt 5 cfg1.N
      = Spec.projWt (Spec.gatherI (V c main_v46) (V c main_arg8)) (V c main_v47) (V c main_arg3) :=
  (dat (F := Ideal) V c).arrAt_eq_of_cover 5 (Spec.projWt (Spec.gatherI (tblArr V c) (idxArr V c)) (wtArr V c) (biasArr V c))
    (fun t hf => flushed5_eq V c h t hf) cover5

/-- THE SECOND RESULT ARRAY after the region: the momentum blend of the gathered table rows and history rows. -/
theorem arrAt_blend (c : Dev nD) (h : Spec.InRange 50000 (V c main_arg8)) :
    (dat (F := Ideal) V c).arrAt 6 cfg1.N
      = Spec.blendOf (Spec.gatherI (V c main_v46) (V c main_arg8)) (Spec.gatherI (V c main_arg10) (V c main_arg8)) :=
  (dat (F := Ideal) V c).arrAt_eq_of_cover 6 (Spec.blendOf (Spec.gatherI (tblArr V c) (idxArr V c)) (Spec.gatherI (hisArr V c) (idxArr V c)))
    (fun t hf => flushed6_eq V c h t hf) cover6

end Cert.KernelIdeal.RegionI

end
-- ==== Proof.Ref.lean ====
/-
  The reference program's four results as the specification's functions of its argument arrays.

  The reference first builds, from the two embedding tables and the sparse adjacency (row numbers, column numbers,
  values), the layer-averaged table: three rounds of a sparse product, the running sum divided by four. Its first
  100000 rows serve the user side and its last 50000 rows the item side. Nothing below looks inside that
  computation: each half is ONE function of the five arrays, named here and carried whole.

  What is read here is what happens after it. An index vector of 4096 words is prepared for a row gather: a word
  that reads negative has the number of rows added (the wrap of negative indices), and the vector is made a column.
  The gather then reads each start index as a signed integer and clamps it so that the one-row slice fits, i.e. into
  [0, rows - 1]. On an index vector whose words all lie in [0, rows) neither step does anything: the wrap keeps a
  word that does not read negative, and the clamp keeps a row number that is at most rows - 1. So row r of the gather
  is the table's row whose number is the r-th index word, which is the specification's gather.

  The blend multiplies the gathered history rows by the f32 word 0x3D4CCCCD and the gathered table rows by the word
  0x3F733333 and adds, entry by entry: the specification's blend, with the same two words.

  The projection contracts the gathered rows with the transpose of the 64 x 64 weight and adds the bias along the
  columns. The transposed weight read at (e, d) is the weight at (d, e); with that, entry (r, d) is the sum over e
  of gathered (r, e) times weight (d, e), plus bias d: the specification's projection at the transposed weight.
-/
import proofs.«404517_j50560355008860_1_alg».proof.Defs
import proofs.«404517_j50560355008860_1_alg».proof.Proof.Gen.ReferenceIdeal.Run
import proofs.«404517_j50560355008860_1_alg».proof.Proof.Gen.ReferenceIdeal.Read
import proofs.«404517_j50560355008860_1_alg».proof.Proof.Gen.Pre_finite_inputs
import proofs.«404517_j50560355008860_1_alg».proof.Proof.Spec
import Idealize.ShloMosaic.Lib.ValueIdx
import Idealize.ShloMosaic.Lib.Affine
import Idealize.ShloMosaic.Lib.Pipeline.Value

noncomputable section

namespace Cert.Bridge.Ref

open Idealize.ShloMosaic Idealize.ShloMosaic.ValueIdx Idealize.ShloMosaic.TcCoe Idealize.SL.Sem
open Cert.ReferenceIdeal Cert.ReferenceIdeal.Gen Cert.ReferenceIdeal.Read
open Cert.Spec (InRange rowOf gatherU gatherI blendOf projWt)

/-! ## A row gather read at an entry -/

section RowGather
variable {α : Type}

/-- The dimension numbers of a row gather: an operand of N rows and C columns, R start indices as a column,
    the result's row r the operand's row at start index r (one row, all C columns, per start index). -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (r, d) of a row gather: the operand at column d of the row whose number is start index r, read signed
    and clamped into [0, N - 1]. On the row axis the operand index is the clamped start alone (the axis is
    collapsed, so no offset); on the column axis it is the result's column alone (no start index names it). -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (d : Fin C) :
    Host.gather (rowDims N R C wf) x idx (ix2 r d)
      = x (ix2 ⟨min (idx (ix2 r ⟨0, Nat.one_pos⟩)).toInt.toNat (N - 1), by omega⟩ d) := by
  unfold Host.gather
  congr 1
  funext a
  refine Fin.ext ?_
  match a with
  | ⟨0, _⟩ =>
    show (rowDims N R C wf).start (ix2 r d) idx 0 + (rowDims N R C wf).batchCoord (ix2 r d) 0
      + (rowDims N R C wf).offCoord (ix2 r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r d) ⟨List.idxOf (0 : Fin 2) (rowDims N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowDims N R C wf).start (ix2 r d) idx 1 + (rowDims N R C wf).batchCoord (ix2 r d) 1
      + (rowDims N R C wf).offCoord (ix2 r d) 1 = _
    rw [GatherDims.batchCoord_eq_zero _ _ _ List.not_mem_nil]
    unfold GatherDims.start
    rw [dif_neg (show ¬(1 : Fin 2) ∈ (rowDims N R C wf).startIndexMap from
      fun h => absurd (List.mem_singleton.mp h) (Fin.ne_of_val_ne Nat.one_ne_zero))]
    unfold GatherDims.offCoord
    rw [dif_pos (show (1 : Fin 2) ∈ (rowDims N R C wf).sKept from
      (GatherDims.mem_sKept _ _).mpr ⟨fun h => absurd (List.mem_singleton.mp h) (Fin.ne_of_val_ne Nat.one_ne_zero),
        List.not_mem_nil⟩)]
    simp only [Nat.zero_add]
    rfl

end RowGather

/-- The wrap of negative indices keeps a word that does not read negative: the test "below zero" is off, so the
    select takes the word itself and not the word plus the number of rows. -/
theorem wrap_of_nonneg (w a : BitVec 32) (h : 0 ≤ w.toInt) :
    Scalar.select (IntOp.cmpi .slt w 0#32) a w = w := by
  unfold Scalar.select
  rw [if_neg]
  intro hc
  have h2 := IntOp.cmpi_slt.mp hc
  rw [show (0#32 : BitVec 32).toInt = 0 from by decide] at h2
  omega

/-! ## The transposed weight -/

/-- The transposed weight: its entry (e, d) is the weight's entry (d, e). -/
def wTOf {α : Type} (W : (⟨2, ![64, 64]⟩ : Shape).Idx → α) : (⟨2, ![64, 64]⟩ : Shape).Idx → α :=
  fun j => W (ix2 (j 1) (j 0))

theorem wTOf_apply {α : Type} (W : (⟨2, ![64, 64]⟩ : Shape).Idx → α) (e d : Fin 64) :
    wTOf W (ix2 e d) = W (ix2 d e) := rfl

/-- The transpose operation with the two axes exchanged is that function, whichever proof of the shape relation
    it carries. -/
theorem transpose_eq_wTOf {α : Type} (W : (⟨2, ![64, 64]⟩ : Shape).Idx → α)
    (h : (⟨2, ![64, 64]⟩ : Shape).Transposes [1, 0] ⟨2, ![64, 64]⟩) :
    transpose ⟨2, ![64, 64]⟩ [1, 0] W h = wTOf W := by
  funext j
  exact transpose_apply [1, 0] W h j (ix2 (j 1) (j 0)) (fun b => match b with
    | ⟨0, _⟩ => rfl
    | ⟨1, _⟩ => rfl)

/-! ## The layer-averaged table, carried whole -/

/-- The first 100000 rows of the layer-averaged table, as ONE function of the two embedding tables and the
    adjacency's row numbers, column numbers and values. It is the reference's own composed term for that stage
    (concatenate, three rounds of gather, scale, scatter-add and accumulate, divide by four, take the first rows);
    nothing in this module opens it. -/
def uAllOf (ue : FVec Ideal S100000x64 .f32) (ie : FVec Ideal S50000x64 .f32) (rows cols : IVec S3200000 32)
    (vals : FVec Ideal S3200000 .f32) : FVec Ideal S100000x64 .f32 :=
  val_main_v45 (F := Ideal) ue ie rows cols vals

/-- The last 50000 rows of the same table, likewise one function of the five arrays. -/
def iAllOf (ue : FVec Ideal S100000x64 .f32) (ie : FVec Ideal S50000x64 .f32) (rows cols : IVec S3200000 32)
    (vals : FVec Ideal S3200000 .f32) : FVec Ideal S50000x64 .f32 :=
  val_main_v46 (F := Ideal) ue ie rows cols vals

/-! ## The index preparation -/

/-- The reference's preparation of a vector of 4096 index words for a gather among n rows: a word that reads
    negative has n added, and the vector is made a column of start indices. -/
def wrapCol (n : BitVec 32) (x : IVec S4096 32) : IVec S4096x1 32 :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 n))) x)

/-- Entry r of the prepared column is the r-th index word when that word does not read negative. -/
theorem wrapCol_apply (n : BitVec 32) (x : IVec S4096 32) (r : Fin 4096) (h : 0 ≤ (x (ix1 r)).toInt) :
    wrapCol n x (ix2 r ⟨0, Nat.one_pos⟩) = x (ix1 r) := by
  unfold wrapCol
  refine (broadcastInDim_apply _ bcast_S4096_S4096x1_0 _ (ix2 r ⟨0, Nat.one_pos⟩) (ix1 r) (fun a => match a with
    | ⟨0, _⟩ => by show r.val = if (4096 : Nat) = 1 then 0 else r.val; rw [if_neg (by decide)])).trans ?_
  exact wrap_of_nonneg _ _ h

/-- The four prepared columns of the program are that preparation: of the user indices among 100000 rows (twice:
    once for the averaged table, once for the history table) and of the item indices among 50000 rows (twice). -/
theorem v52_eq (x7 : IVec S4096 32) : val_main_v52 (F := Ideal) x7 = wrapCol 100000#32 x7 := rfl
theorem v66_eq (x7 : IVec S4096 32) : val_main_v66 (F := Ideal) x7 = wrapCol 100000#32 x7 := rfl
theorem v59_eq (x8 : IVec S4096 32) : val_main_v59 (F := Ideal) x8 = wrapCol 50000#32 x8 := rfl
theorem v78_eq (x8 : IVec S4096 32) : val_main_v78 (F := Ideal) x8 = wrapCol 50000#32 x8 := rfl

/-! ## The gathers -/

/-- In range, the gather of a table of 100000 rows at the prepared user indices is the specification's gather:
    the wrap keeps every word, and the clamp into [0, 99999] keeps every row number. -/
theorem gather_rows_U (tbl : FVec Ideal S100000x64 .f32) (x : IVec S4096 32) (h : InRange 100000 x) :
    Host.gather gather_S100000x64_S4096x1_S4096x64_1_0_n_n_0_1_164 tbl (wrapCol 100000#32 x) = gatherU tbl x := by
  funext j
  obtain ⟨r, d, rfl⟩ : ∃ (r : Fin 4096) (d : Fin 64), j = ix2 r d := ⟨j 0, j 1, eq_ix2 j⟩
  rw [Cert.Spec.gatherU_apply]
  refine (rowGather_apply (N := 100000) (R := 4096) (C := 64) (by decide)
    gather_S100000x64_S4096x1_S4096x64_1_0_n_n_0_1_164_wf tbl (wrapCol 100000#32 x) r d).trans ?_
  refine congrArg tbl (congrArg (fun p => ix2 p d) (Fin.ext ?_))
  show min (wrapCol 100000#32 x (ix2 r ⟨0, Nat.one_pos⟩)).toInt.toNat (100000 - 1) = (rowOf 100000 _ (x (ix1 r))).val
  rw [wrapCol_apply _ _ _ (h _).1, h.rowOf_val (by decide) (ix1 r)]
  have h1 := h.toInt_eq (ix1 r)
  have h2 := h.toNat_lt (ix1 r)
  omega

/-- The same for a table of 50000 rows at the prepared item indices. -/
theorem gather_rows_I (tbl : FVec Ideal S50000x64 .f32) (x : IVec S4096 32) (h : InRange 50000 x) :
    Host.gather gather_S50000x64_S4096x1_S4096x64_1_0_n_n_0_1_164 tbl (wrapCol 50000#32 x) = gatherI tbl x := by
  funext j
  obtain ⟨r, d, rfl⟩ : ∃ (r : Fin 4096) (d : Fin 64), j = ix2 r d := ⟨j 0, j 1, eq_ix2 j⟩
  rw [Cert.Spec.gatherI_apply]
  refine (rowGather_apply (N := 50000) (R := 4096) (C := 64) (by decide)
    gather_S50000x64_S4096x1_S4096x64_1_0_n_n_0_1_164_wf tbl (wrapCol 50000#32 x) r d).trans ?_
  refine congrArg tbl (congrArg (fun p => ix2 p d) (Fin.ext ?_))
  show min (wrapCol 50000#32 x (ix2 r ⟨0, Nat.one_pos⟩)).toInt.toNat (50000 - 1) = (rowOf 50000 _ (x (ix1 r))).val
  rw [wrapCol_apply _ _ _ (h _).1, h.rowOf_val (by decide) (ix1 r)]
  have h1 := h.toInt_eq (ix1 r)
  have h2 := h.toNat_lt (ix1 r)
  omega

/-- The four gather stages over the named tables and the prepared columns. -/
theorem v53_eq (x0 : FVec Ideal S100000x64 .f32) (x1 : FVec Ideal S50000x64 .f32) (x4 x5 : IVec S3200000 32)
    (x6 : FVec Ideal S3200000 .f32) (x7 : IVec S4096 32) :
    val_main_v53 (F := Ideal) x0 x1 x4 x5 x6 x7
      = Host.gather gather_S100000x64_S4096x1_S4096x64_1_0_n_n_0_1_164 (uAllOf x0 x1 x4 x5 x6) (wrapCol 100000#32 x7) := rfl
theorem v67_eq (x7 : IVec S4096 32) (x9 : FVec Ideal S100000x64 .f32) :
    val_main_v67 (F := Ideal) x7 x9 = Host.gather gather_S100000x64_S4096x1_S4096x64_1_0_n_n_0_1_164 x9 (wrapCol 100000#32 x7) := rfl
theorem v60_eq (x0 : FVec Ideal S100000x64 .f32) (x1 : FVec Ideal S50000x64 .f32) (x4 x5 : IVec S3200000 32)
    (x6 : FVec Ideal S3200000 .f32) (x8 : IVec S4096 32) :
    val_main_v60 (F := Ideal) x0 x1 x4 x5 x6 x8
      = Host.gather gather_S50000x64_S4096x1_S4096x64_1_0_n_n_0_1_164 (iAllOf x0 x1 x4 x5 x6) (wrapCol 50000#32 x8) := rfl
theorem v79_eq (x8 : IVec S4096 32) (x10 : FVec Ideal S50000x64 .f32) :
    val_main_v79 (F := Ideal) x8 x10 = Host.gather gather_S50000x64_S4096x1_S4096x64_1_0_n_n_0_1_164 x10 (wrapCol 50000#32 x8) := rfl

/-! ## The blends -/

/-- The user side's blend stage is the specification's blend of the two gathers. -/
theorem blend_user (x0 : FVec Ideal S100000x64 .f32) (x1 : FVec Ideal S50000x64 .f32) (x4 x5 : IVec S3200000 32)
    (x6 : FVec Ideal S3200000 .f32) (x7 : IVec S4096 32) (x9 : FVec Ideal S100000x64 .f32) (h : InRange 100000 x7) :
    val_main_v72 (F := Ideal) x0 x1 x4 x5 x6 x7 x9
      = blendOf (gatherU (uAllOf x0 x1 x4 x5 x6) x7) (gatherU x9 x7) := by
  funext j
  rw [val_main_v72_apply, val_main_v69_apply, val_main_v71_apply, val_main_v68_apply, val_main_v70_apply,
    val_main_cst_14_apply, val_main_cst_15_apply, v53_eq, v67_eq, gather_rows_U _ _ h, gather_rows_U _ _ h]
  rfl

/-- The item side's blend stage likewise. -/
theorem blend_item (x0 : FVec Ideal S100000x64 .f32) (x1 : FVec Ideal S50000x64 .f32) (x4 x5 : IVec S3200000 32)
    (x6 : FVec Ideal S3200000 .f32) (x8 : IVec S4096 32) (x10 : FVec Ideal S50000x64 .f32) (h : InRange 50000 x8) :
    val_main_v84 (F := Ideal) x0 x1 x4 x5 x6 x8 x10
      = blendOf (gatherI (iAllOf x0 x1 x4 x5 x6) x8) (gatherI x10 x8) := by
  funext j
  rw [val_main_v84_apply, val_main_v81_apply, val_main_v83_apply, val_main_v80_apply, val_main_v82_apply,
    val_main_cst_18_apply, val_main_cst_19_apply, v60_eq, v79_eq, gather_rows_I _ _ h, gather_rows_I _ _ h]
  rfl

/-! ## The projections -/

/-- The user side's projection stage is the specification's projection of the gather through the transposed weight:
    the contraction's left index is (r, e), its right index (e, d) of the transposed weight, and the bias is read
    at the column. -/
theorem proj_user (x0 : FVec Ideal S100000x64 .f32) (x1 : FVec Ideal S50000x64 .f32) (x2 : FVec Ideal S64x64 .f32)
    (x3 : FVec Ideal S64 .f32) (x4 x5 : IVec S3200000 32) (x6 : FVec Ideal S3200000 .f32) (x7 : IVec S4096 32)
    (h : InRange 100000 x7) :
    val_main_v89 (F := Ideal) x0 x1 x2 x3 x4 x5 x6 x7
      = projWt (gatherU (uAllOf x0 x1 x4 x5 x6) x7) (wTOf x2) x3 := by
  funext j
  obtain ⟨r, d, rfl⟩ : ∃ (r : Fin 4096) (d : Fin 64), j = ix2 r d := ⟨j 0, j 1, eq_ix2 j⟩
  have el : ∀ k : Fin 64, lidx_main_v86 (ix2 r d) k = ix2 r k := fun k => funext fun a => Fin.ext (by
    match a with
    | ⟨0, _⟩ => rfl
    | ⟨1, _⟩ => rfl)
  have er : ∀ k : Fin 64, val_main_v85 (F := Ideal) x2 (ridx_main_v86 (ix2 r d) k) = wTOf x2 (ix2 k d) := fun k => by
    rw [val_main_v85_apply, wTOf_apply]
    exact congrArg x2 (funext fun a => Fin.ext (by
      match a with
      | ⟨0, _⟩ => rfl
      | ⟨1, _⟩ => rfl))
  have eb : idx_main_v87 (idx_main_v88 (ix2 r d)) = ix1 d := funext fun a => Fin.ext (by
    match a with
    | ⟨0, _⟩ => rfl)
  rw [Cert.Spec.projWt_apply, val_main_v89_apply, val_main_v86_apply, val_main_v88_apply, val_main_v87_apply, eb,
    v53_eq, gather_rows_U _ _ h]
  simp only [el, er]
  rfl

/-- The item side's projection stage likewise. -/
theorem proj_item (x0 : FVec Ideal S100000x64 .f32) (x1 : FVec Ideal S50000x64 .f32) (x2 : FVec Ideal S64x64 .f32)
    (x3 : FVec Ideal S64 .f32) (x4 x5 : IVec S3200000 32) (x6 : FVec Ideal S3200000 .f32) (x8 : IVec S4096 32)
    (h : InRange 50000 x8) :
    val_main_v94 (F := Ideal) x0 x1 x2 x3 x4 x5 x6 x8
      = projWt (gatherI (iAllOf x0 x1 x4 x5 x6) x8) (wTOf x2) x3 := by
  funext j
  obtain ⟨r, d, rfl⟩ : ∃ (r : Fin 4096) (d : Fin 64), j = ix2 r d := ⟨j 0, j 1, eq_ix2 j⟩
  have el : ∀ k : Fin 64, lidx_main_v91 (ix2 r d) k = ix2 r k := fun k => funext fun a => Fin.ext (by
    match a with
    | ⟨0, _⟩ => rfl
    | ⟨1, _⟩ => rfl)
  have er : ∀ k : Fin 64, val_main_v90 (F := Ideal) x2 (ridx_main_v91 (ix2 r d) k) = wTOf x2 (ix2 k d) := fun k => by
    rw [val_main_v90_apply, wTOf_apply]
    exact congrArg x2 (funext fun a => Fin.ext (by
      match a with
      | ⟨0, _⟩ => rfl
      | ⟨1, _⟩ => rfl))
  have eb : idx_main_v92 (idx_main_v93 (ix2 r d)) = ix1 d := funext fun a => Fin.ext (by
    match a with
    | ⟨0, _⟩ => rfl)
  rw [Cert.Spec.projWt_apply, val_main_v94_apply, val_main_v91_apply, val_main_v93_apply, val_main_v92_apply, eb,
    v60_eq, gather_rows_I _ _ h]
  simp only [el, er]
  rfl

/-! ## The reference's results, and its frame -/

/-- THE REFERENCE'S FOUR RESULTS. From a memory m' whose user indices lie in [0, 100000) and whose item indices lie
    in [0, 50000), on every core, the four result terms of the reference's run are: the projection and the blend of
    the user side's gathers, the projection and the blend of the item side's, each table half being the one named
    function of the five arrays and the weight being read transposed. -/
theorem ref_results (m' : (ℓ : Loc nD τ sig) → Buf (Elt Ideal) ℓ) (c : Dev nD)
    (hu : InRange 100000 (m' ((c.tc : Thread nD τ).loc main_arg7)))
    (hi : InRange 50000 (m' ((c.tc : Thread nD τ).loc main_arg8))) :
    Cert.ReferenceIdeal.Value.res_main_v89 m' c
        = projWt (gatherU (uAllOf (m' ((c.tc : Thread nD τ).loc main_arg0)) (m' ((c.tc : Thread nD τ).loc main_arg1)) (m' ((c.tc : Thread nD τ).loc main_arg4)) (m' ((c.tc : Thread nD τ).loc main_arg5)) (m' ((c.tc : Thread nD τ).loc main_arg6))) (m' ((c.tc : Thread nD τ).loc main_arg7)))
            (wTOf (m' ((c.tc : Thread nD τ).loc main_arg2))) (m' ((c.tc : Thread nD τ).loc main_arg3))
    ∧ Cert.ReferenceIdeal.Value.res_main_v72 m' c
        = blendOf (gatherU (uAllOf (m' ((c.tc : Thread nD τ).loc main_arg0)) (m' ((c.tc : Thread nD τ).loc main_arg1)) (m' ((c.tc : Thread nD τ).loc main_arg4)) (m' ((c.tc : Thread nD τ).loc main_arg5)) (m' ((c.tc : Thread nD τ).loc main_arg6))) (m' ((c.tc : Thread nD τ).loc main_arg7)))
            (gatherU (m' ((c.tc : Thread nD τ).loc main_arg9)) (m' ((c.tc : Thread nD τ).loc main_arg7)))
    ∧ Cert.ReferenceIdeal.Value.res_main_v94 m' c
        = projWt (gatherI (iAllOf (m' ((c.tc : Thread nD τ).loc main_arg0)) (m' ((c.tc : Thread nD τ).loc main_arg1)) (m' ((c.tc : Thread nD τ).loc main_arg4)) (m' ((c.tc : Thread nD τ).loc main_arg5)) (m' ((c.tc : Thread nD τ).loc main_arg6))) (m' ((c.tc : Thread nD τ).loc main_arg8)))
            (wTOf (m' ((c.tc : Thread nD τ).loc main_arg2))) (m' ((c.tc : Thread nD τ).loc main_arg3))
    ∧ Cert.ReferenceIdeal.Value.res_main_v84 m' c
        = blendOf (gatherI (iAllOf (m' ((c.tc : Thread nD τ).loc main_arg0)) (m' ((c.tc : Thread nD τ).loc main_arg1)) (m' ((c.tc : Thread nD τ).loc main_arg4)) (m' ((c.tc : Thread nD τ).loc main_arg5)) (m' ((c.tc : Thread nD τ).loc main_arg6))) (m' ((c.tc : Thread nD τ).loc main_arg8)))
            (gatherI (m' ((c.tc : Thread nD τ).loc main_arg10)) (m' ((c.tc : Thread nD τ).loc main_arg8))) :=
  ⟨(val_main_v89_eq m' c).trans (proj_user _ _ _ _ _ _ _ _ hu),
    (val_main_v72_eq m' c).trans (blend_user _ _ _ _ _ _ _ hu),
    (val_main_v94_eq m' c).trans (proj_item _ _ _ _ _ _ _ _ hi),
    (val_main_v84_eq m' c).trans (blend_item _ _ _ _ _ _ _ hi)⟩

/-- The reference runs and leaves its arguments as it found them: its run with the four results dropped. -/
theorem frame_ref : Cert.frame_ReferenceIdeal := fun m ρ _ =>
  (θ_run Cert.ReferenceIdeal.defs _ _).mono (fun _ h c => (h c).2.2.2.2)
    (Cert.ReferenceIdeal.Value.run (F := Ideal) m ρ)

end Cert.Bridge.Ref

end
-- ==== Proof.Pre.lean ====
/-
  Two readings of the program's inputs, at any float instance.

  (1) The precondition decoded. Its last two conjuncts are all((users >= 0) & (users < 100000)) and
  all((items >= 0) & (items < 50000)): an "and"-reduction of an i1 array that is 1 had a 1 at every index, an "and" of
  two bits that is 1 had both bits 1, and a signed comparison that is 1 orders the signed readings of its two words. So
  every index word of the users array is a row number of a table of 100000 rows, and every word of the items array a
  row number of a table of 50000 rows. The finiteness conjuncts in front are not read.

  (2) The host operations that run before the first kernel region, read back at the buffers the regions fetch.
  No operation writes an argument, so the eleven argument buffers still hold the launch contents. The weight buffer
  the regions read holds the transpose of the weight argument: entry (i, j) is the argument's entry (j, i). The two
  table buffers hold the first 100000 and the last 50000 rows of the layer-averaged table: the two argument tables
  stacked into one of 150000 rows, propagated three times along the edge list (gather the rows the column words
  name, scale by the edge weights, scatter-add into the rows the row words name, a negative column word wrapped by
  150000 first), and the four layers' sum divided by 4.
-/
import proofs.«404517_j50560355008860_1_alg».proof.Defs
import proofs.«404517_j50560355008860_1_alg».proof.Proof.Gen.Pre_finite_inputs
import proofs.«404517_j50560355008860_1_alg».proof.Proof.KernelIdealRegions
import proofs.«404517_j50560355008860_1_alg».proof.Proof.Spec
import Idealize.ShloMosaic.Lib.ReduceAll
import Idealize.ShloMosaic.Lib.StableHlo.Run
import Idealize.ShloMosaic.Lib.ValueLayout

noncomputable section

namespace Cert.Bridge.Pre

open Idealize.ShloMosaic Idealize.ShloMosaic.TcCoe Idealize.SL.Sem Idealize.ShloMosaic.ValueIdx

/-! ## The precondition decoded -/

section Decode

open Cert.Pre_finite_inputs

variable {F : FTy → Type} [FloatOps F]

/-- The scalar shape has one index. -/
local instance : Subsingleton S_.Idx := ⟨fun a b => funext fun d => d.elim0⟩

/-- One conjunct all((idx >= 0) & (idx < n)) that is 1: every word of idx, read signed, lies in [0, n). -/
theorem range_of_all (idx : IVec S4096 32) (n : BitVec 32) (init : IVec S_ 1) (j : S_.Idx)
    (hb : S_.BroadcastsInDim S4096 (![] : Fin 0 → Fin S4096.rank)) (hr : S4096.ReducesTo [0] S_) (hu : 0 < S_.numel)
    (e : Host.reduce IntOp.andi (andi (cmpi .sge idx (broadcastInDim S4096 ![] hb (constantI S_ 32 0#32)))
          (cmpi .slt idx (broadcastInDim S4096 ![] hb (constantI S_ 32 n)))) init hr hu j = 1#1) (i : S4096.Idx) :
    0 ≤ (idx i).toInt ∧ (idx i).toInt < n.toInt := by
  have h := Host.reduce_andi_all _ init hr hu j e i
  obtain ⟨h0, h1⟩ := IntOp.andi_eq_one.1 h
  have h0' : (0#32 : BitVec 32).toInt ≤ (idx i).toInt := IntOp.cmpi_sge.1 h0
  have h1' : (idx i).toInt < n.toInt := IntOp.cmpi_slt.1 h1
  have z : (0#32 : BitVec 32).toInt = 0 := by decide
  rw [z] at h0'
  exact ⟨h0', h1'⟩

/-- THE PRECONDITION DECODED: the users words are row numbers of a 100000-row table, the items words of a 50000-row one. -/
theorem inRange_of_pre (a0 : FVec F S100000x64 .f32) (a1 : FVec F S50000x64 .f32) (a2 : FVec F S64x64 .f32) (a3 : FVec F S64 .f32)
    (a4 a5 : IVec S3200000 32) (a6 : FVec F S3200000 .f32) (a7 a8 : IVec S4096 32) (a9 : FVec F S100000x64 .f32)
    (a10 : FVec F S50000x64 .f32)
    (h : fn (F := F) a0 a1 a2 a3 a4 a5 a6 a7 a8 a9 a10 = fun _ => 1#1) :
    Cert.Spec.InRange 100000 a7 ∧ Cert.Spec.InRange 50000 a8 := by
  have e := congrFun h ix0
  dsimp only [fn, fn_part1, fn_part2] at e
  obtain ⟨e1, eI⟩ := IntOp.andi_eq_one.1 e
  obtain ⟨-, eU⟩ := IntOp.andi_eq_one.1 e1
  have nU : (100000#32 : BitVec 32).toInt = 100000 := by decide
  have nI : (50000#32 : BitVec 32).toInt = 50000 := by decide
  refine ⟨fun j => ?_, fun j => ?_⟩
  · have r := range_of_all a7 100000#32 _ _ _ _ _ eU j
    rw [nU] at r
    exact ⟨r.1, by have := r.2; omega⟩
  · have r := range_of_all a8 50000#32 _ _ _ _ _ eI j
    rw [nI] at r
    exact ⟨r.1, by have := r.2; omega⟩

end Decode

/-! ## The precondition decoded at the program's launch memory -/

section AtLaunch

open Cert.KernelIdeal

/-- Under the program's precondition the users argument of every device holds row numbers of a 100000-row table. -/
theorem inRange_users {m} (h : Cert.Pre_KernelIdeal m) (c : Dev nD) :
    Cert.Spec.InRange 100000 (m ((c.tc : Thread nD τ).loc main_arg7)) :=
  (inRange_of_pre _ _ _ _ _ _ _ _ _ _ _ (h c)).1

/-- Under the program's precondition the items argument of every device holds row numbers of a 50000-row table. -/
theorem inRange_items {m} (h : Cert.Pre_KernelIdeal m) (c : Dev nD) :
    Cert.Spec.InRange 50000 (m ((c.tc : Thread nD τ).loc main_arg8)) :=
  (inRange_of_pre _ _ _ _ _ _ _ _ _ _ _ (h c)).2

end AtLaunch

/-! ## The host prefix read back -/

section HostPrefix

open Cert.KernelIdeal Cert.KernelIdeal.Gen Idealize.ShloMosaic.StableHlo

variable {F : FTy → Type} [FloatOps F]

/-- The layer-averaged table of 150000 rows as a function of the two argument tables (a0 on top of a1), the edge
    list (row words a4, column words a5) and the edge weights a6: three propagations, then the four layers' mean. -/
def avgK (a0 : FVec F S100000x64 .f32) (a1 : FVec F S50000x64 .f32) (a4 a5 : IVec S3200000 32) (a6 : FVec F S3200000 .f32) :
    FVec F S150000x64 .f32 :=
  let v0 : FVec F S150000x64 .f32 := concatenate S150000x64 0 [⟨S100000x64, a0⟩, ⟨S50000x64, a1⟩] concatenates_S100000x64_S50000x64_S150000x64_d0
  let col : IVec S3200000x1 32 := broadcastInDim S3200000x1 ![0] bcast_S3200000_S3200000x1_0
    (select (cmpi .slt a5 (broadcastInDim S3200000 ![] bcast_S_S3200000 (constantI S_ 32 0#32)))
      (addi a5 (broadcastInDim S3200000 ![] bcast_S_S3200000 (constantI S_ 32 150000#32))) a5)
  let wgt : FVec F S3200000x64 .f32 := broadcastInDim S3200000x64 ![0, 1] bcast_S3200000x1_S3200000x64_0_1
    (broadcastInDim S3200000x1 ![0] bcast_S3200000_S3200000x1_0 a6)
  let row : IVec S3200000x1 32 := broadcastInDim S3200000x1 ![0] bcast_S3200000_S3200000x1_0 a4
  let zero : FVec F S150000x64 .f32 := broadcastInDim S150000x64 ![] bcast_S_S150000x64 (constant S_ .f32 0x00000000#32)
  let hop (x : FVec F S150000x64 .f32) : FVec F S150000x64 .f32 :=
    Host.scatterAdd scatter_S150000x64_S3200000x1_S3200000x64_1_0_0_1 zero row
      (mulf wgt (Host.gather gather_S150000x64_S3200000x1_S3200000x64_1_0_n_n_0_1_164 x col))
  let l1 := hop v0
  let l2 := hop l1
  let l3 := hop l2
  Host.divf (addf (addf (addf v0 l1) l2) l3) (broadcastInDim S150000x64 ![] bcast_S_S150000x64 (constant S_ .f32 0x40800000#32))

/-- Its first 100000 rows: the table the user-side region reads. -/
def uAllK (a0 : FVec F S100000x64 .f32) (a1 : FVec F S50000x64 .f32) (a4 a5 : IVec S3200000 32) (a6 : FVec F S3200000 .f32) :
    FVec F S100000x64 .f32 :=
  extractStridedSlice S100000x64 ![0, 0] (avgK a0 a1 a4 a5 a6) slices_S150000x64_S100000x64_0_0

/-- Its last 50000 rows: the table the item-side region reads. -/
def iAllK (a0 : FVec F S100000x64 .f32) (a1 : FVec F S50000x64 .f32) (a4 a5 : IVec S3200000 32) (a6 : FVec F S3200000 .f32) :
    FVec F S50000x64 .f32 :=
  extractStridedSlice S50000x64 ![100000, 0] (avgK a0 a1 a4 a5 a6) slices_S150000x64_S50000x64_100000_0

variable (m : (ℓ : Loc nD τ sig) → Buf (Elt F) ℓ)

/-- No host operation writes an argument: after the prefix each argument buffer holds its launch contents. -/
theorem V1_arg0 (c : Dev nD) : V1 m c main_arg0 = m ((c : Thread nD τ).loc main_arg0) := V1_of m c main_arg0 (by decide)
theorem V1_arg1 (c : Dev nD) : V1 m c main_arg1 = m ((c : Thread nD τ).loc main_arg1) := V1_of m c main_arg1 (by decide)
theorem V1_arg2 (c : Dev nD) : V1 m c main_arg2 = m ((c : Thread nD τ).loc main_arg2) := V1_of m c main_arg2 (by decide)
theorem V1_arg3 (c : Dev nD) : V1 m c main_arg3 = m ((c : Thread nD τ).loc main_arg3) := V1_of m c main_arg3 (by decide)
theorem V1_arg4 (c : Dev nD) : V1 m c main_arg4 = m ((c : Thread nD τ).loc main_arg4) := V1_of m c main_arg4 (by decide)
theorem V1_arg5 (c : Dev nD) : V1 m c main_arg5 = m ((c : Thread nD τ).loc main_arg5) := V1_of m c main_arg5 (by decide)
theorem V1_arg6 (c : Dev nD) : V1 m c main_arg6 = m ((c : Thread nD τ).loc main_arg6) := V1_of m c main_arg6 (by decide)
theorem V1_arg7 (c : Dev nD) : V1 m c main_arg7 = m ((c : Thread nD τ).loc main_arg7) := V1_of m c main_arg7 (by decide)
theorem V1_arg8 (c : Dev nD) : V1 m c main_arg8 = m ((c : Thread nD τ).loc main_arg8) := V1_of m c main_arg8 (by decide)
theorem V1_arg9 (c : Dev nD) : V1 m c main_arg9 = m ((c : Thread nD τ).loc main_arg9) := V1_of m c main_arg9 (by decide)
theorem V1_arg10 (c : Dev nD) : V1 m c main_arg10 = m ((c : Thread nD τ).loc main_arg10) := V1_of m c main_arg10 (by decide)

/-- The weight buffer after the prefix is the weight argument transposed. -/
theorem V1_wt_eq (c : Dev nD) :
    (V1 m c main_v47 : (⟨S64x64, .f32⟩ : BufTy).Contents (Elt F))
      = transpose S64x64 [1, 0] (m ((c : Thread nD τ).loc main_arg2)) transposes_S64x64_S64x64_1_0 := by
  dsimp only [V1, hostOps0]
  after_results

/-- Read at an index: entry (j 0, j 1) of the weight buffer is entry (j 1, j 0) of the weight argument. -/
theorem V1_wt_apply (c : Dev nD) (j : S64x64.Idx) :
    (V1 m c main_v47 : S64x64.Idx → Elt F .f32) j = m ((c : Thread nD τ).loc main_arg2) (ix2 (j 1) (j 0)) := by
  rw [V1_wt_eq m c, eq_ix2 j]
  exact transpose_ix2_apply _ _ _ _

/-- The same as an equation of functions. -/
theorem V1_wt (c : Dev nD) :
    (V1 m c main_v47 : S64x64.Idx → Elt F .f32) = fun j => m ((c : Thread nD τ).loc main_arg2) (ix2 (j 1) (j 0)) :=
  funext fun j => V1_wt_apply m c j

set_option maxRecDepth 8192 in
set_option maxHeartbeats 8000000 in
/-- The user-side table buffer after the prefix: the first 100000 rows of the layer-averaged table of the launch contents. -/
theorem V1_tblU (c : Dev nD) :
    (V1 m c main_v45 : (⟨S100000x64, .f32⟩ : BufTy).Contents (Elt F))
      = uAllK (m ((c : Thread nD τ).loc main_arg0)) (m ((c : Thread nD τ).loc main_arg1)) (m ((c : Thread nD τ).loc main_arg4))
          (m ((c : Thread nD τ).loc main_arg5)) (m ((c : Thread nD τ).loc main_arg6)) := by
  dsimp only [V1, hostOps0]
  after_results_simp
  rfl

set_option maxRecDepth 8192 in
set_option maxHeartbeats 8000000 in
/-- The item-side table buffer after the prefix: the last 50000 rows of the same table. -/
theorem V1_tblI (c : Dev nD) :
    (V1 m c main_v46 : (⟨S50000x64, .f32⟩ : BufTy).Contents (Elt F))
      = iAllK (m ((c : Thread nD τ).loc main_arg0)) (m ((c : Thread nD τ).loc main_arg1)) (m ((c : Thread nD τ).loc main_arg4))
          (m ((c : Thread nD τ).loc main_arg5)) (m ((c : Thread nD τ).loc main_arg6)) := by
  dsimp only [V1, hostOps0]
  after_results_simp
  rfl

/-- Both at once. -/
theorem V1_tables (c : Dev nD) :
    (V1 m c main_v45 : (⟨S100000x64, .f32⟩ : BufTy).Contents (Elt F))
        = uAllK (m ((c : Thread nD τ).loc main_arg0)) (m ((c : Thread nD τ).loc main_arg1)) (m ((c : Thread nD τ).loc main_arg4))
            (m ((c : Thread nD τ).loc main_arg5)) (m ((c : Thread nD τ).loc main_arg6))
      ∧ (V1 m c main_v46 : (⟨S50000x64, .f32⟩ : BufTy).Contents (Elt F))
        = iAllK (m ((c : Thread nD τ).loc main_arg0)) (m ((c : Thread nD τ).loc main_arg1)) (m ((c : Thread nD τ).loc main_arg4))
            (m ((c : Thread nD τ).loc main_arg5)) (m ((c : Thread nD τ).loc main_arg6)) :=
  ⟨V1_tblU m c, V1_tblI m c⟩

end HostPrefix

end Cert.Bridge.Pre

end
-- ==== Proof.lean ====
/-
  A two-table embedding lookup with momentum blend and projection, against its jnp reference, over the extended reals.

  Both programs first average four propagation layers of the concatenated user / item embeddings (three sparse
  products by the same COO adjacency: gather source rows, scale, scatter-add to destination rows) — the SAME host
  operations on both sides, so the two averaged tables are one function of the arguments and are never opened.

  The kernel then selects rows by a blocked one-hot product: for batch entry r and table row j the weight is
  [idx r = j], so the accumulated sum over all table blocks is  Σ_j [idx r = j] · tbl (j, d) = tbl (idx r, d)
  whenever 0 ≤ idx r < rows (0 · x = 0 and 1 · x = x for every extended real, the infinities included, so no
  finiteness is needed). The reference selects the same row with a gather whose index is wrapped when negative and
  then clamped into range; in range both are the identity. That is the one place the precondition is used, and why
  the index inputs are required in range: out of range the kernel's one-hot row is empty (a zero row) while the
  reference reads a clamped row.

  On the selected rows g (averaged table) and h (history table) both sides compute  h · c₁ + g · c₂  with the same
  two f32 words c₁, c₂, and  Σ_e g (r, e) · W (d, e) + b d  (the kernel through a host transpose of W and a matrix
  product into a zero accumulator, the reference through a dot_general): the same finite sums.

  The frames: the kernel's two launches are certified region by region — per grid point the body's run in its three
  control cases (first block of a tile: the two running sums restart; last block: the results are written), the
  running sums carried between points in the region's invariant — and joined over the conditional frame of the
  program; no address, branch or trip count depends on an index input, so the frames need no hypothesis on them.
-/
import proofs.«404517_j50560355008860_1_alg».proof.Defs
import proofs.«404517_j50560355008860_1_alg».proof.Proof.Gen.Kernel
import proofs.«404517_j50560355008860_1_alg».proof.Proof.Gen.KernelIdeal
import proofs.«404517_j50560355008860_1_alg».proof.Proof.Gen.ReferenceIdeal
import proofs.«404517_j50560355008860_1_alg».proof.Proof.Gen.Pre_finite_inputs
import proofs.«404517_j50560355008860_1_alg».proof.Proof.FrameK
import proofs.«404517_j50560355008860_1_alg».proof.Proof.FrameKI
import proofs.«404517_j50560355008860_1_alg».proof.Proof.ValueU
import proofs.«404517_j50560355008860_1_alg».proof.Proof.ValueI
import proofs.«404517_j50560355008860_1_alg».proof.Proof.Ref
import proofs.«404517_j50560355008860_1_alg».proof.Proof.Pre

noncomputable section

namespace Cert.Proof

open Idealize.ShloMosaic Idealize.ShloMosaic.TcCoe Idealize.SL.Sem
open Cert.Spec Cert.Bridge.Ref Cert.Bridge.Pre

/-! ## The averaged tables are one function of the arguments on both sides -/

set_option maxRecDepth 8192 in
/-- The kernel program's host prefix and the reference's are the same operations: their composed terms for the
    user half of the layer-averaged table are one term. -/
theorem uAll_join : @uAllK Ideal _ = uAllOf := rfl

set_option maxRecDepth 8192 in
/-- The same for the item half. -/
theorem iAll_join : @iAllK Ideal _ = iAllOf := rfl

/-! ## The claims -/

theorem frame_k : Cert.frame_Kernel (hKernel := Cert.Kernel.Gen.facts) (hPre_finite_inputs := Cert.Pre_finite_inputs.Gen.facts) :=
  fun m ρ _ => Cert.Kernel.Whole.frame m ρ

theorem frame_ki : Cert.frame_KernelIdeal (hKernelIdeal := Cert.KernelIdeal.Gen.facts) (hPre_finite_inputs := Cert.Pre_finite_inputs.Gen.facts) :=
  fun m ρ _ => Cert.KernelIdeal.Whole.frame m ρ

theorem preserves : Cert.preserves_Kernel_KernelIdeal := trivial

theorem frame_ri : Cert.frame_ReferenceIdeal := Cert.Bridge.Ref.frame_ref

/-! ## The four results as functions of the kernel program's argument arrays -/

section Results

open Cert.KernelIdeal

variable (m : (ℓ : Loc nD τ sig) → Buf (Elt Ideal) ℓ) (c : Dev nD)

/-- An argument array of the kernel program on core c. -/
abbrev arg (r : Ref sig .tc) : Buf (Elt Ideal) ((c.tc : Thread nD τ).loc r) := m ((c.tc : Thread nD τ).loc r)

/-- The rows of the averaged user table the batch selects, and of the averaged item table. -/
def rowsU : FVec Ideal T4096x64 .f32 :=
  gatherU (uAllOf (arg m c main_arg0) (arg m c main_arg1) (arg m c main_arg4) (arg m c main_arg5) (arg m c main_arg6)) (arg m c main_arg7)
def rowsI : FVec Ideal T4096x64 .f32 :=
  gatherI (iAllOf (arg m c main_arg0) (arg m c main_arg1) (arg m c main_arg4) (arg m c main_arg5) (arg m c main_arg6)) (arg m c main_arg8)

/-- The four results: the two projections and the two momentum blends. -/
def projU : FVec Ideal T4096x64 .f32 := projWt (rowsU m c) (wTOf (arg m c main_arg2)) (arg m c main_arg3)
def blendU : FVec Ideal T4096x64 .f32 := blendOf (rowsU m c) (gatherU (arg m c main_arg9) (arg m c main_arg7))
def projI : FVec Ideal T4096x64 .f32 := projWt (rowsI m c) (wTOf (arg m c main_arg2)) (arg m c main_arg3)
def blendI : FVec Ideal T4096x64 .f32 := blendOf (rowsI m c) (gatherI (arg m c main_arg10) (arg m c main_arg8))

variable (hpre : Cert.Pre_KernelIdeal m)
include hpre

/-- What the user-side region leaves in its first result array: the projection of the selected rows. -/
theorem kernel_projU : Whole.outs m 2 main_v48_0 c = projU m c := by
  rw [Whole.outs_v48_0 m c, RegionU.arrAt_proj _ c (by
    show InRange 100000 (Gen.V1 m c main_arg7); rw [V1_arg7]; exact inRange_users hpre c)]
  show projWt (gatherU (Gen.V1 m c main_v45) (Gen.V1 m c main_arg7)) (Gen.V1 m c main_v47) (Gen.V1 m c main_arg3) = _
  rw [V1_tblU, V1_arg7, V1_wt, V1_arg3, uAll_join]; rfl

theorem kernel_blendU : Whole.outs m 2 main_v48_1 c = blendU m c := by
  rw [Whole.outs_v48_1 m c, RegionU.arrAt_blend _ c (by
    show InRange 100000 (Gen.V1 m c main_arg7); rw [V1_arg7]; exact inRange_users hpre c)]
  show blendOf (gatherU (Gen.V1 m c main_v45) (Gen.V1 m c main_arg7)) (gatherU (Gen.V1 m c main_arg9) (Gen.V1 m c main_arg7)) = _
  rw [V1_tblU, V1_arg7, V1_arg9, uAll_join]; rfl

/-- The item-side region is entered after the user side wrote its two results; it reads neither. -/
theorem kernel_projI : Whole.outs m 3 main_v49_0 c = projI m c := by
  rw [Whole.outs_v49_0 m c, RegionI.arrAt_proj _ c (by
    show InRange 50000 (Gen.V2 m (Whole.outs m) c main_arg8); rw [Gen.V2_of m _ c main_arg8 (by decide), V1_arg8]; exact inRange_items hpre c)]
  show projWt (gatherI (Gen.V2 m (Whole.outs m) c main_v46) (Gen.V2 m (Whole.outs m) c main_arg8)) (Gen.V2 m (Whole.outs m) c main_v47) (Gen.V2 m (Whole.outs m) c main_arg3) = _
  rw [Gen.V2_of m _ c main_v46 (by decide), Gen.V2_of m _ c main_arg8 (by decide), Gen.V2_of m _ c main_v47 (by decide), Gen.V2_of m _ c main_arg3 (by decide),
    V1_tblI, V1_arg8, V1_wt, V1_arg3, iAll_join]; rfl

theorem kernel_blendI : Whole.outs m 3 main_v49_1 c = blendI m c := by
  rw [Whole.outs_v49_1 m c, RegionI.arrAt_blend _ c (by
    show InRange 50000 (Gen.V2 m (Whole.outs m) c main_arg8); rw [Gen.V2_of m _ c main_arg8 (by decide), V1_arg8]; exact inRange_items hpre c)]
  show blendOf (gatherI (Gen.V2 m (Whole.outs m) c main_v46) (Gen.V2 m (Whole.outs m) c main_arg8)) (gatherI (Gen.V2 m (Whole.outs m) c main_arg10) (Gen.V2 m (Whole.outs m) c main_arg8)) = _
  rw [Gen.V2_of m _ c main_v46 (by decide), Gen.V2_of m _ c main_arg8 (by decide), Gen.V2_of m _ c main_arg10 (by decide),
    V1_tblI, V1_arg8, V1_arg10, iAll_join]; rfl

end Results

/-- Both programs end with the two projections and the two blends of the rows the in-range indices select. -/
theorem algebraic : Cert.algebraic_KernelIdeal_ReferenceIdeal := by
  intro m ρ m' ρ' hpre hagree
  refine ⟨fun c => projU m c, fun c => blendU m c, fun c => projI m c, fun c => blendI m c, ?_, ?_⟩
  · refine (θ_run Cert.KernelIdeal.defs _ _).mono (fun r h c => ?_) (Cert.KernelIdeal.Whole.run_results m ρ)
    obtain ⟨h0, h1, h2, h3, hargs⟩ := h c
    exact ⟨h0.trans (kernel_projU m c hpre), h1.trans (kernel_blendU m c hpre), h2.trans (kernel_projI m c hpre), h3.trans (kernel_blendI m c hpre), hargs⟩
  · refine (θ_run Cert.ReferenceIdeal.defs _ _).mono (fun r h c => ?_) (Cert.ReferenceIdeal.Value.run (F := Ideal) m' ρ')
    obtain ⟨a0, a1, a2, a3, a4, a5, a6, a7, a8, a9, a10⟩ := hagree c
    obtain ⟨r0, r1, r2, r3⟩ := ref_results m' c (by rw [a7]; exact inRange_users hpre c) (by rw [a8]; exact inRange_items hpre c)
    obtain ⟨h0, h1, h2, h3, hargs⟩ := h c
    refine ⟨h0.trans (r0.trans ?_), h1.trans (r1.trans ?_), h2.trans (r2.trans ?_), h3.trans (r3.trans ?_), hargs⟩
    all_goals (simp only [a0, a1, a2, a3, a4, a5, a6, a7, a8, a9, a10]; first | done | rfl)

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
